-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S128x64 : Shape := ⟨2, ![128, 64]⟩
abbrev S128x128 : Shape := ⟨2, ![128, 128]⟩
abbrev S128 : Shape := ⟨1, ![128]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128x128 .f32) (main_arg8 : FVec F S128x128 .f32) (main_arg9 : FVec F S128x128 .f32) (main_arg10 : FVec F S128 .f32) (main_arg11 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x64 .f32) (main_arg5 : FVec F S128x64 .f32) (main_arg6 : FVec F S128x64 .f32) (main_arg7 : FVec F S128x128 .f32) (main_arg8 : FVec F S128x128 .f32) (main_arg9 : FVec F S128x128 .f32) (main_arg10 : FVec F S128 .f32) (main_arg11 : FVec F S128 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x64 .f32) (main_arg1 : FVec F S8192x8192 .f32) (main_arg2 : FVec F S8192x8192 .f32) (main_arg3 : FVec F S8192x8192 .f32) (main_arg4 : FVec F S128x64 .f32) (main_arg5 : FVec F S128x64 .f32) (main_arg6 : FVec F S128x64 .f32) (main_arg7 : FVec F S128x128 .f32) (main_arg8 : FVec F S128x128 .f32) (main_arg9 : FVec F S128x128 .f32) (main_arg10 : FVec F S128 .f32) (main_arg11 : FVec F S128 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_v13 main_v16
-- ==== Kernel.lean ====
abbrev S8192x64 : Shape := ⟨2, ![8192, 64]⟩
abbrev S8192x8192 : Shape := ⟨2, ![8192, 8192]⟩
abbrev S128x64 : Shape := ⟨2, ![128, 64]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩
abbrev S512x1024 : Shape := ⟨2, ![512, 1024]⟩
abbrev S1024x64 : Shape := ⟨2, ![1024, 64]⟩
abbrev S512x128 : Shape := ⟨2, ![512, 128]⟩
abbrev S512x64 : Shape := ⟨2, ![512, 64]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 17
  | .vmem => 36
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x64, .f32⟩
  | .local _ .vmem, ⟨7, _⟩ => ⟨S1024x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1024x128, .f32⟩
  | .local _ .vmem, ⟨22, _⟩ => ⟨S1024x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S1024x128, .f32⟩
  | .local _ .vmem, ⟨31, _⟩ => ⟨S1024x128, .f32⟩
  | .local _ .vmem, ⟨32, _⟩ => ⟨S2048x128, .f32⟩
  | .local _ .vmem, ⟨33, _⟩ => ⟨S2048x128, .f32⟩
  | .local _ .vmem, ⟨34, _⟩ => ⟨S1024x2048, .f32⟩
  | .local _ .vmem, ⟨35, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_31 : BitVec 32 := 0#32
  let v44 : BitVec 1 := Scalar.cmpi .ne v43 c0_i32_31
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  dot_S512x1024_S1024x64_S512x64_1_0_0_1_n_n_wf : DotDims.WF S512x1024 S1024x64 S512x64 [1] [0] [0] [1] [] []
  dot_S512x64_S128x64_S512x128_1_1_0_0_n_n_wf : DotDims.WF S512x64 S128x64 S512x128 [1] [1] [0] [0] [] []
  dot_S512x1024_S1024x128_S512x128_1_0_0_1_n_n_wf : DotDims.WF S512x1024 S1024x128 S512x128 [1] [0] [0] [1] [] []
  dot_S512x128_S128x128_S512x128_1_1_0_0_n_n_wf : DotDims.WF S512x128 S128x128 S512x128 [1] [1] [0] [0] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .f32 = 32 ∨ (Rect.block (s := S8192x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S8192x128.size a
  hwx0_8 : ∀ i : grid0.Coords, EltTy.bits .f32 = 32 ∨ (Rect.block (s := S8192x128) S512x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x8192.size a
  hwx1_1 : ∀ i : grid1.Coords, EltTy.bits .f32 = 32 ∨ (Rect.block (s := S8192x8192) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x8192.size a
  hwx1_2 : ∀ i : grid1.Coords, EltTy.bits .f32 = 32 ∨ (Rect.block (s := S8192x8192) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S8192x128.size a
  hwx1_8 : ∀ i : grid1.Coords, EltTy.bits .f32 = 32 ∨ (Rect.block (s := S8192x128) S512x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S8192x8192.size a
  hwx2_2 : ∀ i : grid2.Coords, EltTy.bits .f32 = 32 ∨ (Rect.block (s := S8192x8192) S1024x2048.size (cc2_transform_2 i) (hinb2_2 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S128x64_S512x128_1_1_0_0_n_n : DotDims S512x64 S128x64 S512x128 where
  lhsContracting := [1]
  rhsContracting := [1]
  lhsNonContracting := [0]
  rhsNonContracting := [0]
  lhsBatch := []
  rhsBatch := []
  wf := dot_S512x64_S128x64_S512x128_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S512x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v3) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S128x64 : Shape := ⟨2, ![128, 64]⟩
abbrev S128x128 : Shape := ⟨2, ![128, 128]⟩
abbrev S128 : Shape := ⟨1, ![128]⟩
abbrev S64x128 : Shape := ⟨2, ![64, 128]⟩
abbrev S8192x128 : Shape := ⟨2, ![8192, 128]⟩
abbrev S_ : Shape := ⟨0, ![]⟩
abbrev S1x128 : Shape := ⟨2, ![1, 128]⟩
abbrev S128x8192 : Shape := ⟨2, ![128, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S8192x64, .f32⟩
  | .hbm, ⟨13, _⟩ => ⟨S64x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x64, .f32⟩
  | .hbm, ⟨19, _⟩ => ⟨S64x128, .f32⟩
  | .hbm, ⟨20, _⟩ => ⟨S8192x128, .f32⟩
  | .hbm, ⟨21, _⟩ => ⟨S8192x128, .f32⟩
  | .hbm, ⟨22, _⟩ => ⟨S8192x64, .f32⟩
  | .hbm, ⟨23, _⟩ => ⟨S64x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S128x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S128x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S128x128, .f32⟩
  | .hbm, ⟨44, _⟩ => ⟨S8192x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S128x8192, .f32⟩
  | .hbm, ⟨50, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  transposes_S128x64_S64x128_1_0 : S128x64.Transposes [1, 0] S64x128
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S128x128_S128x128_1_0 : S128x128.Transposes [1, 0] S128x128
  transposes_S8192x128_S128x8192_1_0 : S8192x128.Transposes [1, 0] S128x8192
  dot_S8192x8192_S8192x64_S8192x64_1_0_0_1_n_n_wf : DotDims.WF S8192x8192 S8192x64 S8192x64 [1] [0] [0] [1] [] []
  dot_S8192x64_S64x128_S8192x128_1_0_0_1_n_n_wf : DotDims.WF S8192x64 S64x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Steps.lean ====
/-
  One grid point of a graph-convolution layer, as a function of the blocks the point sees: the accumulator block
  `s` (512 rows of the layer's output) gains, for each of the three edge types r, the product
  (A_r-block · X-block) · W_rᵀ, in the order r = 0, 1, 2. Layer 1 reads 64 features, layer 2 reads 128.
  The terms are the body's own store payloads composed in program order; nothing is computed here.
-/
import proofs.«157318_j36885179138300_1_alg».proof.Proof.Gen.Kernel.Skeleton

noncomputable section

namespace Cert.Kernel.Hand

open Idealize.ShloMosaic Cert.Kernel Cert.Kernel.Gen

variable {F : FTy → Type} [FloatOps F]

/-- Layer 1, one point: `s + Σ_r (a_r · x) · w_rᵀ`, added one edge type at a time. -/
def step0 (x : Vec F S1024x64 .f32) (a0 a1 a2 : Vec F S512x1024 .f32) (w0 w1 w2 : Vec F S128x64 .f32)
    (s : Vec F S512x128 .f32) : Vec F S512x128 .f32 :=
  k0_pay1 (k0_pay4 x) a2 w2 (k0_pay6 x a1 w1 (k0_pay5 x a0 w0 s))

/-- Layer 1, the last point of a row of blocks: the bias row added along the rows, then the positive part. -/
def fin0 (s : Vec F S512x128 .f32) (b : Vec F S1x128 .f32) : Vec F S512x128 .f32 := k0_pay2 s b

/-- Layer 2, one point. -/
def step1 (x : Vec F S1024x128 .f32) (a0 a1 a2 : Vec F S512x1024 .f32) (w0 w1 w2 : Vec F S128x128 .f32)
    (s : Vec F S512x128 .f32) : Vec F S512x128 .f32 :=
  k1_pay1 (k1_pay4 x) a2 w2 (k1_pay6 x a1 w1 (k1_pay5 x a0 w0 s))

/-- Layer 2, the last point of a row of blocks: the bias row added along the rows. -/
def fin1 (s : Vec F S512x128 .f32) (b : Vec F S1x128 .f32) : Vec F S512x128 .f32 := k1_pay2 s b

end Cert.Kernel.Hand

end
-- ==== Proof.K.Layer0.lean ====
/-
  One graph-convolution layer as a pipeline of 16 × 8 grid points, stated at arbitrary contents `V` of the core's
  buffers when the layer is entered. Point t = 8·i + j handles row block i of the output and column block j of the
  three adjacency matrices. The accumulator block is reset at j = 0, gains Σ_r (A_r-block · X-block) · W_rᵀ at
  every j (`step0`), and at j = 7 the output block becomes `fin0` of the accumulator and the bias row. This module
  names what the accumulator and the output block hold after each point and shows that one run of the body takes
  the contents before a point to the contents after it.
-/
import proofs.«157318_j36885179138300_1_alg».proof.Proof.K.Steps
import proofs.«157318_j36885179138300_1_alg».proof.Proof.Gen.Kernel.Skeleton
import proofs.«157318_j36885179138300_1_alg».proof.Proof.Gen.Kernel.Launch
import proofs.«157318_j36885179138300_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.L0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window `w`'s block at point `t`, read off the window's array as the layer finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator block `s`, on the blocks the point sees. -/
def stepAt (c : Dev nD) (t : Fin cfg0.N) (s : Vec F S512x128 .f32) : Vec F S512x128 .f32 :=
  step0 (iblk V c 3 t) (iblk V c 0 t) (iblk V c 1 t) (iblk V c 2 t) (iblk V c 4 t) (iblk V c 5 t) (iblk V c 6 t) s

/-! ## The accumulator and the output block after each point -/

/-- The accumulator block after point `n`: at the first column block of a row of blocks (n ≡ 0 mod 8) the update of
    the zero block, otherwise the update of what point `n - 1` left. -/
def accAt (c : Dev nD) : (n : ℕ) → n < cfg0.N → Vec F S512x128 .f32
  | 0, hn => stepAt V c ⟨0, hn⟩ k0_pay3
  | n + 1, hn =>
    if (n + 1) % 8 = 0 then stepAt V c ⟨n + 1, hn⟩ k0_pay3
    else stepAt V c ⟨n + 1, hn⟩ (accAt c n (Nat.lt_of_succ_lt hn))

theorem accAt_first (c : Dev nD) (t : Fin cfg0.N) (h : t.val % 8 = 0) :
    accAt V c t.val t.isLt = step0 (iblk V c 3 t) (iblk V c 0 t) (iblk V c 1 t) (iblk V c 2 t) (iblk V c 4 t) (iblk V c 5 t) (iblk V c 6 t) k0_pay3 := by
  obtain ⟨n, hn⟩ := t
  cases n with
  | zero => rfl
  | succ n => exact (if_pos h).trans rfl

theorem accAt_next (c : Dev nD) (t : Fin cfg0.N) (h : t.val % 8 ≠ 0) :
    accAt V c t.val t.isLt = step0 (iblk V c 3 t) (iblk V c 0 t) (iblk V c 1 t) (iblk V c 2 t) (iblk V c 4 t) (iblk V c 5 t) (iblk V c 6 t) (accAt V c (t.val - 1) (by omega)) := by
  obtain ⟨n, hn⟩ := t
  cases n with
  | zero => exact absurd (Nat.zero_mod _) h
  | succ n => exact (if_neg h).trans rfl

/-- The output block after a last column block (n ≡ 7 mod 8): `fin0` of the accumulator and the bias row. At the
    other points the output block is not stored into and this term is not consulted. -/
def outAt (c : Dev nD) (n : ℕ) (hn : n < cfg0.N) : Vec F S512x128 .f32 := fin0 (accAt V c n hn) (iblk V c 7 ⟨n, hn⟩)

/-! ## The invariant between points -/

/-- The accumulator's buffer. -/
abbrev scM : Memref sig .tc .vmem S512x128 .f32 := Memref.whole cc0_scratch0

/-- The core's other scoped buffers that no window of this layer stages, at some contents each. -/
def restS (c : Dev nD) : sProp 𝕄 :=
  Pipeline.scopedRestBut (Ix := Unit) (Name := ℕ) (U := UR sig nD τ) (Lvl := ℕ) (Val := Elt F) spec0 c [cc0_scratch0]

/-- Before the first point the accumulator holds anything; before point `n + 1` it holds `accAt n`. -/
def PhiS (c : Dev nD) : (n : ℕ) → n ≤ cfg0.N → sProp 𝕄
  | 0, _ => Pipeline.ΦA spec0 c
  | n + 1, hn => iprop((owns (c : Thread nD τ) scM fullShare (accAt V c n hn) ∗ restS c) ∗ (∃ r, prngReg c r))

/-! ## The proof data -/

/-- The arrays as the layer finds them; after the body at point `t` each input's buffer at its block and the output's
    at `outAt`; the invariant `PhiS`; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = outAt V c t.val t.isLt := by dsimp only [dat]

/-! An input window's buffer holds the window's block at every point, fetched there or carried over: an input is
    never idle, never cut, and the body leaves it as it was. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- An input is live at every point, so the body hands its buffer back at the block. -/
theorem leaves_0 (c : Dev nD) (t : Fin cfg0.N) :
    (dat V c).leavesExact 0 t = owns (c : Thread nD τ) (st0_0 t) fullShare (iblk V c 0 t) := by
  unfold Dat.leavesExact; rw [show cfg0.idle 0 (grid0.coords t) = false from rfl, after_0]
theorem leaves_1 (c : Dev nD) (t : Fin cfg0.N) :
    (dat V c).leavesExact 1 t = owns (c : Thread nD τ) (st0_1 t) fullShare (iblk V c 1 t) := by
  unfold Dat.leavesExact; rw [show cfg0.idle 1 (grid0.coords t) = false from rfl, after_1]
theorem leaves_2 (c : Dev nD) (t : Fin cfg0.N) :
    (dat V c).leavesExact 2 t = owns (c : Thread nD τ) (st0_2 t) fullShare (iblk V c 2 t) := by
  unfold Dat.leavesExact; rw [show cfg0.idle 2 (grid0.coords t) = false from rfl, after_2]
theorem leaves_3 (c : Dev nD) (t : Fin cfg0.N) :
    (dat V c).leavesExact 3 t = owns (c : Thread nD τ) (st0_3 t) fullShare (iblk V c 3 t) := by
  unfold Dat.leavesExact; rw [show cfg0.idle 3 (grid0.coords t) = false from rfl, after_3]
theorem leaves_4 (c : Dev nD) (t : Fin cfg0.N) :
    (dat V c).leavesExact 4 t = owns (c : Thread nD τ) (st0_4 t) fullShare (iblk V c 4 t) := by
  unfold Dat.leavesExact; rw [show cfg0.idle 4 (grid0.coords t) = false from rfl, after_4]
theorem leaves_5 (c : Dev nD) (t : Fin cfg0.N) :
    (dat V c).leavesExact 5 t = owns (c : Thread nD τ) (st0_5 t) fullShare (iblk V c 5 t) := by
  unfold Dat.leavesExact; rw [show cfg0.idle 5 (grid0.coords t) = false from rfl, after_5]
theorem leaves_6 (c : Dev nD) (t : Fin cfg0.N) :
    (dat V c).leavesExact 6 t = owns (c : Thread nD τ) (st0_6 t) fullShare (iblk V c 6 t) := by
  unfold Dat.leavesExact; rw [show cfg0.idle 6 (grid0.coords t) = false from rfl, after_6]
theorem leaves_7 (c : Dev nD) (t : Fin cfg0.N) :
    (dat V c).leavesExact 7 t = owns (c : Thread nD τ) (st0_7 t) fullShare (iblk V c 7 t) := by
  unfold Dat.leavesExact; rw [show cfg0.idle 7 (grid0.coords t) = false from rfl, after_7]

/-! ## The invariant opened -/

/-- The core's scoped buffers that no window stages: the accumulator's, then the others. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS c) :=
  Pipeline.scopedRest_split_of_list spec0 c [cc0_scratch0] (by decide) (by decide)

theorem PhiA_eq (c : Dev nD) :
    (Pipeline.ΦA spec0 c : sProp 𝕄)
      = iprop(((∃ d, owns (c : Thread nD τ) scM fullShare d) ∗ restS c) ∗ (∃ r, prngReg c r)) := by
  unfold Pipeline.ΦA; rw [scopedRest_split]; simp only [scM, owns_whole]; rfl

theorem PhiS_zero (c : Dev nD) (n : ℕ) (h : n ≤ cfg0.N) (hn : n = 0) : PhiS V c n h = Pipeline.ΦA spec0 c := by
  subst hn; rfl

theorem PhiS_succ (c : Dev nD) (n : ℕ) (hn : n < cfg0.N) :
    PhiS V c (n + 1) hn = iprop((owns (c : Thread nD τ) scM fullShare (accAt V c n hn) ∗ restS c) ∗ (∃ r, prngReg c r)) := rfl

theorem PhiS_pos (c : Dev nD) (n : ℕ) (h : n ≤ cfg0.N) (hn : n ≠ 0) :
    PhiS V c n h = iprop((owns (c : Thread nD τ) scM fullShare (accAt V c (n - 1) (by omega)) ∗ restS c) ∗ (∃ r, prngReg c r)) := by
  cases n with
  | zero => exact absurd rfl hn
  | succ n => rfl

theorem PhiS_castSucc (c : Dev nD) (t : Fin cfg0.N) :
    (dat V c).Φ t.castSucc = PhiS V c t.val (Nat.le_of_lt t.isLt) := by
  dsimp only [dat]; simp only [Fin.coe_castSucc]

/-! ## The three kinds of point -/

theorem hz : (![0, 0] : Fin 2 → Nat) = fun _ => 0 := funext fun a => by fin_cases a <;> rfl

/-- The body resets the accumulator exactly at the first column block of a row of blocks, -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- and stores the output block exactly at the last. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-- Off the last column block the output window is idle and its block is not written back; at it the window is live. -/
theorem idle_out : ∀ t : Fin cfg0.N, ¬condLast (grid0.coords t) → cfg0.idle 8 (grid0.coords t) = true := by decide +kernel
theorem noFlush_out : ∀ t : Fin cfg0.N, ¬condLast (grid0.coords t) → (cfg0.win 8).flush t = false := by decide +kernel
theorem live_out : ∀ t : Fin cfg0.N, condLast (grid0.coords t) → cfg0.idle 8 (grid0.coords t) = false := by decide +kernel

/-! ## One run of the body -/

/-- The eight input buffers at given contents. -/
def insAt (c : Dev nD) (arg2 arg3 arg4 : Memref sig .tc .vmem S512x1024 .f32) (arg5 : Memref sig .tc .vmem S1024x64 .f32)
    (arg6 arg7 arg8 : Memref sig .tc .vmem S128x64 .f32) (arg9 : Memref sig .tc .vmem S1x128 .f32)
    (a0 a1 a2 : Vec F S512x1024 .f32) (x : Vec F S1024x64 .f32) (w0 w1 w2 : Vec F S128x64 .f32) (b : Vec F S1x128 .f32) : sProp 𝕄 :=
  iprop(owns (c : Thread nD τ) arg2 fullShare a0 ∗ owns (c : Thread nD τ) arg3 fullShare a1 ∗ owns (c : Thread nD τ) arg4 fullShare a2
    ∗ owns (c : Thread nD τ) arg5 fullShare x ∗ owns (c : Thread nD τ) arg6 fullShare w0 ∗ owns (c : Thread nD τ) arg7 fullShare w1
    ∗ owns (c : Thread nD τ) arg8 fullShare w2 ∗ owns (c : Thread nD τ) arg9 fullShare b)

set_option maxHeartbeats 4000000 in
/-- A first column block: whatever the accumulator held, it ends at the update of the zero block; the inputs and the
    output buffer are as they were. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : condFirst i) (hc1 : ¬condLast i)
    (a0 a1 a2 : Vec F S512x1024 .f32) (x : Vec F S1024x64 .f32) (w0 w1 w2 : Vec F S128x64 .f32) (b : Vec F S1x128 .f32)
    (o : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ (∃ d, owns (c : Thread nD τ) arg11 fullShare d)
        ∗ (iprop(insAt c arg2 arg3 arg4 arg5 arg6 arg7 arg8 arg9 a0 a1 a2 x w0 w1 w2 b ∗ owns (c : Thread nD τ) arg10 fullShare o
            ∗ owns (c : Thread nD τ) arg11 fullShare (step0 x a0 a1 a2 w0 w1 w2 k0_pay3)) -∗ K ⟨⟩))
      ⊢ wp frame (wpE (defs₀ (F := F)) Variants.none c none) E (cc0__gcn_layer_kernel i arg2 harg2 arg3 harg3 arg4 harg4 arg5 harg5 arg6 harg6 arg7 harg7 arg8 harg8 arg9 harg9 arg10 harg10 arg11 harg11) K := by
  simp only [cc0__gcn_layer_kernel_eq_skeleton]; unfold cc0__gcn_layer_kernel_skel
  simp only [k0_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%d11, %f11, -, H11⟩, Hk⟩
  subst hf2 hf3 hf4 hf5 hf6 hf7 hf8 hf9 hf10
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step0
  sl_unfold_words
  simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]

set_option maxHeartbeats 4000000 in
/-- A column block that is neither first nor last: the accumulator goes from `s` to its update. -/
theorem run_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : ¬condLast i)
    (a0 a1 a2 : Vec F S512x1024 .f32) (x : Vec F S1024x64 .f32) (w0 w1 w2 : Vec F S128x64 .f32) (b : Vec F S1x128 .f32)
    (o s : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ owns (c : Thread nD τ) arg11 fullShare s
        ∗ (iprop(insAt c arg2 arg3 arg4 arg5 arg6 arg7 arg8 arg9 a0 a1 a2 x w0 w1 w2 b ∗ owns (c : Thread nD τ) arg10 fullShare o
            ∗ owns (c : Thread nD τ) arg11 fullShare (step0 x a0 a1 a2 w0 w1 w2 s)) -∗ K ⟨⟩))
      ⊢ wp frame (wpE (defs₀ (F := F)) Variants.none c none) E (cc0__gcn_layer_kernel i arg2 harg2 arg3 harg3 arg4 harg4 arg5 harg5 arg6 harg6 arg7 harg7 arg8 harg8 arg9 harg9 arg10 harg10 arg11 harg11) K := by
  simp only [cc0__gcn_layer_kernel_eq_skeleton]; unfold cc0__gcn_layer_kernel_skel
  simp only [k0_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  subst hf2 hf3 hf4 hf5 hf6 hf7 hf8 hf9 hf10 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step0
  sl_unfold_words
  simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]

set_option maxHeartbeats 4000000 in
/-- A last column block: the accumulator goes from `s` to its update, and the output buffer, whatever it held, ends at
    `fin0` of that and the bias row. -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : condLast i)
    (a0 a1 a2 : Vec F S512x1024 .f32) (x : Vec F S1024x64 .f32) (w0 w1 w2 : Vec F S128x64 .f32) (b : Vec F S1x128 .f32)
    (s : Vec F S512x128 .f32) (E : Set ℕ) (K : PUnit → sProp 𝕄) :
    iprop(insAt c arg2 arg3 arg4 arg5 arg6 arg7 arg8 arg9 a0 a1 a2 x w0 w1 w2 b ∗ (∃ d, owns (c : Thread nD τ) arg10 fullShare d) ∗ owns (c : Thread nD τ) arg11 fullShare s
        ∗ (iprop(insAt c arg2 arg3 arg4 arg5 arg6 arg7 arg8 arg9 a0 a1 a2 x w0 w1 w2 b ∗ owns (c : Thread nD τ) arg10 fullShare (fin0 (step0 x a0 a1 a2 w0 w1 w2 s) b)
            ∗ owns (c : Thread nD τ) arg11 fullShare (step0 x a0 a1 a2 w0 w1 w2 s)) -∗ K ⟨⟩))
      ⊢ wp frame (wpE (defs₀ (F := F)) Variants.none c none) E (cc0__gcn_layer_kernel i arg2 harg2 arg3 harg3 arg4 harg4 arg5 harg5 arg6 harg6 arg7 harg7 arg8 harg8 arg9 harg9 arg10 harg10 arg11 harg11) K := by
  simp only [cc0__gcn_layer_kernel_eq_skeleton]; unfold cc0__gcn_layer_kernel_skel
  simp only [k0_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, Hk⟩
  subst hf2 hf3 hf4 hf5 hf6 hf7 hf8 hf9 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    swap; · iexact H10
    ipureintro
    refine (View.read_writes_eq_canon _ _ _ (fun y => ⟨_, List.mem_cons_self .., View.mem_set_unit_zero hz inb_S512x128_S512x128_0_0 y⟩)).trans ?_
    rw [View.canon_cons_unit_zero (S := S512x128) hz]
    delta fin0 step0
    sl_unfold_words
    simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step0
  sl_unfold_words
  simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]

/-! ## The body obligation -/

/-- What the body is handed at point `t`: the invariant, what the core owes, and the nine windows' buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- What it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 4000000 in
/-- The body at any point. The inputs' buffers hold their blocks; the point's position in its row of blocks says which
    of the three runs applies; the invariant hands over the accumulator at what the point before left (at anything at
    the very first point) and takes it back at this point's contents. Off the last column block the output buffer
    passes through untouched; at it the buffer ends at `outAt`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [leaves_0, leaves_1, leaves_2, leaves_3, leaves_4, leaves_5, leaves_6, leaves_7]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  by_cases h0 : t.val % 8 = 0
  · have h1 : ¬t.val % 8 = 7 := by omega
    have hc0 : condFirst (grid0.coords t) := (hcondFirst t).mpr h0
    have hc1 : ¬condLast (grid0.coords t) := fun h => h1 ((hcondLast t).mp h)
    rw [Dat.leavesExact_idle (dat V c) 8 t (idle_out t hc1) (noFlush_out t hc1)]
    rw [accAt_first V c t h0]
    by_cases hz0 : t.val = 0
    · rw [PhiS_castSucc V c t, PhiS_zero V c _ _ hz0, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexists _; iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz0 : t.val ≠ 0 := fun h => h0 (by rw [h])
    have hc0 : ¬condFirst (grid0.coords t) := fun h => h0 ((hcondFirst t).mp h)
    by_cases h1 : t.val % 8 = 7
    · have hc1 : condLast (grid0.coords t) := (hcondLast t).mpr h1
      rw [show (dat V c).leavesExact 8 t = owns (c : Thread nD τ) (st0_8 t) fullShare ((dat V c).after 8 t) from by
        unfold Dat.leavesExact; rw [live_out t hc1], after_8]
      unfold outAt
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬condLast (grid0.coords t) := fun h => h1 ((hcondLast t).mp h)
      rw [Dat.leavesExact_idle (dat V c) 8 t (idle_out t hc1) (noFlush_out t hc1)]
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dat (F := F) V c) (defs₀ (F := F)) Variants.none () Set.univ := fun t => by
  rw [bigSep_W0, bigSep_W0]
  exact sound_body V c t

/-! ## Entering and leaving the layer -/

/-- Before the first point the invariant is the scoped buffers at anything, as the layer is handed them. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the accumulator's named contents may be forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]; · iexists _; iexact HS
    iexact HR
  iexact Hg

theorem hout (c : Dev nD) : (dat V c).Φ (Fin.last cfg0.N) ⊢ Pipeline.ΦA spec0 c :=
  Phi_out V c _ (by rw [Fin.val_last]; have : cfg0.N = 128 := N_0; omega)

end Cert.Kernel.L0

end
-- ==== Proof.K.Layer1.lean ====
/-
  One graph-convolution layer as a pipeline of 16 × 8 grid points, stated at arbitrary contents `V` of the core's
  buffers when the layer is entered. Point t = 8·i + j handles row block i of the output and column block j of the
  three adjacency matrices. The accumulator block is reset at j = 0, gains Σ_r (A_r-block · X-block) · W_rᵀ at
  every j (`step1`), and at j = 7 the output block becomes `fin1` of the accumulator and the bias row. This module
  names what the accumulator and the output block hold after each point and shows that one run of the body takes
  the contents before a point to the contents after it.
-/
import proofs.«157318_j36885179138300_1_alg».proof.Proof.K.Steps
import proofs.«157318_j36885179138300_1_alg».proof.Proof.Gen.Kernel.Skeleton
import proofs.«157318_j36885179138300_1_alg».proof.Proof.Gen.Kernel.Launch
import proofs.«157318_j36885179138300_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window `w`'s block at point `t`, read off the window's array as the layer finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator block `s`, on the blocks the point sees. -/
def stepAt (c : Dev nD) (t : Fin cfg1.N) (s : Vec F S512x128 .f32) : Vec F S512x128 .f32 :=
  step1 (iblk V c 3 t) (iblk V c 0 t) (iblk V c 1 t) (iblk V c 2 t) (iblk V c 4 t) (iblk V c 5 t) (iblk V c 6 t) s

/-! ## The accumulator and the output block after each point -/

/-- The accumulator block after point `n`: at the first column block of a row of blocks (n ≡ 0 mod 8) the update of
    the zero block, otherwise the update of what point `n - 1` left. -/
def accAt (c : Dev nD) : (n : ℕ) → n < cfg1.N → Vec F S512x128 .f32
  | 0, hn => stepAt V c ⟨0, hn⟩ k1_pay3
  | n + 1, hn =>
    if (n + 1) % 8 = 0 then stepAt V c ⟨n + 1, hn⟩ k1_pay3
    else stepAt V c ⟨n + 1, hn⟩ (accAt c n (Nat.lt_of_succ_lt hn))

theorem accAt_first (c : Dev nD) (t : Fin cfg1.N) (h : t.val % 8 = 0) :
    accAt V c t.val t.isLt = step1 (iblk V c 3 t) (iblk V c 0 t) (iblk V c 1 t) (iblk V c 2 t) (iblk V c 4 t) (iblk V c 5 t) (iblk V c 6 t) k1_pay3 := by
  obtain ⟨n, hn⟩ := t
  cases n with
  | zero => rfl
  | succ n => exact (if_pos h).trans rfl

theorem accAt_next (c : Dev nD) (t : Fin cfg1.N) (h : t.val % 8 ≠ 0) :
    accAt V c t.val t.isLt = step1 (iblk V c 3 t) (iblk V c 0 t) (iblk V c 1 t) (iblk V c 2 t) (iblk V c 4 t) (iblk V c 5 t) (iblk V c 6 t) (accAt V c (t.val - 1) (by omega)) := by
  obtain ⟨n, hn⟩ := t
  cases n with
  | zero => exact absurd (Nat.zero_mod _) h
  | succ n => exact (if_neg h).trans rfl

/-- The output block after a last column block (n ≡ 7 mod 8): `fin1` of the accumulator and the bias row. At the
    other points the output block is not stored into and this term is not consulted. -/
def outAt (c : Dev nD) (n : ℕ) (hn : n < cfg1.N) : Vec F S512x128 .f32 := fin1 (accAt V c n hn) (iblk V c 7 ⟨n, hn⟩)

/-! ## The invariant between points -/

/-- The accumulator's buffer. -/
abbrev scM : Memref sig .tc .vmem S512x128 .f32 := Memref.whole cc1_scratch0

/-- The core's other scoped buffers that no window of this layer stages, at some contents each. -/
def restS (c : Dev nD) : sProp 𝕄 :=
  Pipeline.scopedRestBut (Ix := Unit) (Name := ℕ) (U := UR sig nD τ) (Lvl := ℕ) (Val := Elt F) spec1 c [cc1_scratch0]

/-- Before the first point the accumulator holds anything; before point `n + 1` it holds `accAt n`. -/
def PhiS (c : Dev nD) : (n : ℕ) → n ≤ cfg1.N → sProp 𝕄
  | 0, _ => Pipeline.ΦA spec1 c
  | n + 1, hn => iprop((owns (c : Thread nD τ) scM fullShare (accAt V c n hn) ∗ restS c) ∗ (∃ r, prngReg c r))

/-! ## The proof data -/

/-- The arrays as the layer finds them; after the body at point `t` each input's buffer at its block and the output's
    at `outAt`; the invariant `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = outAt V c t.val t.isLt := by dsimp only [dat]

/-! An input window's buffer holds the window's block at every point, fetched there or carried over: an input is
    never idle, never cut, and the body leaves it as it was. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- An input is live at every point, so the body hands its buffer back at the block. -/
theorem leaves_0 (c : Dev nD) (t : Fin cfg1.N) :
    (dat V c).leavesExact 0 t = owns (c : Thread nD τ) (st1_0 t) fullShare (iblk V c 0 t) := by
  unfold Dat.leavesExact; rw [show cfg1.idle 0 (grid1.coords t) = false from rfl, after_0]
theorem leaves_1 (c : Dev nD) (t : Fin cfg1.N) :
    (dat V c).leavesExact 1 t = owns (c : Thread nD τ) (st1_1 t) fullShare (iblk V c 1 t) := by
  unfold Dat.leavesExact; rw [show cfg1.idle 1 (grid1.coords t) = false from rfl, after_1]
theorem leaves_2 (c : Dev nD) (t : Fin cfg1.N) :
    (dat V c).leavesExact 2 t = owns (c : Thread nD τ) (st1_2 t) fullShare (iblk V c 2 t) := by
  unfold Dat.leavesExact; rw [show cfg1.idle 2 (grid1.coords t) = false from rfl, after_2]
theorem leaves_3 (c : Dev nD) (t : Fin cfg1.N) :
    (dat V c).leavesExact 3 t = owns (c : Thread nD τ) (st1_3 t) fullShare (iblk V c 3 t) := by
  unfold Dat.leavesExact; rw [show cfg1.idle 3 (grid1.coords t) = false from rfl, after_3]
theorem leaves_4 (c : Dev nD) (t : Fin cfg1.N) :
    (dat V c).leavesExact 4 t = owns (c : Thread nD τ) (st1_4 t) fullShare (iblk V c 4 t) := by
  unfold Dat.leavesExact; rw [show cfg1.idle 4 (grid1.coords t) = false from rfl, after_4]
theorem leaves_5 (c : Dev nD) (t : Fin cfg1.N) :
    (dat V c).leavesExact 5 t = owns (c : Thread nD τ) (st1_5 t) fullShare (iblk V c 5 t) := by
  unfold Dat.leavesExact; rw [show cfg1.idle 5 (grid1.coords t) = false from rfl, after_5]
theorem leaves_6 (c : Dev nD) (t : Fin cfg1.N) :
    (dat V c).leavesExact 6 t = owns (c : Thread nD τ) (st1_6 t) fullShare (iblk V c 6 t) := by
  unfold Dat.leavesExact; rw [show cfg1.idle 6 (grid1.coords t) = false from rfl, after_6]
theorem leaves_7 (c : Dev nD) (t : Fin cfg1.N) :
    (dat V c).leavesExact 7 t = owns (c : Thread nD τ) (st1_7 t) fullShare (iblk V c 7 t) := by
  unfold Dat.leavesExact; rw [show cfg1.idle 7 (grid1.coords t) = false from rfl, after_7]

/-! ## The invariant opened -/

/-- The core's scoped buffers that no window stages: the accumulator's, then the others. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS c) :=
  Pipeline.scopedRest_split_of_list spec1 c [cc1_scratch0] (by decide) (by decide)

theorem PhiA_eq (c : Dev nD) :
    (Pipeline.ΦA spec1 c : sProp 𝕄)
      = iprop(((∃ d, owns (c : Thread nD τ) scM fullShare d) ∗ restS c) ∗ (∃ r, prngReg c r)) := by
  unfold Pipeline.ΦA; rw [scopedRest_split]; simp only [scM, owns_whole]; rfl

theorem PhiS_zero (c : Dev nD) (n : ℕ) (h : n ≤ cfg1.N) (hn : n = 0) : PhiS V c n h = Pipeline.ΦA spec1 c := by
  subst hn; rfl

theorem PhiS_succ (c : Dev nD) (n : ℕ) (hn : n < cfg1.N) :
    PhiS V c (n + 1) hn = iprop((owns (c : Thread nD τ) scM fullShare (accAt V c n hn) ∗ restS c) ∗ (∃ r, prngReg c r)) := rfl

theorem PhiS_pos (c : Dev nD) (n : ℕ) (h : n ≤ cfg1.N) (hn : n ≠ 0) :
    PhiS V c n h = iprop((owns (c : Thread nD τ) scM fullShare (accAt V c (n - 1) (by omega)) ∗ restS c) ∗ (∃ r, prngReg c r)) := by
  cases n with
  | zero => exact absurd rfl hn
  | succ n => rfl

theorem PhiS_castSucc (c : Dev nD) (t : Fin cfg1.N) :
    (dat V c).Φ t.castSucc = PhiS V c t.val (Nat.le_of_lt t.isLt) := by
  dsimp only [dat]; simp only [Fin.coe_castSucc]

/-! ## The three kinds of point -/

theorem hz : (![0, 0] : Fin 2 → Nat) = fun _ => 0 := funext fun a => by fin_cases a <;> rfl

/-- The body resets the accumulator exactly at the first column block of a row of blocks, -/
abbrev condFirst (i : grid1.Coords) : Prop :=
  (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- and stores the output block exactly at the last. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-- Off the last column block the output window is idle and its block is not written back; at it the window is live. -/
theorem idle_out : ∀ t : Fin cfg1.N, ¬condLast (grid1.coords t) → cfg1.idle 8 (grid1.coords t) = true := by decide +kernel
theorem noFlush_out : ∀ t : Fin cfg1.N, ¬condLast (grid1.coords t) → (cfg1.win 8).flush t = false := by decide +kernel
theorem live_out : ∀ t : Fin cfg1.N, condLast (grid1.coords t) → cfg1.idle 8 (grid1.coords t) = false := by decide +kernel

/-! ## One run of the body -/

/-- The eight input buffers at given contents. -/
def insAt (c : Dev nD) (arg2 arg3 arg4 : Memref sig .tc .vmem S512x1024 .f32) (arg5 : Memref sig .tc .vmem S1024x128 .f32)
    (arg6 arg7 arg8 : Memref sig .tc .vmem S128x128 .f32) (arg9 : Memref sig .tc .vmem S1x128 .f32)
    (a0 a1 a2 : Vec F S512x1024 .f32) (x : Vec F S1024x128 .f32) (w0 w1 w2 : Vec F S128x128 .f32) (b : Vec F S1x128 .f32) : sProp 𝕄 :=
  iprop(owns (c : Thread nD τ) arg2 fullShare a0 ∗ owns (c : Thread nD τ) arg3 fullShare a1 ∗ owns (c : Thread nD τ) arg4 fullShare a2
    ∗ owns (c : Thread nD τ) arg5 fullShare x ∗ owns (c : Thread nD τ) arg6 fullShare w0 ∗ owns (c : Thread nD τ) arg7 fullShare w1
    ∗ owns (c : Thread nD τ) arg8 fullShare w2 ∗ owns (c : Thread nD τ) arg9 fullShare b)

set_option maxHeartbeats 4000000 in
/-- A first column block: whatever the accumulator held, it ends at the update of the zero block; the inputs and the
    output buffer are as they were. -/
theorem run_first (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : condFirst i) (hc1 : ¬condLast i)
    (a0 a1 a2 : Vec F S512x1024 .f32) (x : Vec F S1024x128 .f32) (w0 w1 w2 : Vec F S128x128 .f32) (b : Vec F S1x128 .f32)
    (o : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ (∃ d, owns (c : Thread nD τ) arg11 fullShare d)
        ∗ (iprop(insAt c arg2 arg3 arg4 arg5 arg6 arg7 arg8 arg9 a0 a1 a2 x w0 w1 w2 b ∗ owns (c : Thread nD τ) arg10 fullShare o
            ∗ owns (c : Thread nD τ) arg11 fullShare (step1 x a0 a1 a2 w0 w1 w2 k1_pay3)) -∗ K ⟨⟩))
      ⊢ wp frame (wpE (defs₀ (F := F)) Variants.none c none) E (cc1__gcn_layer_kernel i arg2 harg2 arg3 harg3 arg4 harg4 arg5 harg5 arg6 harg6 arg7 harg7 arg8 harg8 arg9 harg9 arg10 harg10 arg11 harg11) K := by
  simp only [cc1__gcn_layer_kernel_eq_skeleton]; unfold cc1__gcn_layer_kernel_skel
  simp only [k1_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%d11, %f11, -, H11⟩, Hk⟩
  subst hf2 hf3 hf4 hf5 hf6 hf7 hf8 hf9 hf10
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step1
  sl_unfold_words
  simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]

set_option maxHeartbeats 4000000 in
/-- A column block that is neither first nor last: the accumulator goes from `s` to its update. -/
theorem run_mid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : ¬condLast i)
    (a0 a1 a2 : Vec F S512x1024 .f32) (x : Vec F S1024x128 .f32) (w0 w1 w2 : Vec F S128x128 .f32) (b : Vec F S1x128 .f32)
    (o s : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ owns (c : Thread nD τ) arg11 fullShare s
        ∗ (iprop(insAt c arg2 arg3 arg4 arg5 arg6 arg7 arg8 arg9 a0 a1 a2 x w0 w1 w2 b ∗ owns (c : Thread nD τ) arg10 fullShare o
            ∗ owns (c : Thread nD τ) arg11 fullShare (step1 x a0 a1 a2 w0 w1 w2 s)) -∗ K ⟨⟩))
      ⊢ wp frame (wpE (defs₀ (F := F)) Variants.none c none) E (cc1__gcn_layer_kernel i arg2 harg2 arg3 harg3 arg4 harg4 arg5 harg5 arg6 harg6 arg7 harg7 arg8 harg8 arg9 harg9 arg10 harg10 arg11 harg11) K := by
  simp only [cc1__gcn_layer_kernel_eq_skeleton]; unfold cc1__gcn_layer_kernel_skel
  simp only [k1_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  subst hf2 hf3 hf4 hf5 hf6 hf7 hf8 hf9 hf10 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step1
  sl_unfold_words
  simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]

set_option maxHeartbeats 4000000 in
/-- A last column block: the accumulator goes from `s` to its update, and the output buffer, whatever it held, ends at
    `fin1` of that and the bias row. -/
theorem run_last (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : condLast i)
    (a0 a1 a2 : Vec F S512x1024 .f32) (x : Vec F S1024x128 .f32) (w0 w1 w2 : Vec F S128x128 .f32) (b : Vec F S1x128 .f32)
    (s : Vec F S512x128 .f32) (E : Set ℕ) (K : PUnit → sProp 𝕄) :
    iprop(insAt c arg2 arg3 arg4 arg5 arg6 arg7 arg8 arg9 a0 a1 a2 x w0 w1 w2 b ∗ (∃ d, owns (c : Thread nD τ) arg10 fullShare d) ∗ owns (c : Thread nD τ) arg11 fullShare s
        ∗ (iprop(insAt c arg2 arg3 arg4 arg5 arg6 arg7 arg8 arg9 a0 a1 a2 x w0 w1 w2 b ∗ owns (c : Thread nD τ) arg10 fullShare (fin1 (step1 x a0 a1 a2 w0 w1 w2 s) b)
            ∗ owns (c : Thread nD τ) arg11 fullShare (step1 x a0 a1 a2 w0 w1 w2 s)) -∗ K ⟨⟩))
      ⊢ wp frame (wpE (defs₀ (F := F)) Variants.none c none) E (cc1__gcn_layer_kernel i arg2 harg2 arg3 harg3 arg4 harg4 arg5 harg5 arg6 harg6 arg7 harg7 arg8 harg8 arg9 harg9 arg10 harg10 arg11 harg11) K := by
  simp only [cc1__gcn_layer_kernel_eq_skeleton]; unfold cc1__gcn_layer_kernel_skel
  simp only [k1_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, Hk⟩
  subst hf2 hf3 hf4 hf5 hf6 hf7 hf8 hf9 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    swap; · iexact H10
    ipureintro
    refine (View.read_writes_eq_canon _ _ _ (fun y => ⟨_, List.mem_cons_self .., View.mem_set_unit_zero hz inb_S512x128_S512x128_0_0 y⟩)).trans ?_
    rw [View.canon_cons_unit_zero (S := S512x128) hz]
    delta fin1 step1
    sl_unfold_words
    simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step1
  sl_unfold_words
  simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]

/-! ## The body obligation -/

/-- What the body is handed at point `t`: the invariant, what the core owes, and the nine windows' buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What it hands back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 4000000 in
/-- The body at any point. The inputs' buffers hold their blocks; the point's position in its row of blocks says which
    of the three runs applies; the invariant hands over the accumulator at what the point before left (at anything at
    the very first point) and takes it back at this point's contents. Off the last column block the output buffer
    passes through untouched; at it the buffer ends at `outAt`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [leaves_0, leaves_1, leaves_2, leaves_3, leaves_4, leaves_5, leaves_6, leaves_7]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 8 = 0
  · have h1 : ¬t.val % 8 = 7 := by omega
    have hc0 : condFirst (grid1.coords t) := (hcondFirst t).mpr h0
    have hc1 : ¬condLast (grid1.coords t) := fun h => h1 ((hcondLast t).mp h)
    rw [Dat.leavesExact_idle (dat V c) 8 t (idle_out t hc1) (noFlush_out t hc1)]
    rw [accAt_first V c t h0]
    by_cases hz0 : t.val = 0
    · rw [PhiS_castSucc V c t, PhiS_zero V c _ _ hz0, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexists _; iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz0 : t.val ≠ 0 := fun h => h0 (by rw [h])
    have hc0 : ¬condFirst (grid1.coords t) := fun h => h0 ((hcondFirst t).mp h)
    by_cases h1 : t.val % 8 = 7
    · have hc1 : condLast (grid1.coords t) := (hcondLast t).mpr h1
      rw [show (dat V c).leavesExact 8 t = owns (c : Thread nD τ) (st1_8 t) fullShare ((dat V c).after 8 t) from by
        unfold Dat.leavesExact; rw [live_out t hc1], after_8]
      unfold outAt
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬condLast (grid1.coords t) := fun h => h1 ((hcondLast t).mp h)
      rw [Dat.leavesExact_idle (dat V c) 8 t (idle_out t hc1) (noFlush_out t hc1)]
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dat (F := F) V c) (defs₀ (F := F)) Variants.none () Set.univ := fun t => by
  rw [bigSep_W1, bigSep_W1]
  exact sound_body V c t

/-! ## Entering and leaving the layer -/

/-- Before the first point the invariant is the scoped buffers at anything, as the layer is handed them. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the accumulator's named contents may be forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]; · iexists _; iexact HS
    iexact HR
  iexact Hg

theorem hout (c : Dev nD) : (dat V c).Φ (Fin.last cfg1.N) ⊢ Pipeline.ΦA spec1 c :=
  Phi_out V c _ (by rw [Fin.val_last]; have : cfg1.N = 128 := N_1; omega)

end Cert.Kernel.L1

end
-- ==== Proof.K.Decode.lean ====
/-
  The decode step: logits = Z · Zᵀ, one 1024 × 2048 block of the 8192 × 8192 result per grid point (8 × 4 points).
  At point t = 4·i + j the body reads rows 1024·i … of Z (its first window) and rows 2048·j … of Z (its second
  window), and writes the whole output block as ONE product of the two. Both input windows look at the SAME
  array Z; the array is therefore held in two halves, one per window, for as long as the region runs, and is
  whole again when the region is left.
-/
import proofs.«157318_j36885179138300_1_alg».proof.Proof.Gen.Kernel.Launch
import proofs.«157318_j36885179138300_1_alg».proof.Proof.Gen.Kernel.Skeleton
import proofs.«157318_j36885179138300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every array of the core holds when the decode step is entered
variable (V : (c : Dev nD) → (b : Ref sig .tc) → Buf (Elt F) ((c : Thread nD τ).loc b))

/-! ## The blocks the two input windows see -/

/-- Window w's block at point t, read off its array as the step finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The proof data -/

/-- Z's rows for the first window, Z's rows for the second, and the product block; the two readers of Z hold a
    half of it each. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay1 (iblk V c 0 t) (iblk V c 1 t)
  Φ _ := Pipeline.ΦA spec2 c
  q w := match w with
    | ⟨0, _⟩ => (fullShare : PosShare TreeShare).left
    | ⟨1, _⟩ => (fullShare : PosShare TreeShare).right
    | ⟨2, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k2_pay1 (iblk V c 0 t) (iblk V c 1 t) := by dsimp only [dat]

/-! ## The input windows hold their blocks at every point -/

/-- The first window moves on only when i does (every fourth point); in between, the rows it fetched are still
    there, and they are the rows of the point at hand because the block index has not moved. -/
theorem before_0 (c : Dev nD) (t : Fin cfg2.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The second window is fetched afresh at every point. -/
theorem before_1 (c : Dev nD) (t : Fin cfg2.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## One point of the body -/

theorem zeros : (![0, 0] : Fin 2 → ℕ) = fun _ => 0 := by
  funext a; fin_cases a <;> rfl

set_option maxHeartbeats 1000000 in
/-- With x₀ in the first buffer and x₁ in the second, the body leaves both as they were and the third at the
    product block of x₀ and x₁, whatever the third held: its one store covers the whole buffer. -/
theorem sound_kernel (c : Dev nD) (E : Set ℕ) (i : grid2.Coords)
    (arg2 : Memref sig .tc .vmem S1024x128 .f32) (harg2 : arg2.IsWhole)
    (arg3 : Memref sig .tc .vmem S2048x128 .f32) (harg3 : arg3.IsWhole)
    (arg4 : Memref sig .tc .vmem S1024x2048 .f32) (harg4 : arg4.IsWhole)
    (x0 : Vec F S1024x128 .f32) (x1 : Vec F S2048x128 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k2_pay1 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have e0 : View.readAt (Elt F) arg2.view (Rect.unit ![0, 0] S1024x128.size inb_S1024x128_S1024x128_0_0).toLoadRect f0
      = arg2.view.read (Elt F) f0 := View.ld_unit_zero zeros inb_S1024x128_S1024x128_0_0 _
  have e1 : View.readAt (Elt F) arg3.view (Rect.unit ![0, 0] S2048x128.size inb_S2048x128_S2048x128_0_0).toLoadRect f1
      = arg3.view.read (Elt F) f1 := View.ld_unit_zero zeros inb_S2048x128_S2048x128_0_0 _
  rw [View.read_writes_eq_canon _ _ _
      (fun y => ⟨_, List.mem_singleton_self _, View.mem_set_unit_zero zeros inb_S1024x2048_S1024x2048_0_0 y⟩),
    View.canon_unit_zero zeros, e0, e1]

/-! ## The obligation at a point -/

/-- What the body is handed at point t: the invariant, the core's debts, and the three current buffers. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The two input buffers hold their blocks, so the body's triple applies; the invariant and the debts are not
    looked at. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact sound_body V c t

/-! ## Z dealt to its two readers, and gathered again -/

theorem share_0 (c : Dev nD) : (dat V c).share 0 = (fullShare : PosShare TreeShare).left := by
  unfold Dat.share; rw [if_neg (by decide)]; dsimp only [dat]

theorem share_1 (c : Dev nD) : (dat V c).share 1 = (fullShare : PosShare TreeShare).right := by
  unfold Dat.share; rw [if_neg (by decide)]; dsimp only [dat]

theorem share_2 (c : Dev nD) : (dat V c).share 2 = fullShare := by
  unfold Dat.share; rw [if_pos (by decide)]

/-- The windows' arrays at contents G, where the two readers of Z see the same contents X and the output array
    holds Y, are Z whole at X and the output array whole at Y: the two halves of Z's share make the whole. -/
theorem arrays_iff (c : Dev nD)
    (G : (w : Fin cfg2.W) → Buf (Elt F) ((cfg2.win w).arr.view.loc (c : Thread nD τ)))
    (X : Buf (Elt F) ((c : Thread nD τ).loc main_v3)) (Y : Buf (Elt F) ((c : Thread nD τ).loc main_v4))
    (h0 : G 0 = X) (h1 : G 1 = X) (h2 : G 2 = Y) :
    ((dat V c).arrays G : sProp 𝕄)
      ⊣⊢ iprop((((c : Thread nD τ).loc main_v3) ↦{fullShare} X) ∗ (((c : Thread nD τ).loc main_v4) ↦{fullShare} Y)) := by
  unfold Dat.arrays
  rw [bigSep_W2, share_0, share_1, share_2,
    (arr_whole2 0).set_eq_univ, (arr_whole2 2).set_eq_univ, h0, h1, h2]
  have hs : (((c : Thread nD τ).loc main_v3) ↦{fullShare} X : sProp 𝕄)
      ⊣⊢ iprop((((c : Thread nD τ).loc main_v3) ↦{(fullShare : PosShare TreeShare).left} X)
          ∗ (((c : Thread nD τ).loc main_v3) ↦{(fullShare : PosShare TreeShare).right} X)) :=
    pointsTo_share (PosShare.mem_left_op_right fullShare)
  constructor
  · iintro ⟨Ha, Hb, Hc⟩
    isplitl [Ha Hb]
    · iapply hs.2
      isplitl [Ha]; · iexact Ha
      iexact Hb
    iexact Hc
  · iintro ⟨Hab, Hc⟩
    ihave H := hs.1 $$ Hab
    icases H with ⟨Ha, Hb⟩
    isplitl [Ha]; · iexact Ha
    isplitl [Hb]; · iexact Hb
    iexact Hc

/-- The buffers behind the windows: Z and the output array. -/
theorem arrImage : Finset.univ.image (Pipeline.arrRef spec2) = {main_v3, main_v4} := by decide

/-- Entering the step: out of every array of the core, Z goes to its two readers by halves and the output array
    to its window; the other arrays stay aside. -/
theorem arrays_of_held (c : Dev nD) (W : Valuation τ sig (Elt F)) (hV : ∀ b, V c b = W (Proc.devRef .tc b)) :
    StableHlo.held (c : Thread nD τ) (Pipeline.ucRefs τ sig) W
      ⊢ iprop((dat V c).arrays ((dat V c).arrAt · 0)
          ∗ Pipeline.unscopedRest (Ix := Unit) (Name := ℕ) (U := UR sig nD τ) (Lvl := ℕ) spec2 c (V c)) := by
  have key : (unscopedBufs (Ix := Unit) (Name := ℕ) (U := UR sig nD τ) (Lvl := ℕ) c (fun b => W b) : sProp 𝕄)
      ⊢ iprop((dat V c).arrays ((dat V c).arrAt · 0)
          ∗ Pipeline.unscopedRest (Ix := Unit) (Name := ℕ) (U := UR sig nD τ) (Lvl := ℕ) spec2 c (V c)) := by
    rw [show (fun b : Ref sig .tc => W b) = V c from funext fun b => (hV b).symm,
      Pipeline.unscopedBufs_split₀ cfgs 2 winFacts₀2.arr_unscoped c (V c)]
    refine sep_mono_left ?_
    unfold Pipeline.arrBufs
    rw [show Finset.univ.image (Pipeline.arrRef (cfgs 2).spec) = {main_v3, main_v4} from arrImage,
        bigSep_insert (by decide), bigSep_singleton]
    exact (arrays_iff V c _ (V c main_v3) (V c main_v4) (A_eq V c 0) (A_eq V c 1) (A_eq V c 2)).2
  rw [Pipeline.unscopedBufs_held] at key
  exact key

/-- Leaving the step: the two halves of Z come back together, unchanged; the output array is what the written-back
    blocks made of it; the other arrays were never touched. -/
theorem held_of_arrays (c : Dev nD) (W W' : Valuation τ sig (Elt F)) (hV : ∀ b, V c b = W (Proc.devRef .tc b))
    (hout : W' (Proc.devRef .tc main_v4) = (dat V c).arrAt 2 cfg2.N)
    (hrest : ∀ b : Ref sig .tc, b ≠ main_v4 → W' (Proc.devRef .tc b) = W (Proc.devRef .tc b)) :
    iprop((dat V c).arrays ((dat V c).arrAt · cfg2.N)
        ∗ Pipeline.unscopedRest (Ix := Unit) (Name := ℕ) (U := UR sig nD τ) (Lvl := ℕ) spec2 c (V c))
      ⊢ StableHlo.held (c : Thread nD τ) (Pipeline.ucRefs τ sig) W' := by
  have hZ : (dat V c).arrAt 0 cfg2.N = W' (Proc.devRef .tc main_v3) := by
    rw [(dat V c).arrAt_in 0 rfl, A_eq, hrest main_v3 (by decide)]; exact hV main_v3
  have hZ' : (dat V c).arrAt 1 cfg2.N = W' (Proc.devRef .tc main_v3) := by
    rw [(dat V c).arrAt_in 1 rfl, A_eq, hrest main_v3 (by decide)]; exact hV main_v3
  have key : iprop((dat V c).arrays ((dat V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c (fun b => W' b) : sProp 𝕄) := by
    rw [Pipeline.unscopedBufs_split₀ cfgs 2 winFacts₀2.arr_unscoped c (fun b => W' b)]
    refine BI.sep_mono ?_ ?_
    · unfold Pipeline.arrBufs
      rw [show Finset.univ.image (Pipeline.arrRef (cfgs 2).spec) = {main_v3, main_v4} from arrImage,
        bigSep_insert (by decide), bigSep_singleton]
      exact (arrays_iff V c _ (W' (Proc.devRef .tc main_v3)) (W' (Proc.devRef .tc main_v4)) hZ hZ' hout.symm).1
    · unfold Pipeline.unscopedRest
      refine Entails.of_eq (bigSep_congr fun b hb => ?_)
      have hb4 : b ≠ main_v4 := fun e =>
        (Finset.mem_sdiff.mp hb).2 (e ▸ Finset.mem_image_of_mem (Pipeline.arrRef spec2) (Finset.mem_univ (2 : Fin 3)))
      rw [hV b, ← hrest b hb4]
  rw [Pipeline.unscopedBufs_held] at key
  exact key

end Cert.Kernel.L2

end
-- ==== Proof.K.Run.lean ====
/-
  The run of the whole program on the core: a bias reshaped into a row, graph-convolution layer 1, the second bias
  reshaped into a row, layer 2, and the decode. What every buffer holds between two steps is written as a fold from
  the launch memory; each of the three kernel steps is entered from what the step before it left and leaves what the
  next one is entered from; and the run is concluded with every unscoped buffer's final contents NAMED: the twelve
  inputs as launched, the embedding as layer 2 left it, the Gram matrix as the decode left it.
-/
import proofs.«157318_j36885179138300_1_alg».proof.Proof.K.Layer0
import proofs.«157318_j36885179138300_1_alg».proof.Proof.K.Layer1
import proofs.«157318_j36885179138300_1_alg».proof.Proof.K.Decode
import proofs.«157318_j36885179138300_1_alg».proof.Proof.Gen.Kernel.Regions
import proofs.«157318_j36885179138300_1_alg».proof.Proof.Gen.Kernel.Launch
import proofs.«157318_j36885179138300_1_alg».proof.Proof.Gen.Kernel.Skeleton
import proofs.«157318_j36885179138300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What every buffer holds between the five steps of the program

The program is: the first bias reshaped into a row, layer 1, the second bias reshaped into a row, layer 2, decode.
`W0 … W5` are the contents of the core's buffers before the first step and after each step, each written from the one
before it: a reshape rewrites its result buffer, a layer or the decode rewrites its output array and nothing else. -/

/-- At launch. -/
abbrev W0 : Dev nD → Valuation τ sig (Elt F) := fun c b => (s₀ m ρ).mem ((c : Dev nD), b)
/-- After the first bias has been reshaped into a row (layer 1 is entered from here). -/
abbrev W1 : Dev nD → Valuation τ sig (Elt F) := fun c => StableHlo.after hostOps0 (W0 m ρ c)
/-- The same, read at the references of the core. -/
abbrev V1 : (c : Dev nD) → (b : Ref sig .tc) → Buf (Elt F) ((c : Thread nD τ).loc b) := fun c b => W1 m ρ c b
/-- After layer 1: each of its nine arrays at what the layer leaves there, every other buffer as before. -/
def W2 (c : Dev nD) : Valuation τ sig (Elt F) :=
  Pipeline.withArrays spec0 c (W1 m ρ c) fun w => (L0.dat (V1 m ρ) c).arrAt w cfg0.N
theorem W2_arr (c : Dev nD) (w : Fin cfg0.W) :
    W2 m ρ c (Proc.devRef .tc (Pipeline.arrRef spec0 w)) = (L0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (L0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second bias has been reshaped into a row (layer 2 is entered from here). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2. -/
def W4 (c : Dev nD) : Valuation τ sig (Elt F) :=
  Pipeline.withArrays spec1 c (W3 m ρ c) fun w => (L1.dat (V3 m ρ) c).arrAt w cfg1.N
theorem W4_arr (c : Dev nD) (w : Fin cfg1.W) :
    W4 m ρ c (Proc.devRef .tc (Pipeline.arrRef spec1 w)) = (L1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (L1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the decode: the Gram matrix's array at what the decode leaves there, every other buffer as before. The decode's
    two input windows read one array, so its arrays are not pairwise distinct and the contents are written as one
    update at the output rather than array by array. -/
def W5 (c : Dev nD) : Valuation τ sig (Elt F) :=
  Function.update (W4 m ρ c) (Proc.devRef .tc main_v4) ((L2.dat (V4 m ρ) c).arrAt 2 cfg2.N)

/-! ## What each step leaves alone -/

theorem W1_keep (c : Dev nD) (b : Ref sig .tc) (hb : b ≠ main_v0) :
    W1 m ρ c (Proc.devRef .tc b) = W0 m ρ c (Proc.devRef .tc b) :=
  StableHlo.after_of_writes_sub hostOps0 _ hostOps0_writes fun h => hb (List.mem_singleton.mp h)

/-- Every window of layer 1 but the last is an input. -/
theorem isIn0 : ∀ w : Fin 9, Pipeline.arrRef spec0 w ≠ main_v1 → (cfg0.win w).isOut = false := by decide

/-- Layer 1 changes `main_v1` only: a buffer it does not window is untouched, an input window's array is left at
    what it held on entry. -/
theorem W2_keep (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    exact (W2_arr m ρ c w).trans (((L0.dat (V1 m ρ) c).arrAt_in w (isIn0 w hb) _).trans (L0.A_eq (V1 m ρ) c w))
  · exact W2_of_ne m ρ c b fun w e => h ⟨w, e⟩

theorem W3_keep (c : Dev nD) (b : Ref sig .tc) (hb : b ≠ main_v2) :
    W3 m ρ c (Proc.devRef .tc b) = W2 m ρ c (Proc.devRef .tc b) :=
  StableHlo.after_of_writes_sub hostOps1 _ hostOps1_writes fun h => hb (List.mem_singleton.mp h)

/-- Every window of layer 2 but the last is an input. -/
theorem isIn1 : ∀ w : Fin 9, Pipeline.arrRef spec1 w ≠ main_v3 → (cfg1.win w).isOut = false := by decide

/-- Layer 2 changes `main_v3` only. -/
theorem W4_keep (c : Dev nD) (b : Ref sig .tc) (hb : b ≠ main_v3) :
    W4 m ρ c (Proc.devRef .tc b) = W3 m ρ c (Proc.devRef .tc b) := by
  by_cases h : ∃ w, Pipeline.arrRef spec1 w = b
  · obtain ⟨w, rfl⟩ := h
    exact (W4_arr m ρ c w).trans (((L1.dat (V3 m ρ) c).arrAt_in w (isIn1 w hb) _).trans (L1.A_eq (V3 m ρ) c w))
  · exact W4_of_ne m ρ c b fun w e => h ⟨w, e⟩

/-- The decode changes `main_v4` only. -/
theorem W5_keep (c : Dev nD) (b : Ref sig .tc) (hb : b ≠ main_v4) :
    W5 m ρ c (Proc.devRef .tc b) = W4 m ρ c (Proc.devRef .tc b) := by
  unfold W5; exact Function.update_of_ne (StableHlo.devRef_ne_of_ne hb) _ _

/-! ## What the two results hold at the end -/

theorem W5_main_v4 (c : Dev nD) : W5 m ρ c (Proc.devRef .tc main_v4) = (L2.dat (V4 m ρ) c).arrAt 2 cfg2.N := by
  unfold W5; exact Function.update_self _ _ _

theorem W5_main_v3 (c : Dev nD) : W5 m ρ c (Proc.devRef .tc main_v3) = (L1.dat (V3 m ρ) c).arrAt 8 cfg1.N :=
  (W5_keep m ρ c main_v3 (by decide)).trans (W4_arr m ρ c 8)

/-! ## The inputs end as launched

A buffer that is none of the five intermediate results is written by no step. -/

theorem W5_of_arg (c : Dev nD) (b : Ref sig .tc) (h0 : b ≠ main_v0) (h1 : b ≠ main_v1) (h2 : b ≠ main_v2) (h3 : b ≠ main_v3)
    (h4 : b ≠ main_v4) : W5 m ρ c (Proc.devRef .tc b) = m ((c : Thread nD τ).loc b) :=
  (W5_keep m ρ c b h4).trans <| (W4_keep m ρ c b h3).trans <| (W3_keep m ρ c b h2).trans <| (W2_keep m ρ c b h1).trans <|
    (W1_keep m ρ c b h0).trans rfl

theorem W5_main_arg0 (c : Dev nD) : W5 m ρ c (Proc.devRef .tc main_arg0) = m ((c : Thread nD τ).loc main_arg0) :=
  W5_of_arg m ρ c main_arg0 (by decide) (by decide) (by decide) (by decide) (by decide)
theorem W5_main_arg1 (c : Dev nD) : W5 m ρ c (Proc.devRef .tc main_arg1) = m ((c : Thread nD τ).loc main_arg1) :=
  W5_of_arg m ρ c main_arg1 (by decide) (by decide) (by decide) (by decide) (by decide)
theorem W5_main_arg2 (c : Dev nD) : W5 m ρ c (Proc.devRef .tc main_arg2) = m ((c : Thread nD τ).loc main_arg2) :=
  W5_of_arg m ρ c main_arg2 (by decide) (by decide) (by decide) (by decide) (by decide)
theorem W5_main_arg3 (c : Dev nD) : W5 m ρ c (Proc.devRef .tc main_arg3) = m ((c : Thread nD τ).loc main_arg3) :=
  W5_of_arg m ρ c main_arg3 (by decide) (by decide) (by decide) (by decide) (by decide)
theorem W5_main_arg4 (c : Dev nD) : W5 m ρ c (Proc.devRef .tc main_arg4) = m ((c : Thread nD τ).loc main_arg4) :=
  W5_of_arg m ρ c main_arg4 (by decide) (by decide) (by decide) (by decide) (by decide)
theorem W5_main_arg5 (c : Dev nD) : W5 m ρ c (Proc.devRef .tc main_arg5) = m ((c : Thread nD τ).loc main_arg5) :=
  W5_of_arg m ρ c main_arg5 (by decide) (by decide) (by decide) (by decide) (by decide)
theorem W5_main_arg6 (c : Dev nD) : W5 m ρ c (Proc.devRef .tc main_arg6) = m ((c : Thread nD τ).loc main_arg6) :=
  W5_of_arg m ρ c main_arg6 (by decide) (by decide) (by decide) (by decide) (by decide)
theorem W5_main_arg7 (c : Dev nD) : W5 m ρ c (Proc.devRef .tc main_arg7) = m ((c : Thread nD τ).loc main_arg7) :=
  W5_of_arg m ρ c main_arg7 (by decide) (by decide) (by decide) (by decide) (by decide)
theorem W5_main_arg8 (c : Dev nD) : W5 m ρ c (Proc.devRef .tc main_arg8) = m ((c : Thread nD τ).loc main_arg8) :=
  W5_of_arg m ρ c main_arg8 (by decide) (by decide) (by decide) (by decide) (by decide)
theorem W5_main_arg9 (c : Dev nD) : W5 m ρ c (Proc.devRef .tc main_arg9) = m ((c : Thread nD τ).loc main_arg9) :=
  W5_of_arg m ρ c main_arg9 (by decide) (by decide) (by decide) (by decide) (by decide)
theorem W5_main_arg10 (c : Dev nD) : W5 m ρ c (Proc.devRef .tc main_arg10) = m ((c : Thread nD τ).loc main_arg10) :=
  W5_of_arg m ρ c main_arg10 (by decide) (by decide) (by decide) (by decide) (by decide)
theorem W5_main_arg11 (c : Dev nD) : W5 m ρ c (Proc.devRef .tc main_arg11) = m ((c : Thread nD τ).loc main_arg11) :=
  W5_of_arg m ρ c main_arg11 (by decide) (by decide) (by decide) (by decide) (by decide)

/-! ## What each step finds -/

/-- Layer 1 finds every input as launched. -/
theorem V1_of_arg (c : Dev nD) (b : Ref sig .tc) (h0 : b ≠ main_v0) : V1 m ρ c b = m ((c : Thread nD τ).loc b) :=
  (W1_keep m ρ c b h0).trans rfl

/-- Layer 1 finds the first bias as a row. -/
theorem V1_main_v0 (c : Dev nD) :
    V1 m ρ c main_v0 = fun i => (rfl : main_arg10.ty.elt = main_v0.ty.elt) ▸
      shapeCast main_v0.ty.shape (m ((c : Thread nD τ).loc main_arg10)) shapeCasts_S128_S1x128 i := by
  show StableHlo.after hostOps0 (W0 m ρ c) (Proc.devRef .tc main_v0) = _
  simp only [hostOps0, StableHlo.after_cons, StableHlo.after_nil]
  rw [StableHlo.reshape_result]

/-- Layer 2 finds every input as launched, -/
theorem V3_of_arg (c : Dev nD) (b : Ref sig .tc) (h0 : b ≠ main_v0) (h1 : b ≠ main_v1) (h2 : b ≠ main_v2) :
    V3 m ρ c b = m ((c : Thread nD τ).loc b) :=
  (W3_keep m ρ c b h2).trans <| (W2_keep m ρ c b h1).trans <| (W1_keep m ρ c b h0).trans rfl

/-- the hidden layer where layer 1 left it, -/
theorem V3_main_v1 (c : Dev nD) : V3 m ρ c main_v1 = (L0.dat (V1 m ρ) c).arrAt 8 cfg0.N :=
  (W3_keep m ρ c main_v1 (by decide)).trans (W2_arr m ρ c 8)

/-- and the second bias as a row. -/
theorem V3_main_v2 (c : Dev nD) :
    V3 m ρ c main_v2 = fun i => (rfl : main_arg11.ty.elt = main_v2.ty.elt) ▸
      shapeCast main_v2.ty.shape (m ((c : Thread nD τ).loc main_arg11)) shapeCasts_S128_S1x128 i := by
  show StableHlo.after hostOps1 (W2 m ρ c) (Proc.devRef .tc main_v2) = _
  simp only [hostOps1, StableHlo.after_cons, StableHlo.after_nil]
  rw [StableHlo.reshape_result]
  have h : W2 m ρ c (Proc.devRef .tc main_arg11) = m ((c : Thread nD τ).loc main_arg11) :=
    (W2_keep m ρ c main_arg11 (by decide)).trans ((W1_keep m ρ c main_arg11 (by decide)).trans rfl)
  rw [h]

/-- The decode finds the embedding where layer 2 left it. -/
theorem V4_main_v3 (c : Dev nD) : V4 m ρ c main_v3 = (L1.dat (V3 m ρ) c).arrAt 8 cfg1.N := W4_arr m ρ c 8

/-! # The three steps' proof data and the thread state -/

/-- Each step's proof data, at the contents the step is entered with. -/
def pdats : (p : Fin 3) → (c : Dev nD) → Dat τ (Elt F) Unit ℕ (UR sig nD τ) ℕ (Pipeline.pin (pcfgs (F := F)) adm p) c
  | ⟨0, _⟩ => fun c => L0.dat (V1 m ρ) c
  | ⟨1, _⟩ => fun c => L1.dat (V3 m ρ) c
  | ⟨2, _⟩ => fun c => L2.dat (V4 m ρ) c
abbrev 𝒱₀ : Variants := Variants.none
/-- The core owes nothing to anyone: no level is assigned. -/
abbrev L : GSem nD τ sig → Finset Unit := fun _ => ∅
abbrev lv : GSem nD τ sig → Unit → ℕ := fun _ _ => 0
/-- Beside the buffers, between two steps: the generator register at some state, and the core owing nothing. -/
abbrev R (c : Dev nD) : sProp 𝕄 := iprop((∃ r, prngReg c r) ∗ ∃ W, owes (c : Thread nD τ) (0 : CellTallies nD τ sig Unit) W)
/-- A reshape as a segment over all the unscoped buffers, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The thread state at the end, the `owes` apart: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! # The three steps as segments

What a step takes besides its arrays is the same for all three: the generator register and the scoped scratch go into
the step's invariant and come back out of it, and the core, which owes nothing, owes nothing at the first point and
nothing at the last. -/

/-- The generator register and the scoped scratch make the invariant of a step whose body may use both and need
    describe neither; whatever else is offered is not needed. -/
theorem inv_of_reg {gr W : ℕ} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) win c)
      ⊢ (Pipeline.ΦA win c : sProp 𝕄) := by
  unfold Pipeline.ΦA
  iintro ⟨Hg, -, Hs⟩
  isplitl [Hs]; · iexact Hs
  iexact Hg

/-- That invariant gives both back. -/
theorem reg_of_inv {gr W : ℕ} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) win c) := by
  unfold Pipeline.ΦA
  iintro ⟨Hs, Hg⟩
  isplitl [Hg]; · iexact Hg
  isplitr; · iempintro
  iexact Hs

/-- A core owing nothing is what proof data that owe nothing at the first point, and bound nothing there, start from. -/
theorem owesAt_first {cfg : Cfg sig Λ₀} {c : Dev nD} (dat : Dat τ (Elt F) Unit ℕ (UR sig nD τ) ℕ cfg c)
    (h0 : dat.owed 0 = 0) (hr : dat.recorded 0 = Set.univ) :
    iprop(∃ W, owes (c : Thread nD τ) (0 : CellTallies nD τ sig Unit) W) ⊢ (dat.owesAt () 0 : sProp 𝕄) := by
  unfold Pipeline.Dat.owesAt Pipeline.owesWithin Pipeline.Dat.bound
  rw [h0, hr]
  iintro ⟨%W, HO⟩
  iexists W
  isplitr; · ipureintro; exact fun _ _ => Or.inl trivial
  iexact HO

/-- Proof data that owe nothing at the last point leave a core owing nothing. -/
theorem owes_of_owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  unfold Pipeline.Dat.owesAt Pipeline.owesWithin
  rw [hN]
  iintro ⟨%W, -, HO⟩
  iexists W; iexact HO

set_option backward.isDefEq.respectTransparency.types false in
/-- Layer 1 as a segment: entered with every unscoped buffer at `W1`, left with them at `W2`. Its nine arrays are
    taken out of the unscoped buffers on entry and put back, the output at what the write-backs left, on exit; the
    generator register and the scoped scratch go into the layer's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (L0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => L0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_first (pdats m ρ 0 c) rfl rfl); iexact HO
    isplitl [Hp]; · iexact Hp
    iexact Hrest
  hin c := (inv_of_reg spec0 c _).trans (L0.hin (V1 m ρ) c)
  hout c := by
    rw [Pipeline.ownSems0_none]
    exact (L0.hout (V1 m ρ) c).trans (reg_of_inv spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats m ρ 0 c) rfl); iexact HO

set_option backward.isDefEq.respectTransparency.types false in
/-- Layer 2 as a segment: entered with every unscoped buffer at `W3`, left with them at `W4`. Its nine arrays are
    taken out of the unscoped buffers on entry and put back, the output at what the write-backs left, on exit; the
    generator register and the scoped scratch go into the layer's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (L1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => L1.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_first (pdats m ρ 1 c) rfl rfl); iexact HO
    isplitl [Hp]; · iexact Hp
    iexact Hrest
  hin c := (inv_of_reg spec1 c _).trans (L1.hin (V3 m ρ) c)
  hout c := by
    rw [Pipeline.ownSems0_none]
    exact (L1.hout (V3 m ρ) c).trans (reg_of_inv spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats m ρ 1 c) rfl); iexact HO

set_option backward.isDefEq.respectTransparency.types false in
/-- The decode as a segment: entered with every unscoped buffer at `W4`, left with them at `W5`. The embedding is dealt
    in halves to the two windows that read it and gathered again on exit; the decode's invariant is the generator register
    and the scoped scratch, the same at every point. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (L2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := L2.arrays_of_held (V4 m ρ) c (W4 m ρ c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_first (pdats m ρ 2 c) rfl rfl); iexact HO
    isplitl [Hp]; · iexact Hp
    iexact Hrest
  hin c := inv_of_reg spec2 c _
  hout c := by
    rw [Pipeline.ownSems0_none]
    exact reg_of_inv spec2 c
  hexit c := by
    have hjoin := L2.held_of_arrays (V4 m ρ) c (W4 m ρ c) (W5 m ρ c) (fun _ => rfl) (W5_main_v4 m ρ c) (W5_keep m ρ c)
    iintro ⟨Ha, HO, HY, Hrest⟩
    imodintro
    isplitl [Ha Hrest HY]
    · isplitl [Ha Hrest]
      · iapply hjoin
        isplitl [Ha]; · iexact Ha
        iexact Hrest
      iexact HY
    iapply (owes_of_owesAt_last (pdats m ρ 2 c) rfl); iexact HO

/-! # The program as its five segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]

theorem main_run (c : Dev nD) : main (F := F) c = Pipeline.Seg.run (segs m ρ) := (main_chain c).trans (by chain_rfl)

/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory `m` with every counter at zero, every weakly fair execution of the program terminates without
    a fault, and in every final memory each unscoped buffer of the core holds `W5`: the inputs what they held at launch
    (`W5_main_argK`), `main_v3` what layer 2 left (`W5_main_v3`), `main_v4` what the decode left (`W5_main_v4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Run

end
-- ==== Proof.KI.Steps.lean ====
/-
  One grid point of a graph-convolution layer, as a function of the blocks the point sees: the accumulator block
  `s` (512 rows of the layer's output) gains, for each of the three edge types r, the product
  (A_r-block · X-block) · W_rᵀ, in the order r = 0, 1, 2. Layer 1 reads 64 features, layer 2 reads 128.
  The terms are the body's own store payloads composed in program order; nothing is computed here.
-/
import proofs.«157318_j36885179138300_1_alg».proof.Proof.Gen.KernelIdeal.Skeleton

noncomputable section

namespace Cert.KernelIdeal.Hand

open Idealize.ShloMosaic Cert.KernelIdeal Cert.KernelIdeal.Gen

variable {F : FTy → Type} [FloatOps F]

/-- Layer 1, one point: `s + Σ_r (a_r · x) · w_rᵀ`, added one edge type at a time. -/
def step0 (x : Vec F S1024x64 .f32) (a0 a1 a2 : Vec F S512x1024 .f32) (w0 w1 w2 : Vec F S128x64 .f32)
    (s : Vec F S512x128 .f32) : Vec F S512x128 .f32 :=
  k0_pay1 (k0_pay4 x) a2 w2 (k0_pay6 x a1 w1 (k0_pay5 x a0 w0 s))

/-- Layer 1, the last point of a row of blocks: the bias row added along the rows, then the positive part. -/
def fin0 (s : Vec F S512x128 .f32) (b : Vec F S1x128 .f32) : Vec F S512x128 .f32 := k0_pay2 s b

/-- Layer 2, one point. -/
def step1 (x : Vec F S1024x128 .f32) (a0 a1 a2 : Vec F S512x1024 .f32) (w0 w1 w2 : Vec F S128x128 .f32)
    (s : Vec F S512x128 .f32) : Vec F S512x128 .f32 :=
  k1_pay1 (k1_pay4 x) a2 w2 (k1_pay6 x a1 w1 (k1_pay5 x a0 w0 s))

/-- Layer 2, the last point of a row of blocks: the bias row added along the rows. -/
def fin1 (s : Vec F S512x128 .f32) (b : Vec F S1x128 .f32) : Vec F S512x128 .f32 := k1_pay2 s b

end Cert.KernelIdeal.Hand

end
-- ==== Proof.KI.Layer0.lean ====
/-
  One graph-convolution layer as a pipeline of 16 × 8 grid points, stated at arbitrary contents `V` of the core's
  buffers when the layer is entered. Point t = 8·i + j handles row block i of the output and column block j of the
  three adjacency matrices. The accumulator block is reset at j = 0, gains Σ_r (A_r-block · X-block) · W_rᵀ at
  every j (`step0`), and at j = 7 the output block becomes `fin0` of the accumulator and the bias row. This module
  names what the accumulator and the output block hold after each point and shows that one run of the body takes
  the contents before a point to the contents after it.
-/
import proofs.«157318_j36885179138300_1_alg».proof.Proof.KI.Steps
import proofs.«157318_j36885179138300_1_alg».proof.Proof.Gen.KernelIdeal.Skeleton
import proofs.«157318_j36885179138300_1_alg».proof.Proof.Gen.KernelIdeal.Launch
import proofs.«157318_j36885179138300_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.L0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window `w`'s block at point `t`, read off the window's array as the layer finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator block `s`, on the blocks the point sees. -/
def stepAt (c : Dev nD) (t : Fin cfg0.N) (s : Vec F S512x128 .f32) : Vec F S512x128 .f32 :=
  step0 (iblk V c 3 t) (iblk V c 0 t) (iblk V c 1 t) (iblk V c 2 t) (iblk V c 4 t) (iblk V c 5 t) (iblk V c 6 t) s

/-! ## The accumulator and the output block after each point -/

/-- The accumulator block after point `n`: at the first column block of a row of blocks (n ≡ 0 mod 8) the update of
    the zero block, otherwise the update of what point `n - 1` left. -/
def accAt (c : Dev nD) : (n : ℕ) → n < cfg0.N → Vec F S512x128 .f32
  | 0, hn => stepAt V c ⟨0, hn⟩ k0_pay3
  | n + 1, hn =>
    if (n + 1) % 8 = 0 then stepAt V c ⟨n + 1, hn⟩ k0_pay3
    else stepAt V c ⟨n + 1, hn⟩ (accAt c n (Nat.lt_of_succ_lt hn))

theorem accAt_first (c : Dev nD) (t : Fin cfg0.N) (h : t.val % 8 = 0) :
    accAt V c t.val t.isLt = step0 (iblk V c 3 t) (iblk V c 0 t) (iblk V c 1 t) (iblk V c 2 t) (iblk V c 4 t) (iblk V c 5 t) (iblk V c 6 t) k0_pay3 := by
  obtain ⟨n, hn⟩ := t
  cases n with
  | zero => rfl
  | succ n => exact (if_pos h).trans rfl

theorem accAt_next (c : Dev nD) (t : Fin cfg0.N) (h : t.val % 8 ≠ 0) :
    accAt V c t.val t.isLt = step0 (iblk V c 3 t) (iblk V c 0 t) (iblk V c 1 t) (iblk V c 2 t) (iblk V c 4 t) (iblk V c 5 t) (iblk V c 6 t) (accAt V c (t.val - 1) (by omega)) := by
  obtain ⟨n, hn⟩ := t
  cases n with
  | zero => exact absurd (Nat.zero_mod _) h
  | succ n => exact (if_neg h).trans rfl

/-- The output block after a last column block (n ≡ 7 mod 8): `fin0` of the accumulator and the bias row. At the
    other points the output block is not stored into and this term is not consulted. -/
def outAt (c : Dev nD) (n : ℕ) (hn : n < cfg0.N) : Vec F S512x128 .f32 := fin0 (accAt V c n hn) (iblk V c 7 ⟨n, hn⟩)

/-! ## The invariant between points -/

/-- The accumulator's buffer. -/
abbrev scM : Memref sig .tc .vmem S512x128 .f32 := Memref.whole cc0_scratch0

/-- The core's other scoped buffers that no window of this layer stages, at some contents each. -/
def restS (c : Dev nD) : sProp 𝕄 :=
  Pipeline.scopedRestBut (Ix := Unit) (Name := ℕ) (U := UR sig nD τ) (Lvl := ℕ) (Val := Elt F) spec0 c [cc0_scratch0]

/-- Before the first point the accumulator holds anything; before point `n + 1` it holds `accAt n`. -/
def PhiS (c : Dev nD) : (n : ℕ) → n ≤ cfg0.N → sProp 𝕄
  | 0, _ => Pipeline.ΦA spec0 c
  | n + 1, hn => iprop((owns (c : Thread nD τ) scM fullShare (accAt V c n hn) ∗ restS c) ∗ (∃ r, prngReg c r))

/-! ## The proof data -/

/-- The arrays as the layer finds them; after the body at point `t` each input's buffer at its block and the output's
    at `outAt`; the invariant `PhiS`; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = outAt V c t.val t.isLt := by dsimp only [dat]

/-! An input window's buffer holds the window's block at every point, fetched there or carried over: an input is
    never idle, never cut, and the body leaves it as it was. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- An input is live at every point, so the body hands its buffer back at the block. -/
theorem leaves_0 (c : Dev nD) (t : Fin cfg0.N) :
    (dat V c).leavesExact 0 t = owns (c : Thread nD τ) (st0_0 t) fullShare (iblk V c 0 t) := by
  unfold Dat.leavesExact; rw [show cfg0.idle 0 (grid0.coords t) = false from rfl, after_0]
theorem leaves_1 (c : Dev nD) (t : Fin cfg0.N) :
    (dat V c).leavesExact 1 t = owns (c : Thread nD τ) (st0_1 t) fullShare (iblk V c 1 t) := by
  unfold Dat.leavesExact; rw [show cfg0.idle 1 (grid0.coords t) = false from rfl, after_1]
theorem leaves_2 (c : Dev nD) (t : Fin cfg0.N) :
    (dat V c).leavesExact 2 t = owns (c : Thread nD τ) (st0_2 t) fullShare (iblk V c 2 t) := by
  unfold Dat.leavesExact; rw [show cfg0.idle 2 (grid0.coords t) = false from rfl, after_2]
theorem leaves_3 (c : Dev nD) (t : Fin cfg0.N) :
    (dat V c).leavesExact 3 t = owns (c : Thread nD τ) (st0_3 t) fullShare (iblk V c 3 t) := by
  unfold Dat.leavesExact; rw [show cfg0.idle 3 (grid0.coords t) = false from rfl, after_3]
theorem leaves_4 (c : Dev nD) (t : Fin cfg0.N) :
    (dat V c).leavesExact 4 t = owns (c : Thread nD τ) (st0_4 t) fullShare (iblk V c 4 t) := by
  unfold Dat.leavesExact; rw [show cfg0.idle 4 (grid0.coords t) = false from rfl, after_4]
theorem leaves_5 (c : Dev nD) (t : Fin cfg0.N) :
    (dat V c).leavesExact 5 t = owns (c : Thread nD τ) (st0_5 t) fullShare (iblk V c 5 t) := by
  unfold Dat.leavesExact; rw [show cfg0.idle 5 (grid0.coords t) = false from rfl, after_5]
theorem leaves_6 (c : Dev nD) (t : Fin cfg0.N) :
    (dat V c).leavesExact 6 t = owns (c : Thread nD τ) (st0_6 t) fullShare (iblk V c 6 t) := by
  unfold Dat.leavesExact; rw [show cfg0.idle 6 (grid0.coords t) = false from rfl, after_6]
theorem leaves_7 (c : Dev nD) (t : Fin cfg0.N) :
    (dat V c).leavesExact 7 t = owns (c : Thread nD τ) (st0_7 t) fullShare (iblk V c 7 t) := by
  unfold Dat.leavesExact; rw [show cfg0.idle 7 (grid0.coords t) = false from rfl, after_7]

/-! ## The invariant opened -/

/-- The core's scoped buffers that no window stages: the accumulator's, then the others. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS c) :=
  Pipeline.scopedRest_split_of_list spec0 c [cc0_scratch0] (by decide) (by decide)

theorem PhiA_eq (c : Dev nD) :
    (Pipeline.ΦA spec0 c : sProp 𝕄)
      = iprop(((∃ d, owns (c : Thread nD τ) scM fullShare d) ∗ restS c) ∗ (∃ r, prngReg c r)) := by
  unfold Pipeline.ΦA; rw [scopedRest_split]; simp only [scM, owns_whole]; rfl

theorem PhiS_zero (c : Dev nD) (n : ℕ) (h : n ≤ cfg0.N) (hn : n = 0) : PhiS V c n h = Pipeline.ΦA spec0 c := by
  subst hn; rfl

theorem PhiS_succ (c : Dev nD) (n : ℕ) (hn : n < cfg0.N) :
    PhiS V c (n + 1) hn = iprop((owns (c : Thread nD τ) scM fullShare (accAt V c n hn) ∗ restS c) ∗ (∃ r, prngReg c r)) := rfl

theorem PhiS_pos (c : Dev nD) (n : ℕ) (h : n ≤ cfg0.N) (hn : n ≠ 0) :
    PhiS V c n h = iprop((owns (c : Thread nD τ) scM fullShare (accAt V c (n - 1) (by omega)) ∗ restS c) ∗ (∃ r, prngReg c r)) := by
  cases n with
  | zero => exact absurd rfl hn
  | succ n => rfl

theorem PhiS_castSucc (c : Dev nD) (t : Fin cfg0.N) :
    (dat V c).Φ t.castSucc = PhiS V c t.val (Nat.le_of_lt t.isLt) := by
  dsimp only [dat]; simp only [Fin.coe_castSucc]

/-! ## The three kinds of point -/

theorem hz : (![0, 0] : Fin 2 → Nat) = fun _ => 0 := funext fun a => by fin_cases a <;> rfl

/-- The body resets the accumulator exactly at the first column block of a row of blocks, -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- and stores the output block exactly at the last. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-- Off the last column block the output window is idle and its block is not written back; at it the window is live. -/
theorem idle_out : ∀ t : Fin cfg0.N, ¬condLast (grid0.coords t) → cfg0.idle 8 (grid0.coords t) = true := by decide +kernel
theorem noFlush_out : ∀ t : Fin cfg0.N, ¬condLast (grid0.coords t) → (cfg0.win 8).flush t = false := by decide +kernel
theorem live_out : ∀ t : Fin cfg0.N, condLast (grid0.coords t) → cfg0.idle 8 (grid0.coords t) = false := by decide +kernel

/-! ## One run of the body -/

/-- The eight input buffers at given contents. -/
def insAt (c : Dev nD) (arg2 arg3 arg4 : Memref sig .tc .vmem S512x1024 .f32) (arg5 : Memref sig .tc .vmem S1024x64 .f32)
    (arg6 arg7 arg8 : Memref sig .tc .vmem S128x64 .f32) (arg9 : Memref sig .tc .vmem S1x128 .f32)
    (a0 a1 a2 : Vec F S512x1024 .f32) (x : Vec F S1024x64 .f32) (w0 w1 w2 : Vec F S128x64 .f32) (b : Vec F S1x128 .f32) : sProp 𝕄 :=
  iprop(owns (c : Thread nD τ) arg2 fullShare a0 ∗ owns (c : Thread nD τ) arg3 fullShare a1 ∗ owns (c : Thread nD τ) arg4 fullShare a2
    ∗ owns (c : Thread nD τ) arg5 fullShare x ∗ owns (c : Thread nD τ) arg6 fullShare w0 ∗ owns (c : Thread nD τ) arg7 fullShare w1
    ∗ owns (c : Thread nD τ) arg8 fullShare w2 ∗ owns (c : Thread nD τ) arg9 fullShare b)

set_option maxHeartbeats 4000000 in
/-- A first column block: whatever the accumulator held, it ends at the update of the zero block; the inputs and the
    output buffer are as they were. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : condFirst i) (hc1 : ¬condLast i)
    (a0 a1 a2 : Vec F S512x1024 .f32) (x : Vec F S1024x64 .f32) (w0 w1 w2 : Vec F S128x64 .f32) (b : Vec F S1x128 .f32)
    (o : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ (∃ d, owns (c : Thread nD τ) arg11 fullShare d)
        ∗ (iprop(insAt c arg2 arg3 arg4 arg5 arg6 arg7 arg8 arg9 a0 a1 a2 x w0 w1 w2 b ∗ owns (c : Thread nD τ) arg10 fullShare o
            ∗ owns (c : Thread nD τ) arg11 fullShare (step0 x a0 a1 a2 w0 w1 w2 k0_pay3)) -∗ K ⟨⟩))
      ⊢ wp frame (wpE (defs₀ (F := F)) Variants.none c none) E (cc0__gcn_layer_kernel i arg2 harg2 arg3 harg3 arg4 harg4 arg5 harg5 arg6 harg6 arg7 harg7 arg8 harg8 arg9 harg9 arg10 harg10 arg11 harg11) K := by
  simp only [cc0__gcn_layer_kernel_eq_skeleton]; unfold cc0__gcn_layer_kernel_skel
  simp only [k0_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%d11, %f11, -, H11⟩, Hk⟩
  subst hf2 hf3 hf4 hf5 hf6 hf7 hf8 hf9 hf10
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step0
  sl_unfold_words
  simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]

set_option maxHeartbeats 4000000 in
/-- A column block that is neither first nor last: the accumulator goes from `s` to its update. -/
theorem run_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : ¬condLast i)
    (a0 a1 a2 : Vec F S512x1024 .f32) (x : Vec F S1024x64 .f32) (w0 w1 w2 : Vec F S128x64 .f32) (b : Vec F S1x128 .f32)
    (o s : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ owns (c : Thread nD τ) arg11 fullShare s
        ∗ (iprop(insAt c arg2 arg3 arg4 arg5 arg6 arg7 arg8 arg9 a0 a1 a2 x w0 w1 w2 b ∗ owns (c : Thread nD τ) arg10 fullShare o
            ∗ owns (c : Thread nD τ) arg11 fullShare (step0 x a0 a1 a2 w0 w1 w2 s)) -∗ K ⟨⟩))
      ⊢ wp frame (wpE (defs₀ (F := F)) Variants.none c none) E (cc0__gcn_layer_kernel i arg2 harg2 arg3 harg3 arg4 harg4 arg5 harg5 arg6 harg6 arg7 harg7 arg8 harg8 arg9 harg9 arg10 harg10 arg11 harg11) K := by
  simp only [cc0__gcn_layer_kernel_eq_skeleton]; unfold cc0__gcn_layer_kernel_skel
  simp only [k0_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  subst hf2 hf3 hf4 hf5 hf6 hf7 hf8 hf9 hf10 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step0
  sl_unfold_words
  simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]

set_option maxHeartbeats 4000000 in
/-- A last column block: the accumulator goes from `s` to its update, and the output buffer, whatever it held, ends at
    `fin0` of that and the bias row. -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : condLast i)
    (a0 a1 a2 : Vec F S512x1024 .f32) (x : Vec F S1024x64 .f32) (w0 w1 w2 : Vec F S128x64 .f32) (b : Vec F S1x128 .f32)
    (s : Vec F S512x128 .f32) (E : Set ℕ) (K : PUnit → sProp 𝕄) :
    iprop(insAt c arg2 arg3 arg4 arg5 arg6 arg7 arg8 arg9 a0 a1 a2 x w0 w1 w2 b ∗ (∃ d, owns (c : Thread nD τ) arg10 fullShare d) ∗ owns (c : Thread nD τ) arg11 fullShare s
        ∗ (iprop(insAt c arg2 arg3 arg4 arg5 arg6 arg7 arg8 arg9 a0 a1 a2 x w0 w1 w2 b ∗ owns (c : Thread nD τ) arg10 fullShare (fin0 (step0 x a0 a1 a2 w0 w1 w2 s) b)
            ∗ owns (c : Thread nD τ) arg11 fullShare (step0 x a0 a1 a2 w0 w1 w2 s)) -∗ K ⟨⟩))
      ⊢ wp frame (wpE (defs₀ (F := F)) Variants.none c none) E (cc0__gcn_layer_kernel i arg2 harg2 arg3 harg3 arg4 harg4 arg5 harg5 arg6 harg6 arg7 harg7 arg8 harg8 arg9 harg9 arg10 harg10 arg11 harg11) K := by
  simp only [cc0__gcn_layer_kernel_eq_skeleton]; unfold cc0__gcn_layer_kernel_skel
  simp only [k0_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, Hk⟩
  subst hf2 hf3 hf4 hf5 hf6 hf7 hf8 hf9 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    swap; · iexact H10
    ipureintro
    refine (View.read_writes_eq_canon _ _ _ (fun y => ⟨_, List.mem_cons_self .., View.mem_set_unit_zero hz inb_S512x128_S512x128_0_0 y⟩)).trans ?_
    rw [View.canon_cons_unit_zero (S := S512x128) hz]
    delta fin0 step0
    sl_unfold_words
    simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step0
  sl_unfold_words
  simp only [View.readCov_cons_toLoadRect, View.readAt_eq_ld, View.ld_unit_zero (S := S1024x64) hz, View.ld_unit_zero (S := S512x1024) hz, View.ld_unit_zero (S := S128x64) hz, View.ld_unit_zero (S := S512x128) hz, View.ld_unit_zero (S := S1x128) hz]

/-! ## The body obligation -/

/-- What the body is handed at point `t`: the invariant, what the core owes, and the nine windows' buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- What it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 4000000 in
/-- The body at any point. The inputs' buffers hold their blocks; the point's position in its row of blocks says which
    of the three runs applies; the invariant hands over the accumulator at what the point before left (at anything at
    the very first point) and takes it back at this point's contents. Off the last column block the output buffer
    passes through untouched; at it the buffer ends at `outAt`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [leaves_0, leaves_1, leaves_2, leaves_3, leaves_4, leaves_5, leaves_6, leaves_7]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  by_cases h0 : t.val % 8 = 0
  · have h1 : ¬t.val % 8 = 7 := by omega
    have hc0 : condFirst (grid0.coords t) := (hcondFirst t).mpr h0
    have hc1 : ¬condLast (grid0.coords t) := fun h => h1 ((hcondLast t).mp h)
    rw [Dat.leavesExact_idle (dat V c) 8 t (idle_out t hc1) (noFlush_out t hc1)]
    rw [accAt_first V c t h0]
    by_cases hz0 : t.val = 0
    · rw [PhiS_castSucc V c t, PhiS_zero V c _ _ hz0, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexists _; iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz0 : t.val ≠ 0 := fun h => h0 (by rw [h])
    have hc0 : ¬condFirst (grid0.coords t) := fun h => h0 ((hcondFirst t).mp h)
    by_cases h1 : t.val % 8 = 7
    · have hc1 : condLast (grid0.coords t) := (hcondLast t).mpr h1
      rw [show (dat V c).leavesExact 8 t = owns (c : Thread nD τ) (st0_8 t) fullShare ((dat V c).after 8 t) from by
        unfold Dat.leavesExact; rw [live_out t hc1], after_8]
      unfold outAt
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬condLast (grid0.coords t) := fun h => h1 ((hcondLast t).mp h)
      rw [Dat.leavesExact_idle (dat V c) 8 t (idle_out t hc1) (noFlush_out t hc1)]
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dat (F := F) V c) (defs₀ (F := F)) Variants.none () Set.univ := fun t => by
  rw [bigSep_W0, bigSep_W0]
  exact sound_body V c t

/-! ## Entering and leaving the layer -/

/-- Before the first point the invariant is the scoped buffers at anything, as the layer is handed them. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the accumulator's named contents may be forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]; · iexists _; iexact HS
    iexact HR
  iexact Hg

theorem hout (c : Dev nD) : (dat V c).Φ (Fin.last cfg0.N) ⊢ Pipeline.ΦA spec0 c :=
  Phi_out V c _ (by rw [Fin.val_last]; have : cfg0.N = 128 := N_0; omega)

end Cert.KernelIdeal.L0

end
-- ==== Proof.KI.Layer1.lean ====
/-
  One graph-convolution layer as a pipeline of 16 × 8 grid points, stated at arbitrary contents `V` of the core's
  buffers when the layer is entered. Point t = 8·i + j handles row block i of the output and column block j of the
  three adjacency matrices. The accumulator block is reset at j = 0, gains Σ_r (A_r-block · X-block) · W_rᵀ at
  every j (`step1`), and at j = 7 the output block becomes `fin1` of the accumulator and the bias row. This module
  names what the accumulator and the output block hold after each point and shows that one run of the body takes
  the contents before a point to the contents after it.
-/
import proofs.«157318_j36885179138300_1_alg».proof.Proof.KI.Steps
import proofs.«157318_j36885179138300_1_alg».proof.Proof.Gen.KernelIdeal.Skeleton
import proofs.«157318_j36885179138300_1_alg».proof.Proof.Gen.KernelIdeal.Launch
import proofs.«157318_j36885179138300_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window `w`'s block at point `t`, read off the window's array as the layer finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator block `s`, on the blocks the point sees. -/
def stepAt (c : Dev nD) (t : Fin cfg1.N) (s : Vec F S512x128 .f32) : Vec F S512x128 .f32 :=
  step1 (iblk V c 3 t) (iblk V c 0 t) (iblk V c 1 t) (iblk V c 2 t) (iblk V c 4 t) (iblk V c 5 t) (iblk V c 6 t) s

/-! ## The accumulator and the output block after each point -/

/-- The accumulator block after point `n`: at the first column block of a row of blocks (n ≡ 0 mod 8) the update of
    the zero block, otherwise the update of what point `n - 1` left. -/
def accAt (c : Dev nD) : (n : ℕ) → n < cfg1.N → Vec F S512x128 .f32
  | 0, hn => stepAt V c ⟨0, hn⟩ k1_pay3
  | n + 1, hn =>
    if (n + 1) % 8 = 0 then stepAt V c ⟨n + 1, hn⟩ k1_pay3
    else stepAt V c ⟨n + 1, hn⟩ (accAt c n (Nat.lt_of_succ_lt hn))

theorem accAt_first (c : Dev nD) (t : Fin cfg1.N) (h : t.val % 8 = 0) :
    accAt V c t.val t.isLt = step1 (iblk V c 3 t) (iblk V c 0 t) (iblk V c 1 t) (iblk V c 2 t) (iblk V c 4 t) (iblk V c 5 t) (iblk V c 6 t) k1_pay3 := by
  obtain ⟨n, hn⟩ := t
  cases n with
  | zero => rfl
  | succ n => exact (if_pos h).trans rfl

theorem accAt_next (c : Dev nD) (t : Fin cfg1.N) (h : t.val % 8 ≠ 0) :
    accAt V c t.val t.isLt = step1 (iblk V c 3 t) (iblk V c 0 t) (iblk V c 1 t) (iblk V c 2 t) (iblk V c 4 t) (iblk V c 5 t) (iblk V c 6 t) (accAt V c (t.val - 1) (by omega)) := by
  obtain ⟨n, hn⟩ := t
  cases n with
  | zero => exact absurd (Nat.zero_mod _) h
  | succ n => exact (if_neg h).trans rfl

/-- The output block after a last column block (n ≡ 7 mod 8): `fin1` of the accumulator and the bias row. At the
    other points the output block is not stored into and this term is not consulted. -/
def outAt (c : Dev nD) (n : ℕ) (hn : n < cfg1.N) : Vec F S512x128 .f32 := fin1 (accAt V c n hn) (iblk V c 7 ⟨n, hn⟩)

/-! ## The invariant between points -/

/-- The accumulator's buffer. -/
abbrev scM : Memref sig .tc .vmem S512x128 .f32 := Memref.whole cc1_scratch0

/-- The core's other scoped buffers that no window of this layer stages, at some contents each. -/
def restS (c : Dev nD) : sProp 𝕄 :=
  Pipeline.scopedRestBut (Ix := Unit) (Name := ℕ) (U := UR sig nD τ) (Lvl := ℕ) (Val := Elt F) spec1 c [cc1_scratch0]

/-- Before the first point the accumulator holds anything; before point `n + 1` it holds `accAt n`. -/
def PhiS (c : Dev nD) : (n : ℕ) → n ≤ cfg1.N → sProp 𝕄
  | 0, _ => Pipeline.ΦA spec1 c
  | n + 1, hn => iprop((owns (c : Thread nD τ) scM fullShare (accAt V c n hn) ∗ restS c) ∗ (∃ r, prngReg c r))

/-! ## The proof data -/

/-- The arrays as the layer finds them; after the body at point `t` each input's buffer at its block and the output's
    at `outAt`; the invariant `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = outAt V c t.val t.isLt := by dsimp only [dat]

/-! An input window's buffer holds the window's block at every point, fetched there or carried over: an input is
    never idle, never cut, and the body leaves it as it was. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- An input is live at every point, so the body hands its buffer back at the block. -/
theorem leaves_0 (c : Dev nD) (t : Fin cfg1.N) :
    (dat V c).leavesExact 0 t = owns (c : Thread nD τ) (st1_0 t) fullShare (iblk V c 0 t) := by
  unfold Dat.leavesExact; rw [show cfg1.idle 0 (grid1.coords t) = false from rfl, after_0]
theorem leaves_1 (c : Dev nD) (t : Fin cfg1.N) :
    (dat V c).leavesExact 1 t = owns (c : Thread nD τ) (st1_1 t) fullShare (iblk V c 1 t) := by
  unfold Dat.leavesExact; rw [show cfg1.idle 1 (grid1.coords t) = false from rfl, after_1]
theorem leaves_2 (c : Dev nD) (t : Fin cfg1.N) :
    (dat V c).leavesExact 2 t = owns (c : Thread nD τ) (st1_2 t) fullShare (iblk V c 2 t) := by
  unfold Dat.leavesExact; rw [show cfg1.idle 2 (grid1.coords t) = false from rfl, after_2]
theorem leaves_3 (c : Dev nD) (t : Fin cfg1.N) :
    (dat V c).leavesExact 3 t = owns (c : Thread nD τ) (st1_3 t) fullShare (iblk V c 3 t) := by
  unfold Dat.leavesExact; rw [show cfg1.idle 3 (grid1.coords t) = false from rfl, after_3]
theorem leaves_4 (c : Dev nD) (t : Fin cfg1.N) :
    (dat V c).leavesExact 4 t = owns (c : Thread nD τ) (st1_4 t) fullShare (iblk V c 4 t) := by
  unfold Dat.leavesExact; rw [show cfg1.idle 4 (grid1.coords t) = false from rfl, after_4]
theorem leaves_5 (c : Dev nD) (t : Fin cfg1.N) :
    (dat V c).leavesExact 5 t = owns (c : Thread nD τ) (st1_5 t) fullShare (iblk V c 5 t) := by
  unfold Dat.leavesExact; rw [show cfg1.idle 5 (grid1.coords t) = false from rfl, after_5]
theorem leaves_6 (c : Dev nD) (t : Fin cfg1.N) :
    (dat V c).leavesExact 6 t = owns (c : Thread nD τ) (st1_6 t) fullShare (iblk V c 6 t) := by
  unfold Dat.leavesExact; rw [show cfg1.idle 6 (grid1.coords t) = false from rfl, after_6]
theorem leaves_7 (c : Dev nD) (t : Fin cfg1.N) :
    (dat V c).leavesExact 7 t = owns (c : Thread nD τ) (st1_7 t) fullShare (iblk V c 7 t) := by
  unfold Dat.leavesExact; rw [show cfg1.idle 7 (grid1.coords t) = false from rfl, after_7]

/-! ## The invariant opened -/

/-- The core's scoped buffers that no window stages: the accumulator's, then the others. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS c) :=
  Pipeline.scopedRest_split_of_list spec1 c [cc1_scratch0] (by decide) (by decide)

theorem PhiA_eq (c : Dev nD) :
    (Pipeline.ΦA spec1 c : sProp 𝕄)
      = iprop(((∃ d, owns (c : Thread nD τ) scM fullShare d) ∗ restS c) ∗ (∃ r, prngReg c r)) := by
  unfold Pipeline.ΦA; rw [scopedRest_split]; simp only [scM, owns_whole]; rfl

theorem PhiS_zero (c : Dev nD) (n : ℕ) (h : n ≤ cfg1.N) (hn : n = 0) : PhiS V c n h = Pipeline.ΦA spec1 c := by
  subst hn; rfl

theorem PhiS_succ (c : Dev nD) (n : ℕ) (hn : n < cfg1.N) :
    PhiS V c (n + 1) hn = iprop((owns (c : Thread nD τ) scM fullShare (accAt V c n hn) ∗ restS c) ∗ (∃ r, prngReg c r)) := rfl

theorem PhiS_pos (c : Dev nD) (n : ℕ) (h : n ≤ cfg1.N) (hn : n ≠ 0) :
    PhiS V c n h = iprop((owns (c : Thread nD τ) scM fullShare (accAt V c (n - 1) (by omega)) ∗ restS c) ∗ (∃ r, prngReg c r)) := by
  cases n with
  | zero => exact absurd rfl hn
  | succ n => rfl

theorem PhiS_castSucc (c : Dev nD) (t : Fin cfg1.N) :
    (dat V c).Φ t.castSucc = PhiS V c t.val (Nat.le_of_lt t.isLt) := by
  dsimp only [dat]; simp only [Fin.coe_castSucc]

/-! ## The three kinds of point -/

theorem hz : (![0, 0] : Fin 2 → Nat) = fun _ => 0 := funext fun a => by fin_cases a <;> rfl

/-- The body resets the accumulator exactly at the first column block of a row of blocks, -/
abbrev condFirst (i : grid1.Coords) : Prop :=
  (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- and stores the output block exactly at the last. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-- Off the last column block the output window is idle and its block is not written back; at it the window is live. -/
theorem idle_out : ∀ t : Fin cfg1.N, ¬condLast (grid1.coords t) → cfg1.idle 8 (grid1.coords t) = true := by decide +kernel
theorem noFlush_out : ∀ t : Fin cfg1.N, ¬condLast (grid1.coords t) → (cfg1.win 8).flush t = false := by decide +kernel
theorem live_out : ∀ t : Fin cfg1.N, condLast (grid1.coords t) → cfg1.idle 8 (grid1.coords t) = false := by decide +kernel

/-! ## One run of the body -/

/-- The eight input buffers at given contents. -/
def insAt (c : Dev nD) (arg2 arg3 arg4 : Memref sig .tc .vmem S512x1024 .f32) (arg5 : Memref sig .tc .vmem S1024x128 .f32)
    (arg6 arg7 arg8 : Memref sig .tc .vmem S128x128 .f32) (arg9 : Memref sig .tc .vmem S1x128 .f32)
    (a0 a1 a2 : Vec F S512x1024 .f32) (x : Vec F S1024x128 .f32) (w0 w1 w2 : Vec F S128x128 .f32) (b : Vec F S1x128 .f32) : sProp 𝕄 :=
  iprop(owns (c : Thread nD τ) arg2 fullShare a0 ∗ owns (c : Thread nD τ) arg3 fullShare a1 ∗ owns (c : Thread nD τ) arg4 fullShare a2
    ∗ owns (c : Thread nD τ) arg5 fullShare x ∗ owns (c : Thread nD τ) arg6 fullShare w0 ∗ owns (c : Thread nD τ) arg7 fullShare w1
    ∗ owns (c : Thread nD τ) arg8 fullShare w2 ∗ owns (c : Thread nD τ) arg9 fullShare b)

set_option maxHeartbeats 4000000 in
/-- A first column block: whatever the accumulator held, it ends at the update of the zero block; the inputs and the
    output buffer are as they were. -/
theorem run_first (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : condFirst i) (hc1 : ¬condLast i)
    (a0 a1 a2 : Vec F S512x1024 .f32) (x : Vec F S1024x128 .f32) (w0 w1 w2 : Vec F S128x128 .f32) (b : Vec F S1x128 .f32)
    (o : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ (∃ d, owns (c : Thread nD τ) arg11 fullShare d)
        ∗ (iprop(insAt c arg2 arg3 arg4 arg5 arg6 arg7 arg8 arg9 a0 a1 a2 x w0 w1 w2 b ∗ owns (c : Thread nD τ) arg10 fullShare o
            ∗ owns (c : Thread nD τ) arg11 fullShare (step1 x a0 a1 a2 w0 w1 w2 k1_pay3)) -∗ K ⟨⟩))
      ⊢ wp frame (wpE (defs₀ (F := F)) Variants.none c none) E (cc1__gcn_layer_kernel i arg2 harg2 arg3 harg3 arg4 harg4 arg5 harg5 arg6 harg6 arg7 harg7 arg8 harg8 arg9 harg9 arg10 harg10 arg11 harg11) K := by
  simp only [cc1__gcn_layer_kernel_eq_skeleton]; unfold cc1__gcn_layer_kernel_skel
  simp only [k1_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%d11, %f11, -, H11⟩, Hk⟩
  subst hf2 hf3 hf4 hf5 hf6 hf7 hf8 hf9 hf10
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step1
  sl_unfold_words
  simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]

set_option maxHeartbeats 4000000 in
/-- A column block that is neither first nor last: the accumulator goes from `s` to its update. -/
theorem run_mid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : ¬condLast i)
    (a0 a1 a2 : Vec F S512x1024 .f32) (x : Vec F S1024x128 .f32) (w0 w1 w2 : Vec F S128x128 .f32) (b : Vec F S1x128 .f32)
    (o s : Vec F S512x128 .f32) (E : Set ℕ) (K : PUnit → sProp 𝕄) :
    iprop(insAt c arg2 arg3 arg4 arg5 arg6 arg7 arg8 arg9 a0 a1 a2 x w0 w1 w2 b ∗ owns (c : Thread nD τ) arg10 fullShare o ∗ owns (c : Thread nD τ) arg11 fullShare s
        ∗ (iprop(insAt c arg2 arg3 arg4 arg5 arg6 arg7 arg8 arg9 a0 a1 a2 x w0 w1 w2 b ∗ owns (c : Thread nD τ) arg10 fullShare o
            ∗ owns (c : Thread nD τ) arg11 fullShare (step1 x a0 a1 a2 w0 w1 w2 s)) -∗ K ⟨⟩))
      ⊢ wp frame (wpE (defs₀ (F := F)) Variants.none c none) E (cc1__gcn_layer_kernel i arg2 harg2 arg3 harg3 arg4 harg4 arg5 harg5 arg6 harg6 arg7 harg7 arg8 harg8 arg9 harg9 arg10 harg10 arg11 harg11) K := by
  simp only [cc1__gcn_layer_kernel_eq_skeleton]; unfold cc1__gcn_layer_kernel_skel
  simp only [k1_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  subst hf2 hf3 hf4 hf5 hf6 hf7 hf8 hf9 hf10 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists f10; isplitr; · ipureintro; rfl
    iexact H10
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step1
  sl_unfold_words
  simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]

set_option maxHeartbeats 4000000 in
/-- A last column block: the accumulator goes from `s` to its update, and the output buffer, whatever it held, ends at
    `fin1` of that and the bias row. -/
theorem run_last (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole)
    (hc0 : ¬condFirst i) (hc1 : condLast i)
    (a0 a1 a2 : Vec F S512x1024 .f32) (x : Vec F S1024x128 .f32) (w0 w1 w2 : Vec F S128x128 .f32) (b : Vec F S1x128 .f32)
    (s : Vec F S512x128 .f32) (E : Set ℕ) (K : PUnit → sProp 𝕄) :
    iprop(insAt c arg2 arg3 arg4 arg5 arg6 arg7 arg8 arg9 a0 a1 a2 x w0 w1 w2 b ∗ (∃ d, owns (c : Thread nD τ) arg10 fullShare d) ∗ owns (c : Thread nD τ) arg11 fullShare s
        ∗ (iprop(insAt c arg2 arg3 arg4 arg5 arg6 arg7 arg8 arg9 a0 a1 a2 x w0 w1 w2 b ∗ owns (c : Thread nD τ) arg10 fullShare (fin1 (step1 x a0 a1 a2 w0 w1 w2 s) b)
            ∗ owns (c : Thread nD τ) arg11 fullShare (step1 x a0 a1 a2 w0 w1 w2 s)) -∗ K ⟨⟩))
      ⊢ wp frame (wpE (defs₀ (F := F)) Variants.none c none) E (cc1__gcn_layer_kernel i arg2 harg2 arg3 harg3 arg4 harg4 arg5 harg5 arg6 harg6 arg7 harg7 arg8 harg8 arg9 harg9 arg10 harg10 arg11 harg11) K := by
  simp only [cc1__gcn_layer_kernel_eq_skeleton]; unfold cc1__gcn_layer_kernel_skel
  simp only [k1_part1_eq_skeleton]
  unfold insAt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, Hk⟩
  subst hf2 hf3 hf4 hf5 hf6 hf7 hf8 hf9 hf11
  sl_exec (disch := first | exact hc0 | exact hc1)
  sl_step
  iapply Hk
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    swap; · iexact H10
    ipureintro
    refine (View.read_writes_eq_canon _ _ _ (fun y => ⟨_, List.mem_cons_self .., View.mem_set_unit_zero hz inb_S512x128_S512x128_0_0 y⟩)).trans ?_
    rw [View.canon_cons_unit_zero (S := S512x128) hz]
    delta fin1 step1
    sl_unfold_words
    simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]
  iexists _; isplitr
  swap; · iexact H11
  ipureintro
  refine (View.read_writes_eq_canon _ _ _ (fun y => ⟨_, List.mem_cons_self .., View.mem_set_unit_zero hz inb_S512x128_S512x128_0_0 y⟩)).trans ?_
  rw [View.canon_cons_unit_zero (S := S512x128) hz]
  delta step1
  sl_unfold_words
  simp only [View.readCov_cons_toLoadRect, View.readAt_eq_ld, View.ld_unit_zero (S := S1024x128) hz, View.ld_unit_zero (S := S512x1024) hz, View.ld_unit_zero (S := S128x128) hz, View.ld_unit_zero (S := S512x128) hz, View.ld_unit_zero (S := S1x128) hz]

/-! ## The body obligation -/

/-- What the body is handed at point `t`: the invariant, what the core owes, and the nine windows' buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What it hands back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 4000000 in
/-- The body at any point. The inputs' buffers hold their blocks; the point's position in its row of blocks says which
    of the three runs applies; the invariant hands over the accumulator at what the point before left (at anything at
    the very first point) and takes it back at this point's contents. Off the last column block the output buffer
    passes through untouched; at it the buffer ends at `outAt`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [leaves_0, leaves_1, leaves_2, leaves_3, leaves_4, leaves_5, leaves_6, leaves_7]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 8 = 0
  · have h1 : ¬t.val % 8 = 7 := by omega
    have hc0 : condFirst (grid1.coords t) := (hcondFirst t).mpr h0
    have hc1 : ¬condLast (grid1.coords t) := fun h => h1 ((hcondLast t).mp h)
    rw [Dat.leavesExact_idle (dat V c) 8 t (idle_out t hc1) (noFlush_out t hc1)]
    rw [accAt_first V c t h0]
    by_cases hz0 : t.val = 0
    · rw [PhiS_castSucc V c t, PhiS_zero V c _ _ hz0, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexists _; iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz0 : t.val ≠ 0 := fun h => h0 (by rw [h])
    have hc0 : ¬condFirst (grid1.coords t) := fun h => h0 ((hcondFirst t).mp h)
    by_cases h1 : t.val % 8 = 7
    · have hc1 : condLast (grid1.coords t) := (hcondLast t).mpr h1
      rw [show (dat V c).leavesExact 8 t = owns (c : Thread nD τ) (st1_8 t) fullShare ((dat V c).after 8 t) from by
        unfold Dat.leavesExact; rw [live_out t hc1], after_8]
      unfold outAt
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬condLast (grid1.coords t) := fun h => h1 ((hcondLast t).mp h)
      rw [Dat.leavesExact_idle (dat V c) 8 t (idle_out t hc1) (noFlush_out t hc1)]
      rw [accAt_next V c t h0]
      rw [PhiS_castSucc V c t, PhiS_pos V c _ _ hz0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid1.coords t) _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) (iblk V c 7 t) _ _ Set.univ _)
      unfold insAt
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [HS]; · iexact HS
      iintro ⟨⟨H0, H1, H2, H3, H4, H5, H6, H7⟩, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dat (F := F) V c) (defs₀ (F := F)) Variants.none () Set.univ := fun t => by
  rw [bigSep_W1, bigSep_W1]
  exact sound_body V c t

/-! ## Entering and leaving the layer -/

/-- Before the first point the invariant is the scoped buffers at anything, as the layer is handed them. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the accumulator's named contents may be forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]; · iexists _; iexact HS
    iexact HR
  iexact Hg

theorem hout (c : Dev nD) : (dat V c).Φ (Fin.last cfg1.N) ⊢ Pipeline.ΦA spec1 c :=
  Phi_out V c _ (by rw [Fin.val_last]; have : cfg1.N = 128 := N_1; omega)

end Cert.KernelIdeal.L1

end
-- ==== Proof.KI.Decode.lean ====
/-
  The decode step: logits = Z · Zᵀ, one 1024 × 2048 block of the 8192 × 8192 result per grid point (8 × 4 points).
  At point t = 4·i + j the body reads rows 1024·i … of Z (its first window) and rows 2048·j … of Z (its second
  window), and writes the whole output block as ONE product of the two. Both input windows look at the SAME
  array Z; the array is therefore held in two halves, one per window, for as long as the region runs, and is
  whole again when the region is left.
-/
import proofs.«157318_j36885179138300_1_alg».proof.Proof.Gen.KernelIdeal.Launch
import proofs.«157318_j36885179138300_1_alg».proof.Proof.Gen.KernelIdeal.Skeleton
import proofs.«157318_j36885179138300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every array of the core holds when the decode step is entered
variable (V : (c : Dev nD) → (b : Ref sig .tc) → Buf (Elt F) ((c : Thread nD τ).loc b))

/-! ## The blocks the two input windows see -/

/-- Window w's block at point t, read off its array as the step finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The proof data -/

/-- Z's rows for the first window, Z's rows for the second, and the product block; the two readers of Z hold a
    half of it each. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay1 (iblk V c 0 t) (iblk V c 1 t)
  Φ _ := Pipeline.ΦA spec2 c
  q w := match w with
    | ⟨0, _⟩ => (fullShare : PosShare TreeShare).left
    | ⟨1, _⟩ => (fullShare : PosShare TreeShare).right
    | ⟨2, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k2_pay1 (iblk V c 0 t) (iblk V c 1 t) := by dsimp only [dat]

/-! ## The input windows hold their blocks at every point -/

/-- The first window moves on only when i does (every fourth point); in between, the rows it fetched are still
    there, and they are the rows of the point at hand because the block index has not moved. -/
theorem before_0 (c : Dev nD) (t : Fin cfg2.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The second window is fetched afresh at every point. -/
theorem before_1 (c : Dev nD) (t : Fin cfg2.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## One point of the body -/

theorem zeros : (![0, 0] : Fin 2 → ℕ) = fun _ => 0 := by
  funext a; fin_cases a <;> rfl

set_option maxHeartbeats 1000000 in
/-- With x₀ in the first buffer and x₁ in the second, the body leaves both as they were and the third at the
    product block of x₀ and x₁, whatever the third held: its one store covers the whole buffer. -/
theorem sound_kernel (c : Dev nD) (E : Set ℕ) (i : grid2.Coords)
    (arg2 : Memref sig .tc .vmem S1024x128 .f32) (harg2 : arg2.IsWhole)
    (arg3 : Memref sig .tc .vmem S2048x128 .f32) (harg3 : arg3.IsWhole)
    (arg4 : Memref sig .tc .vmem S1024x2048 .f32) (harg4 : arg4.IsWhole)
    (x0 : Vec F S1024x128 .f32) (x1 : Vec F S2048x128 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k2_pay1 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have e0 : View.readAt (Elt F) arg2.view (Rect.unit ![0, 0] S1024x128.size inb_S1024x128_S1024x128_0_0).toLoadRect f0
      = arg2.view.read (Elt F) f0 := View.ld_unit_zero zeros inb_S1024x128_S1024x128_0_0 _
  have e1 : View.readAt (Elt F) arg3.view (Rect.unit ![0, 0] S2048x128.size inb_S2048x128_S2048x128_0_0).toLoadRect f1
      = arg3.view.read (Elt F) f1 := View.ld_unit_zero zeros inb_S2048x128_S2048x128_0_0 _
  rw [View.read_writes_eq_canon _ _ _
      (fun y => ⟨_, List.mem_singleton_self _, View.mem_set_unit_zero zeros inb_S1024x2048_S1024x2048_0_0 y⟩),
    View.canon_unit_zero zeros, e0, e1]

/-! ## The obligation at a point -/

/-- What the body is handed at point t: the invariant, the core's debts, and the three current buffers. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The two input buffers hold their blocks, so the body's triple applies; the invariant and the debts are not
    looked at. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact sound_body V c t

/-! ## Z dealt to its two readers, and gathered again -/

theorem share_0 (c : Dev nD) : (dat V c).share 0 = (fullShare : PosShare TreeShare).left := by
  unfold Dat.share; rw [if_neg (by decide)]; dsimp only [dat]

theorem share_1 (c : Dev nD) : (dat V c).share 1 = (fullShare : PosShare TreeShare).right := by
  unfold Dat.share; rw [if_neg (by decide)]; dsimp only [dat]

theorem share_2 (c : Dev nD) : (dat V c).share 2 = fullShare := by
  unfold Dat.share; rw [if_pos (by decide)]

/-- The windows' arrays at contents G, where the two readers of Z see the same contents X and the output array
    holds Y, are Z whole at X and the output array whole at Y: the two halves of Z's share make the whole. -/
theorem arrays_iff (c : Dev nD)
    (G : (w : Fin cfg2.W) → Buf (Elt F) ((cfg2.win w).arr.view.loc (c : Thread nD τ)))
    (X : Buf (Elt F) ((c : Thread nD τ).loc main_v3)) (Y : Buf (Elt F) ((c : Thread nD τ).loc main_v4))
    (h0 : G 0 = X) (h1 : G 1 = X) (h2 : G 2 = Y) :
    ((dat V c).arrays G : sProp 𝕄)
      ⊣⊢ iprop((((c : Thread nD τ).loc main_v3) ↦{fullShare} X) ∗ (((c : Thread nD τ).loc main_v4) ↦{fullShare} Y)) := by
  unfold Dat.arrays
  rw [bigSep_W2, share_0, share_1, share_2,
    (arr_whole2 0).set_eq_univ, (arr_whole2 2).set_eq_univ, h0, h1, h2]
  have hs : (((c : Thread nD τ).loc main_v3) ↦{fullShare} X : sProp 𝕄)
      ⊣⊢ iprop((((c : Thread nD τ).loc main_v3) ↦{(fullShare : PosShare TreeShare).left} X)
          ∗ (((c : Thread nD τ).loc main_v3) ↦{(fullShare : PosShare TreeShare).right} X)) :=
    pointsTo_share (PosShare.mem_left_op_right fullShare)
  constructor
  · iintro ⟨Ha, Hb, Hc⟩
    isplitl [Ha Hb]
    · iapply hs.2
      isplitl [Ha]; · iexact Ha
      iexact Hb
    iexact Hc
  · iintro ⟨Hab, Hc⟩
    ihave H := hs.1 $$ Hab
    icases H with ⟨Ha, Hb⟩
    isplitl [Ha]; · iexact Ha
    isplitl [Hb]; · iexact Hb
    iexact Hc

/-- The buffers behind the windows: Z and the output array. -/
theorem arrImage : Finset.univ.image (Pipeline.arrRef spec2) = {main_v3, main_v4} := by decide

/-- Entering the step: out of every array of the core, Z goes to its two readers by halves and the output array
    to its window; the other arrays stay aside. -/
theorem arrays_of_held (c : Dev nD) (W : Valuation τ sig (Elt F)) (hV : ∀ b, V c b = W (Proc.devRef .tc b)) :
    StableHlo.held (c : Thread nD τ) (Pipeline.ucRefs τ sig) W
      ⊢ iprop((dat V c).arrays ((dat V c).arrAt · 0)
          ∗ Pipeline.unscopedRest (Ix := Unit) (Name := ℕ) (U := UR sig nD τ) (Lvl := ℕ) spec2 c (V c)) := by
  have key : (unscopedBufs (Ix := Unit) (Name := ℕ) (U := UR sig nD τ) (Lvl := ℕ) c (fun b => W b) : sProp 𝕄)
      ⊢ iprop((dat V c).arrays ((dat V c).arrAt · 0)
          ∗ Pipeline.unscopedRest (Ix := Unit) (Name := ℕ) (U := UR sig nD τ) (Lvl := ℕ) spec2 c (V c)) := by
    rw [show (fun b : Ref sig .tc => W b) = V c from funext fun b => (hV b).symm,
      Pipeline.unscopedBufs_split₀ cfgs 2 winFacts₀2.arr_unscoped c (V c)]
    refine sep_mono_left ?_
    unfold Pipeline.arrBufs
    rw [show Finset.univ.image (Pipeline.arrRef (cfgs 2).spec) = {main_v3, main_v4} from arrImage,
        bigSep_insert (by decide), bigSep_singleton]
    exact (arrays_iff V c _ (V c main_v3) (V c main_v4) (A_eq V c 0) (A_eq V c 1) (A_eq V c 2)).2
  rw [Pipeline.unscopedBufs_held] at key
  exact key

/-- Leaving the step: the two halves of Z come back together, unchanged; the output array is what the written-back
    blocks made of it; the other arrays were never touched. -/
theorem held_of_arrays (c : Dev nD) (W W' : Valuation τ sig (Elt F)) (hV : ∀ b, V c b = W (Proc.devRef .tc b))
    (hout : W' (Proc.devRef .tc main_v4) = (dat V c).arrAt 2 cfg2.N)
    (hrest : ∀ b : Ref sig .tc, b ≠ main_v4 → W' (Proc.devRef .tc b) = W (Proc.devRef .tc b)) :
    iprop((dat V c).arrays ((dat V c).arrAt · cfg2.N)
        ∗ Pipeline.unscopedRest (Ix := Unit) (Name := ℕ) (U := UR sig nD τ) (Lvl := ℕ) spec2 c (V c))
      ⊢ StableHlo.held (c : Thread nD τ) (Pipeline.ucRefs τ sig) W' := by
  have hZ : (dat V c).arrAt 0 cfg2.N = W' (Proc.devRef .tc main_v3) := by
    rw [(dat V c).arrAt_in 0 rfl, A_eq, hrest main_v3 (by decide)]; exact hV main_v3
  have hZ' : (dat V c).arrAt 1 cfg2.N = W' (Proc.devRef .tc main_v3) := by
    rw [(dat V c).arrAt_in 1 rfl, A_eq, hrest main_v3 (by decide)]; exact hV main_v3
  have key : iprop((dat V c).arrays ((dat V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c (fun b => W' b) : sProp 𝕄) := by
    rw [Pipeline.unscopedBufs_split₀ cfgs 2 winFacts₀2.arr_unscoped c (fun b => W' b)]
    refine BI.sep_mono ?_ ?_
    · unfold Pipeline.arrBufs
      rw [show Finset.univ.image (Pipeline.arrRef (cfgs 2).spec) = {main_v3, main_v4} from arrImage,
        bigSep_insert (by decide), bigSep_singleton]
      exact (arrays_iff V c _ (W' (Proc.devRef .tc main_v3)) (W' (Proc.devRef .tc main_v4)) hZ hZ' hout.symm).1
    · unfold Pipeline.unscopedRest
      refine Entails.of_eq (bigSep_congr fun b hb => ?_)
      have hb4 : b ≠ main_v4 := fun e =>
        (Finset.mem_sdiff.mp hb).2 (e ▸ Finset.mem_image_of_mem (Pipeline.arrRef spec2) (Finset.mem_univ (2 : Fin 3)))
      rw [hV b, ← hrest b hb4]
  rw [Pipeline.unscopedBufs_held] at key
  exact key

end Cert.KernelIdeal.L2

end
-- ==== Proof.KI.Run.lean ====
/-
  The run of the whole program on the core: a bias reshaped into a row, graph-convolution layer 1, the second bias
  reshaped into a row, layer 2, and the decode. What every buffer holds between two steps is written as a fold from
  the launch memory; each of the three kernel steps is entered from what the step before it left and leaves what the
  next one is entered from; and the run is concluded with every unscoped buffer's final contents NAMED: the twelve
  inputs as launched, the embedding as layer 2 left it, the Gram matrix as the decode left it.
-/
import proofs.«157318_j36885179138300_1_alg».proof.Proof.KI.Layer0
import proofs.«157318_j36885179138300_1_alg».proof.Proof.KI.Layer1
import proofs.«157318_j36885179138300_1_alg».proof.Proof.KI.Decode
import proofs.«157318_j36885179138300_1_alg».proof.Proof.Gen.KernelIdeal.Regions
import proofs.«157318_j36885179138300_1_alg».proof.Proof.Gen.KernelIdeal.Launch
import proofs.«157318_j36885179138300_1_alg».proof.Proof.Gen.KernelIdeal.Skeleton
import proofs.«157318_j36885179138300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What every buffer holds between the five steps of the program

The program is: the first bias reshaped into a row, layer 1, the second bias reshaped into a row, layer 2, decode.
`W0 … W5` are the contents of the core's buffers before the first step and after each step, each written from the one
before it: a reshape rewrites its result buffer, a layer or the decode rewrites its output array and nothing else. -/

/-- At launch. -/
abbrev W0 : Dev nD → Valuation τ sig (Elt F) := fun c b => (s₀ m ρ).mem ((c : Dev nD), b)
/-- After the first bias has been reshaped into a row (layer 1 is entered from here). -/
abbrev W1 : Dev nD → Valuation τ sig (Elt F) := fun c => StableHlo.after hostOps0 (W0 m ρ c)
/-- The same, read at the references of the core. -/
abbrev V1 : (c : Dev nD) → (b : Ref sig .tc) → Buf (Elt F) ((c : Thread nD τ).loc b) := fun c b => W1 m ρ c b
/-- After layer 1: each of its nine arrays at what the layer leaves there, every other buffer as before. -/
def W2 (c : Dev nD) : Valuation τ sig (Elt F) :=
  Pipeline.withArrays spec0 c (W1 m ρ c) fun w => (L0.dat (V1 m ρ) c).arrAt w cfg0.N
theorem W2_arr (c : Dev nD) (w : Fin cfg0.W) :
    W2 m ρ c (Proc.devRef .tc (Pipeline.arrRef spec0 w)) = (L0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (L0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second bias has been reshaped into a row (layer 2 is entered from here). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2. -/
def W4 (c : Dev nD) : Valuation τ sig (Elt F) :=
  Pipeline.withArrays spec1 c (W3 m ρ c) fun w => (L1.dat (V3 m ρ) c).arrAt w cfg1.N
theorem W4_arr (c : Dev nD) (w : Fin cfg1.W) :
    W4 m ρ c (Proc.devRef .tc (Pipeline.arrRef spec1 w)) = (L1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (L1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the decode: the Gram matrix's array at what the decode leaves there, every other buffer as before. The decode's
    two input windows read one array, so its arrays are not pairwise distinct and the contents are written as one
    update at the output rather than array by array. -/
def W5 (c : Dev nD) : Valuation τ sig (Elt F) :=
  Function.update (W4 m ρ c) (Proc.devRef .tc main_v4) ((L2.dat (V4 m ρ) c).arrAt 2 cfg2.N)

/-! ## What each step leaves alone -/

theorem W1_keep (c : Dev nD) (b : Ref sig .tc) (hb : b ≠ main_v0) :
    W1 m ρ c (Proc.devRef .tc b) = W0 m ρ c (Proc.devRef .tc b) :=
  StableHlo.after_of_writes_sub hostOps0 _ hostOps0_writes fun h => hb (List.mem_singleton.mp h)

/-- Every window of layer 1 but the last is an input. -/
theorem isIn0 : ∀ w : Fin 9, Pipeline.arrRef spec0 w ≠ main_v1 → (cfg0.win w).isOut = false := by decide

/-- Layer 1 changes `main_v1` only: a buffer it does not window is untouched, an input window's array is left at
    what it held on entry. -/
theorem W2_keep (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    exact (W2_arr m ρ c w).trans (((L0.dat (V1 m ρ) c).arrAt_in w (isIn0 w hb) _).trans (L0.A_eq (V1 m ρ) c w))
  · exact W2_of_ne m ρ c b fun w e => h ⟨w, e⟩

theorem W3_keep (c : Dev nD) (b : Ref sig .tc) (hb : b ≠ main_v2) :
    W3 m ρ c (Proc.devRef .tc b) = W2 m ρ c (Proc.devRef .tc b) :=
  StableHlo.after_of_writes_sub hostOps1 _ hostOps1_writes fun h => hb (List.mem_singleton.mp h)

/-- Every window of layer 2 but the last is an input. -/
theorem isIn1 : ∀ w : Fin 9, Pipeline.arrRef spec1 w ≠ main_v3 → (cfg1.win w).isOut = false := by decide

/-- Layer 2 changes `main_v3` only. -/
theorem W4_keep (c : Dev nD) (b : Ref sig .tc) (hb : b ≠ main_v3) :
    W4 m ρ c (Proc.devRef .tc b) = W3 m ρ c (Proc.devRef .tc b) := by
  by_cases h : ∃ w, Pipeline.arrRef spec1 w = b
  · obtain ⟨w, rfl⟩ := h
    exact (W4_arr m ρ c w).trans (((L1.dat (V3 m ρ) c).arrAt_in w (isIn1 w hb) _).trans (L1.A_eq (V3 m ρ) c w))
  · exact W4_of_ne m ρ c b fun w e => h ⟨w, e⟩

/-- The decode changes `main_v4` only. -/
theorem W5_keep (c : Dev nD) (b : Ref sig .tc) (hb : b ≠ main_v4) :
    W5 m ρ c (Proc.devRef .tc b) = W4 m ρ c (Proc.devRef .tc b) := by
  unfold W5; exact Function.update_of_ne (StableHlo.devRef_ne_of_ne hb) _ _

/-! ## What the two results hold at the end -/

theorem W5_main_v4 (c : Dev nD) : W5 m ρ c (Proc.devRef .tc main_v4) = (L2.dat (V4 m ρ) c).arrAt 2 cfg2.N := by
  unfold W5; exact Function.update_self _ _ _

theorem W5_main_v3 (c : Dev nD) : W5 m ρ c (Proc.devRef .tc main_v3) = (L1.dat (V3 m ρ) c).arrAt 8 cfg1.N :=
  (W5_keep m ρ c main_v3 (by decide)).trans (W4_arr m ρ c 8)

/-! ## The inputs end as launched

A buffer that is none of the five intermediate results is written by no step. -/

theorem W5_of_arg (c : Dev nD) (b : Ref sig .tc) (h0 : b ≠ main_v0) (h1 : b ≠ main_v1) (h2 : b ≠ main_v2) (h3 : b ≠ main_v3)
    (h4 : b ≠ main_v4) : W5 m ρ c (Proc.devRef .tc b) = m ((c : Thread nD τ).loc b) :=
  (W5_keep m ρ c b h4).trans <| (W4_keep m ρ c b h3).trans <| (W3_keep m ρ c b h2).trans <| (W2_keep m ρ c b h1).trans <|
    (W1_keep m ρ c b h0).trans rfl

theorem W5_main_arg0 (c : Dev nD) : W5 m ρ c (Proc.devRef .tc main_arg0) = m ((c : Thread nD τ).loc main_arg0) :=
  W5_of_arg m ρ c main_arg0 (by decide) (by decide) (by decide) (by decide) (by decide)
theorem W5_main_arg1 (c : Dev nD) : W5 m ρ c (Proc.devRef .tc main_arg1) = m ((c : Thread nD τ).loc main_arg1) :=
  W5_of_arg m ρ c main_arg1 (by decide) (by decide) (by decide) (by decide) (by decide)
theorem W5_main_arg2 (c : Dev nD) : W5 m ρ c (Proc.devRef .tc main_arg2) = m ((c : Thread nD τ).loc main_arg2) :=
  W5_of_arg m ρ c main_arg2 (by decide) (by decide) (by decide) (by decide) (by decide)
theorem W5_main_arg3 (c : Dev nD) : W5 m ρ c (Proc.devRef .tc main_arg3) = m ((c : Thread nD τ).loc main_arg3) :=
  W5_of_arg m ρ c main_arg3 (by decide) (by decide) (by decide) (by decide) (by decide)
theorem W5_main_arg4 (c : Dev nD) : W5 m ρ c (Proc.devRef .tc main_arg4) = m ((c : Thread nD τ).loc main_arg4) :=
  W5_of_arg m ρ c main_arg4 (by decide) (by decide) (by decide) (by decide) (by decide)
theorem W5_main_arg5 (c : Dev nD) : W5 m ρ c (Proc.devRef .tc main_arg5) = m ((c : Thread nD τ).loc main_arg5) :=
  W5_of_arg m ρ c main_arg5 (by decide) (by decide) (by decide) (by decide) (by decide)
theorem W5_main_arg6 (c : Dev nD) : W5 m ρ c (Proc.devRef .tc main_arg6) = m ((c : Thread nD τ).loc main_arg6) :=
  W5_of_arg m ρ c main_arg6 (by decide) (by decide) (by decide) (by decide) (by decide)
theorem W5_main_arg7 (c : Dev nD) : W5 m ρ c (Proc.devRef .tc main_arg7) = m ((c : Thread nD τ).loc main_arg7) :=
  W5_of_arg m ρ c main_arg7 (by decide) (by decide) (by decide) (by decide) (by decide)
theorem W5_main_arg8 (c : Dev nD) : W5 m ρ c (Proc.devRef .tc main_arg8) = m ((c : Thread nD τ).loc main_arg8) :=
  W5_of_arg m ρ c main_arg8 (by decide) (by decide) (by decide) (by decide) (by decide)
theorem W5_main_arg9 (c : Dev nD) : W5 m ρ c (Proc.devRef .tc main_arg9) = m ((c : Thread nD τ).loc main_arg9) :=
  W5_of_arg m ρ c main_arg9 (by decide) (by decide) (by decide) (by decide) (by decide)
theorem W5_main_arg10 (c : Dev nD) : W5 m ρ c (Proc.devRef .tc main_arg10) = m ((c : Thread nD τ).loc main_arg10) :=
  W5_of_arg m ρ c main_arg10 (by decide) (by decide) (by decide) (by decide) (by decide)
theorem W5_main_arg11 (c : Dev nD) : W5 m ρ c (Proc.devRef .tc main_arg11) = m ((c : Thread nD τ).loc main_arg11) :=
  W5_of_arg m ρ c main_arg11 (by decide) (by decide) (by decide) (by decide) (by decide)

/-! ## What each step finds -/

/-- Layer 1 finds every input as launched. -/
theorem V1_of_arg (c : Dev nD) (b : Ref sig .tc) (h0 : b ≠ main_v0) : V1 m ρ c b = m ((c : Thread nD τ).loc b) :=
  (W1_keep m ρ c b h0).trans rfl

/-- Layer 1 finds the first bias as a row. -/
theorem V1_main_v0 (c : Dev nD) :
    V1 m ρ c main_v0 = fun i => (rfl : main_arg10.ty.elt = main_v0.ty.elt) ▸
      shapeCast main_v0.ty.shape (m ((c : Thread nD τ).loc main_arg10)) shapeCasts_S128_S1x128 i := by
  show StableHlo.after hostOps0 (W0 m ρ c) (Proc.devRef .tc main_v0) = _
  simp only [hostOps0, StableHlo.after_cons, StableHlo.after_nil]
  rw [StableHlo.reshape_result]

/-- Layer 2 finds every input as launched, -/
theorem V3_of_arg (c : Dev nD) (b : Ref sig .tc) (h0 : b ≠ main_v0) (h1 : b ≠ main_v1) (h2 : b ≠ main_v2) :
    V3 m ρ c b = m ((c : Thread nD τ).loc b) :=
  (W3_keep m ρ c b h2).trans <| (W2_keep m ρ c b h1).trans <| (W1_keep m ρ c b h0).trans rfl

/-- the hidden layer where layer 1 left it, -/
theorem V3_main_v1 (c : Dev nD) : V3 m ρ c main_v1 = (L0.dat (V1 m ρ) c).arrAt 8 cfg0.N :=
  (W3_keep m ρ c main_v1 (by decide)).trans (W2_arr m ρ c 8)

/-- and the second bias as a row. -/
theorem V3_main_v2 (c : Dev nD) :
    V3 m ρ c main_v2 = fun i => (rfl : main_arg11.ty.elt = main_v2.ty.elt) ▸
      shapeCast main_v2.ty.shape (m ((c : Thread nD τ).loc main_arg11)) shapeCasts_S128_S1x128 i := by
  show StableHlo.after hostOps1 (W2 m ρ c) (Proc.devRef .tc main_v2) = _
  simp only [hostOps1, StableHlo.after_cons, StableHlo.after_nil]
  rw [StableHlo.reshape_result]
  have h : W2 m ρ c (Proc.devRef .tc main_arg11) = m ((c : Thread nD τ).loc main_arg11) :=
    (W2_keep m ρ c main_arg11 (by decide)).trans ((W1_keep m ρ c main_arg11 (by decide)).trans rfl)
  rw [h]

/-- The decode finds the embedding where layer 2 left it. -/
theorem V4_main_v3 (c : Dev nD) : V4 m ρ c main_v3 = (L1.dat (V3 m ρ) c).arrAt 8 cfg1.N := W4_arr m ρ c 8

/-! # The three steps' proof data and the thread state -/

/-- Each step's proof data, at the contents the step is entered with. -/
def pdats : (p : Fin 3) → (c : Dev nD) → Dat τ (Elt F) Unit ℕ (UR sig nD τ) ℕ (Pipeline.pin (pcfgs (F := F)) adm p) c
  | ⟨0, _⟩ => fun c => L0.dat (V1 m ρ) c
  | ⟨1, _⟩ => fun c => L1.dat (V3 m ρ) c
  | ⟨2, _⟩ => fun c => L2.dat (V4 m ρ) c
abbrev 𝒱₀ : Variants := Variants.none
/-- The core owes nothing to anyone: no level is assigned. -/
abbrev L : GSem nD τ sig → Finset Unit := fun _ => ∅
abbrev lv : GSem nD τ sig → Unit → ℕ := fun _ _ => 0
/-- Beside the buffers, between two steps: the generator register at some state, and the core owing nothing. -/
abbrev R (c : Dev nD) : sProp 𝕄 := iprop((∃ r, prngReg c r) ∗ ∃ W, owes (c : Thread nD τ) (0 : CellTallies nD τ sig Unit) W)
/-- A reshape as a segment over all the unscoped buffers, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The thread state at the end, the `owes` apart: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! # The three steps as segments

What a step takes besides its arrays is the same for all three: the generator register and the scoped scratch go into
the step's invariant and come back out of it, and the core, which owes nothing, owes nothing at the first point and
nothing at the last. -/

/-- The generator register and the scoped scratch make the invariant of a step whose body may use both and need
    describe neither; whatever else is offered is not needed. -/
theorem inv_of_reg {gr W : ℕ} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) win c)
      ⊢ (Pipeline.ΦA win c : sProp 𝕄) := by
  unfold Pipeline.ΦA
  iintro ⟨Hg, -, Hs⟩
  isplitl [Hs]; · iexact Hs
  iexact Hg

/-- That invariant gives both back. -/
theorem reg_of_inv {gr W : ℕ} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) win c) := by
  unfold Pipeline.ΦA
  iintro ⟨Hs, Hg⟩
  isplitl [Hg]; · iexact Hg
  isplitr; · iempintro
  iexact Hs

/-- A core owing nothing is what proof data that owe nothing at the first point, and bound nothing there, start from. -/
theorem owesAt_first {cfg : Cfg sig Λ₀} {c : Dev nD} (dat : Dat τ (Elt F) Unit ℕ (UR sig nD τ) ℕ cfg c)
    (h0 : dat.owed 0 = 0) (hr : dat.recorded 0 = Set.univ) :
    iprop(∃ W, owes (c : Thread nD τ) (0 : CellTallies nD τ sig Unit) W) ⊢ (dat.owesAt () 0 : sProp 𝕄) := by
  unfold Pipeline.Dat.owesAt Pipeline.owesWithin Pipeline.Dat.bound
  rw [h0, hr]
  iintro ⟨%W, HO⟩
  iexists W
  isplitr; · ipureintro; exact fun _ _ => Or.inl trivial
  iexact HO

/-- Proof data that owe nothing at the last point leave a core owing nothing. -/
theorem owes_of_owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  unfold Pipeline.Dat.owesAt Pipeline.owesWithin
  rw [hN]
  iintro ⟨%W, -, HO⟩
  iexists W; iexact HO

set_option backward.isDefEq.respectTransparency.types false in
/-- Layer 1 as a segment: entered with every unscoped buffer at `W1`, left with them at `W2`. Its nine arrays are
    taken out of the unscoped buffers on entry and put back, the output at what the write-backs left, on exit; the
    generator register and the scoped scratch go into the layer's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (L0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => L0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_first (pdats m ρ 0 c) rfl rfl); iexact HO
    isplitl [Hp]; · iexact Hp
    iexact Hrest
  hin c := (inv_of_reg spec0 c _).trans (L0.hin (V1 m ρ) c)
  hout c := by
    rw [Pipeline.ownSems0_none]
    exact (L0.hout (V1 m ρ) c).trans (reg_of_inv spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats m ρ 0 c) rfl); iexact HO

set_option backward.isDefEq.respectTransparency.types false in
/-- Layer 2 as a segment: entered with every unscoped buffer at `W3`, left with them at `W4`. Its nine arrays are
    taken out of the unscoped buffers on entry and put back, the output at what the write-backs left, on exit; the
    generator register and the scoped scratch go into the layer's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (L1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => L1.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_first (pdats m ρ 1 c) rfl rfl); iexact HO
    isplitl [Hp]; · iexact Hp
    iexact Hrest
  hin c := (inv_of_reg spec1 c _).trans (L1.hin (V3 m ρ) c)
  hout c := by
    rw [Pipeline.ownSems0_none]
    exact (L1.hout (V3 m ρ) c).trans (reg_of_inv spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats m ρ 1 c) rfl); iexact HO

set_option backward.isDefEq.respectTransparency.types false in
/-- The decode as a segment: entered with every unscoped buffer at `W4`, left with them at `W5`. The embedding is dealt
    in halves to the two windows that read it and gathered again on exit; the decode's invariant is the generator register
    and the scoped scratch, the same at every point. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (L2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := L2.arrays_of_held (V4 m ρ) c (W4 m ρ c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_first (pdats m ρ 2 c) rfl rfl); iexact HO
    isplitl [Hp]; · iexact Hp
    iexact Hrest
  hin c := inv_of_reg spec2 c _
  hout c := by
    rw [Pipeline.ownSems0_none]
    exact reg_of_inv spec2 c
  hexit c := by
    have hjoin := L2.held_of_arrays (V4 m ρ) c (W4 m ρ c) (W5 m ρ c) (fun _ => rfl) (W5_main_v4 m ρ c) (W5_keep m ρ c)
    iintro ⟨Ha, HO, HY, Hrest⟩
    imodintro
    isplitl [Ha Hrest HY]
    · isplitl [Ha Hrest]
      · iapply hjoin
        isplitl [Ha]; · iexact Ha
        iexact Hrest
      iexact HY
    iapply (owes_of_owesAt_last (pdats m ρ 2 c) rfl); iexact HO

/-! # The program as its five segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]

theorem main_run (c : Dev nD) : main (F := F) c = Pipeline.Seg.run (segs m ρ) := (main_chain c).trans (by chain_rfl)

/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory `m` with every counter at zero, every weakly fair execution of the program terminates without
    a fault, and in every final memory each unscoped buffer of the core holds `W5`: the inputs what they held at launch
    (`W5_main_argK`), `main_v3` what layer 2 left (`W5_main_v3`), `main_v4` what the decode left (`W5_main_v4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Run

end
-- ==== Proof.Frames.lean ====
/-
  The three frame claims. Each kernel program's run over its three regions ends with every buffer the host can see at
  a named content, and the twelve argument arrays are never written: neither host stretch writes one (each writes a
  reshaped bias into a buffer of its own), and every region reads them through input windows only. The reference has
  no kernel: its frame is its run with the results dropped.
-/
import proofs.«157318_j36885179138300_1_alg».proof.Defs
import proofs.«157318_j36885179138300_1_alg».proof.Proof.K.Run
import proofs.«157318_j36885179138300_1_alg».proof.Proof.KI.Run
import proofs.«157318_j36885179138300_1_alg».proof.Proof.Gen.ReferenceIdeal.Run
import proofs.«157318_j36885179138300_1_alg».proof.Proof.Gen.Pre_finite_inputs

noncomputable section

open Idealize.ShloMosaic Idealize.ShloMosaic.TcCoe Idealize.SL.Sem

namespace Cert.Proof.Frames

/-- The word-level kernel program terminates, faults nowhere and leaves its arguments as launched. -/
theorem frame_kernel : Cert.frame_Kernel := fun m ρ _ =>
  (θ_run Cert.Kernel.defs _ _).mono (fun _ h c =>
    ⟨(h c _ (Cert.Kernel.Run.mem_uc Cert.Kernel.main_arg0 (by decide))).trans (Cert.Kernel.Run.W5_main_arg0 m ρ c),
      (h c _ (Cert.Kernel.Run.mem_uc Cert.Kernel.main_arg1 (by decide))).trans (Cert.Kernel.Run.W5_main_arg1 m ρ c),
      (h c _ (Cert.Kernel.Run.mem_uc Cert.Kernel.main_arg2 (by decide))).trans (Cert.Kernel.Run.W5_main_arg2 m ρ c),
      (h c _ (Cert.Kernel.Run.mem_uc Cert.Kernel.main_arg3 (by decide))).trans (Cert.Kernel.Run.W5_main_arg3 m ρ c),
      (h c _ (Cert.Kernel.Run.mem_uc Cert.Kernel.main_arg4 (by decide))).trans (Cert.Kernel.Run.W5_main_arg4 m ρ c),
      (h c _ (Cert.Kernel.Run.mem_uc Cert.Kernel.main_arg5 (by decide))).trans (Cert.Kernel.Run.W5_main_arg5 m ρ c),
      (h c _ (Cert.Kernel.Run.mem_uc Cert.Kernel.main_arg6 (by decide))).trans (Cert.Kernel.Run.W5_main_arg6 m ρ c),
      (h c _ (Cert.Kernel.Run.mem_uc Cert.Kernel.main_arg7 (by decide))).trans (Cert.Kernel.Run.W5_main_arg7 m ρ c),
      (h c _ (Cert.Kernel.Run.mem_uc Cert.Kernel.main_arg8 (by decide))).trans (Cert.Kernel.Run.W5_main_arg8 m ρ c),
      (h c _ (Cert.Kernel.Run.mem_uc Cert.Kernel.main_arg9 (by decide))).trans (Cert.Kernel.Run.W5_main_arg9 m ρ c),
      (h c _ (Cert.Kernel.Run.mem_uc Cert.Kernel.main_arg10 (by decide))).trans (Cert.Kernel.Run.W5_main_arg10 m ρ c),
      (h c _ (Cert.Kernel.Run.mem_uc Cert.Kernel.main_arg11 (by decide))).trans (Cert.Kernel.Run.W5_main_arg11 m ρ c)⟩)
    (Cert.Kernel.Run.run_all (F := Bits) m ρ)

/-- The same of the idealized kernel program, read over the extended reals. -/
theorem frame_kernelIdeal : Cert.frame_KernelIdeal := fun m ρ _ =>
  (θ_run Cert.KernelIdeal.defs _ _).mono (fun _ h c =>
    ⟨(h c _ (Cert.KernelIdeal.Run.mem_uc Cert.KernelIdeal.main_arg0 (by decide))).trans (Cert.KernelIdeal.Run.W5_main_arg0 m ρ c),
      (h c _ (Cert.KernelIdeal.Run.mem_uc Cert.KernelIdeal.main_arg1 (by decide))).trans (Cert.KernelIdeal.Run.W5_main_arg1 m ρ c),
      (h c _ (Cert.KernelIdeal.Run.mem_uc Cert.KernelIdeal.main_arg2 (by decide))).trans (Cert.KernelIdeal.Run.W5_main_arg2 m ρ c),
      (h c _ (Cert.KernelIdeal.Run.mem_uc Cert.KernelIdeal.main_arg3 (by decide))).trans (Cert.KernelIdeal.Run.W5_main_arg3 m ρ c),
      (h c _ (Cert.KernelIdeal.Run.mem_uc Cert.KernelIdeal.main_arg4 (by decide))).trans (Cert.KernelIdeal.Run.W5_main_arg4 m ρ c),
      (h c _ (Cert.KernelIdeal.Run.mem_uc Cert.KernelIdeal.main_arg5 (by decide))).trans (Cert.KernelIdeal.Run.W5_main_arg5 m ρ c),
      (h c _ (Cert.KernelIdeal.Run.mem_uc Cert.KernelIdeal.main_arg6 (by decide))).trans (Cert.KernelIdeal.Run.W5_main_arg6 m ρ c),
      (h c _ (Cert.KernelIdeal.Run.mem_uc Cert.KernelIdeal.main_arg7 (by decide))).trans (Cert.KernelIdeal.Run.W5_main_arg7 m ρ c),
      (h c _ (Cert.KernelIdeal.Run.mem_uc Cert.KernelIdeal.main_arg8 (by decide))).trans (Cert.KernelIdeal.Run.W5_main_arg8 m ρ c),
      (h c _ (Cert.KernelIdeal.Run.mem_uc Cert.KernelIdeal.main_arg9 (by decide))).trans (Cert.KernelIdeal.Run.W5_main_arg9 m ρ c),
      (h c _ (Cert.KernelIdeal.Run.mem_uc Cert.KernelIdeal.main_arg10 (by decide))).trans (Cert.KernelIdeal.Run.W5_main_arg10 m ρ c),
      (h c _ (Cert.KernelIdeal.Run.mem_uc Cert.KernelIdeal.main_arg11 (by decide))).trans (Cert.KernelIdeal.Run.W5_main_arg11 m ρ c)⟩)
    (Cert.KernelIdeal.Run.run_all (F := Ideal) m ρ)

/-- The reference is host operations only; its run states the arguments unchanged after its two results. -/
theorem frame_referenceIdeal : Cert.frame_ReferenceIdeal := fun m ρ _ =>
  (θ_run Cert.ReferenceIdeal.defs _ _).mono (fun _ h c => (h c).2.2) (Cert.ReferenceIdeal.Value.run (F := Ideal) m ρ)

end Cert.Proof.Frames

end
-- ==== Proof.Spec.lean ====
/-
  The mathematics both programs compute, over the reals.

  A graph-convolution layer with three edge types: for adjacency matrices a₀, a₁, a₂ (N×N), features x (N×I),
  weights w₀, w₁, w₂ (O×I) and a bias b (O),
      agg n o = Σ_r Σ_f (Σ_k a_r n k · x k f) · w_r o f,
  the first layer keeps the positive part of agg + b, the second layer is agg + b of the first layer's output, and
  the decoder is the Gram matrix of the second layer's rows.

  `arr2` / `arr1` present a real matrix / vector as an array of extended reals indexed by shape indices; every
  finite array is of that form (`exists_arr2`, `exists_arr1`).
-/
import Mathlib.Data.EReal.Basic
import Mathlib.Algebra.BigOperators.Fin
import Mathlib.Logic.Equiv.Fin.Basic
import Mathlib.Algebra.BigOperators.Group.Finset.Basic
import Idealize.ShloMosaic.Lib.ValueIdx

noncomputable section

open scoped BigOperators

namespace Cert.Spec

open Idealize.ShloMosaic Idealize.ShloMosaic.ValueIdx

/-- One edge type's message passing followed by its projection: `Σ_f (Σ_k a n k · x k f) · w o f`. -/
def proj {N I O : ℕ} (a : Fin N → Fin N → ℝ) (x : Fin N → Fin I → ℝ) (w : Fin O → Fin I → ℝ) (n : Fin N) (o : Fin O) : ℝ :=
  ∑ f : Fin I, (∑ k : Fin N, a n k * x k f) * w o f

/-- The three edge types summed. -/
def agg {N I O : ℕ} (a0 a1 a2 : Fin N → Fin N → ℝ) (x : Fin N → Fin I → ℝ) (w0 w1 w2 : Fin O → Fin I → ℝ)
    (n : Fin N) (o : Fin O) : ℝ :=
  proj a0 x w0 n o + proj a1 x w1 n o + proj a2 x w2 n o

/-- First layer: bias, then the positive part. -/
def hidden {N I O : ℕ} (a0 a1 a2 : Fin N → Fin N → ℝ) (x : Fin N → Fin I → ℝ) (w0 w1 w2 : Fin O → Fin I → ℝ)
    (b : Fin O → ℝ) (n : Fin N) (o : Fin O) : ℝ :=
  max (agg a0 a1 a2 x w0 w1 w2 n o + b o) 0

/-- Second layer over the first layer's output: bias, no positive part. -/
def emb {N I O E : ℕ} (a0 a1 a2 : Fin N → Fin N → ℝ) (x : Fin N → Fin I → ℝ) (w0 w1 w2 : Fin O → Fin I → ℝ)
    (b : Fin O → ℝ) (v0 v1 v2 : Fin E → Fin O → ℝ) (b' : Fin E → ℝ) (n : Fin N) (e : Fin E) : ℝ :=
  agg a0 a1 a2 (hidden a0 a1 a2 x w0 w1 w2 b) v0 v1 v2 n e + b' e

/-- The decoder: the Gram matrix of a matrix's rows. -/
def gram {N E : ℕ} (z : Fin N → Fin E → ℝ) (n n' : Fin N) : ℝ := ∑ e : Fin E, z n e * z n' e

/-- A real matrix as an array of extended reals over a rank-2 shape. -/
def arr2 {A B : ℕ} (g : Fin A → Fin B → ℝ) : (⟨2, ![A, B]⟩ : Shape).Idx → EReal := fun i => ((g (i 0) (i 1) : ℝ) : EReal)

/-- A real vector as an array of extended reals over a rank-1 shape. -/
def arr1 {A : ℕ} (g : Fin A → ℝ) : (⟨1, ![A]⟩ : Shape).Idx → EReal := fun i => ((g (i 0) : ℝ) : EReal)

/-- A real vector as the single row of a `1×B` array of extended reals. -/
def row1 {B : ℕ} (g : Fin B → ℝ) : (⟨2, ![1, B]⟩ : Shape).Idx → EReal := fun i => ((g (i 1) : ℝ) : EReal)

theorem row1_ix2 {B : ℕ} (g : Fin B → ℝ) (p : Fin 1) (q : Fin B) : row1 g (ix2 p q) = ((g q : ℝ) : EReal) := rfl

theorem arr2_ix2 {A B : ℕ} (g : Fin A → Fin B → ℝ) (p : Fin A) (q : Fin B) : arr2 g (ix2 p q) = ((g p q : ℝ) : EReal) := rfl

theorem arr1_ix1 {A : ℕ} (g : Fin A → ℝ) (p : Fin A) : arr1 g (ix1 p) = ((g p : ℝ) : EReal) := rfl

/-- An array none of whose entries is infinite is a real matrix. -/
theorem exists_arr2 {A B : ℕ} (x : (⟨2, ![A, B]⟩ : Shape).Idx → EReal) (h : ∀ i, x i ≠ ⊤ ∧ x i ≠ ⊥) :
    ∃ g : Fin A → Fin B → ℝ, x = arr2 g := by
  refine ⟨fun p q => (x (ix2 p q)).toReal, funext fun i => ?_⟩
  obtain ⟨p, q, rfl⟩ : ∃ (p : Fin A) (q : Fin B), i = ix2 p q := ⟨i 0, i 1, eq_ix2 i⟩
  rw [arr2_ix2, EReal.coe_toReal (h _).1 (h _).2]

/-- An array none of whose entries is infinite is a real vector. -/
theorem exists_arr1 {A : ℕ} (x : (⟨1, ![A]⟩ : Shape).Idx → EReal) (h : ∀ i, x i ≠ ⊤ ∧ x i ≠ ⊥) :
    ∃ g : Fin A → ℝ, x = arr1 g := by
  refine ⟨fun p => (x (ix1 p)).toReal, funext fun i => ?_⟩
  obtain ⟨p, rfl⟩ : ∃ p : Fin A, i = ix1 p := ⟨i 0, eq_ix1 i⟩
  rw [arr1_ix1, EReal.coe_toReal (h _).1 (h _).2]

/-- The coercion of reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `J * K` indices taken `K` at a time: index `k + K * j` is the `k`-th of block `j`. -/
theorem sum_blocks (J K : ℕ) (f : Fin (J * K) → ℝ) :
    ∑ k : Fin (J * K), f k = ∑ j : Fin J, ∑ k : Fin K, f (finProdFinEquiv (j, k)) := by
  rw [← Equiv.sum_comp finProdFinEquiv f, Fintype.sum_prod_type]

theorem blockIdx_val (J K : ℕ) (j : Fin J) (k : Fin K) : (finProdFinEquiv (j, k)).val = k.val + K * j.val := rfl

end Cert.Spec

end
-- ==== Proof.Val.Ref.lean ====
/-
  The reference's two results, at the ideal reading, are the specification's matrices: the second layer's
  embedding and its Gram matrix.

  Every operand is a real matrix presented entry by entry as an extended real, so each stage of the reference is
  again such a matrix: a product's entry is a finite sum of products of reals, a sum's entry a sum of reals, the
  positive part a maximum with the real zero. The stages are taken in the reference's order — per edge type the
  message matrix a_r · x, its projection by the transposed weights, the running total started from zero; then the bias
  laid along the rows, for the first layer the positive part — and the Gram matrix of the second layer's rows last.
-/
import proofs.«157318_j36885179138300_1_alg».proof.Proof.Gen.ReferenceIdeal.Run
import proofs.«157318_j36885179138300_1_alg».proof.Proof.Gen.ReferenceIdeal.Read
import proofs.«157318_j36885179138300_1_alg».proof.Proof.Spec
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Read Cert.Spec

/-- A finite sum of products of reals, formed in the extended reals, is the real sum of the real products. -/
theorem sum_coe_mul {K : ℕ} (f g : Fin K → ℝ) :
    ∑ k : Fin K, ((f k : ℝ) : EReal) * ((g k : ℝ) : EReal) = ((∑ k : Fin K, f k * g k : ℝ) : EReal) := by
  rw [coe_sum]
  exact Finset.sum_congr rfl fun k _ => (EReal.coe_mul _ _).symm

/-- One edge type's message matrix: `(a · x) n f = Σ_k a n k · x k f`. -/
def msg {N I : ℕ} (a : Fin N → Fin N → ℝ) (x : Fin N → Fin I → ℝ) (n : Fin N) (f : Fin I) : ℝ :=
  ∑ k : Fin N, a n k * x k f

/-! ## The first layer -/

section layer1

variable (h : Fin 8192 → Fin 64 → ℝ) (a a0 a1 a2 : Fin 8192 → Fin 8192 → ℝ) (w w0 w1 w2 : Fin 128 → Fin 64 → ℝ)
  (b : Fin 128 → ℝ)

/-- The message matrix of the first edge type over the input features. -/
theorem msg1_0 : val_main_v0 (F := Ideal) (arr2 h) (arr2 a) = arr2 (msg a h) := by
  funext i
  rw [val_main_v0_apply]
  exact sum_coe_mul (fun k => a (i 0) k) (fun k => h k (i 1))

/-- The second and third edge types' message matrices are the same operation on another adjacency matrix. -/
theorem msg1_1 : val_main_v5 (F := Ideal) (arr2 h) (arr2 a) = arr2 (msg a h) := msg1_0 h a
theorem msg1_2 : val_main_v9 (F := Ideal) (arr2 h) (arr2 a) = arr2 (msg a h) := msg1_0 h a

/-- A first-layer weight matrix transposed. -/
theorem wT1_0 : val_main_v1 (F := Ideal) (arr2 w) = arr2 (fun f o => w o f) := by
  funext i
  rw [val_main_v1_apply]
  rfl
theorem wT1_1 : val_main_v6 (F := Ideal) (arr2 w) = arr2 (fun f o => w o f) := wT1_0 w
theorem wT1_2 : val_main_v10 (F := Ideal) (arr2 w) = arr2 (fun f o => w o f) := wT1_0 w

/-- The first edge type's projection. -/
theorem proj1_0 : val_main_v2 (F := Ideal) (arr2 h) (arr2 a) (arr2 w) = arr2 (proj a h w) := by
  funext i
  rw [val_main_v2_apply, msg1_0, wT1_0]
  exact sum_coe_mul (fun f => msg a h (i 0) f) (fun f => w (i 1) f)

theorem proj1_1 : val_main_v7 (F := Ideal) (arr2 h) (arr2 a) (arr2 w) = arr2 (proj a h w) := by
  funext i
  rw [val_main_v7_apply, msg1_1, wT1_1]
  exact sum_coe_mul (fun f => msg a h (i 0) f) (fun f => w (i 1) f)

theorem proj1_2 : val_main_v11 (F := Ideal) (arr2 h) (arr2 a) (arr2 w) = arr2 (proj a h w) := by
  funext i
  rw [val_main_v11_apply, msg1_2, wT1_2]
  exact sum_coe_mul (fun f => msg a h (i 0) f) (fun f => w (i 1) f)

/-- The total starts from the real zero at every entry. -/
theorem zero1 (i : S8192x128.Idx) : val_main_v3 (F := Ideal) i = (0 : EReal) := by
  rw [val_main_v3_apply, val_main_cst_apply]
  exact Ideal.ofBits_zero_f32

/-- Zero plus the first projection. -/
theorem total1_0 : val_main_v4 (F := Ideal) (arr2 h) (arr2 a) (arr2 w) = arr2 (proj a h w) := by
  funext i
  rw [val_main_v4_apply, zero1, proj1_0]
  exact zero_add _

/-- The first two projections summed. -/
theorem total1_1 : val_main_v8 (F := Ideal) (arr2 h) (arr2 a0) (arr2 a1) (arr2 w0) (arr2 w1)
    = arr2 (fun n o => proj a0 h w0 n o + proj a1 h w1 n o) := by
  funext i
  rw [val_main_v8_apply, total1_0, proj1_1]
  exact (EReal.coe_add _ _).symm

/-- All three projections summed. -/
theorem total1_2 : val_main_v12 (F := Ideal) (arr2 h) (arr2 a0) (arr2 a1) (arr2 a2) (arr2 w0) (arr2 w1) (arr2 w2)
    = arr2 (agg a0 a1 a2 h w0 w1 w2) := by
  funext i
  rw [val_main_v12_apply, total1_1, proj1_2]
  exact (EReal.coe_add _ _).symm

/-- The first bias laid along the rows. -/
theorem bias1 : val_main_v14 (F := Ideal) (arr1 b) = arr2 (fun (_ : Fin 8192) o => b o) := by
  funext i
  rw [val_main_v14_apply, val_main_v13_apply]
  rfl

/-- The first layer before the positive part. -/
theorem pre1 : val_main_v15 (F := Ideal) (arr2 h) (arr2 a0) (arr2 a1) (arr2 a2) (arr2 w0) (arr2 w1) (arr2 w2) (arr1 b)
    = arr2 (fun n o => agg a0 a1 a2 h w0 w1 w2 n o + b o) := by
  funext i
  rw [val_main_v15_apply, total1_2, bias1]
  exact (EReal.coe_add _ _).symm

/-- The positive part compares with the real zero. -/
theorem zeroR (i : S8192x128.Idx) : val_main_call0_v0 (F := Ideal) i = ((0 : ℝ) : EReal) := by
  rw [val_main_call0_v0_apply, val_main_call0_cst_apply]
  exact Ideal.ofBits_zero_f32

/-- The first layer's output. -/
theorem hidden_eq : val_main_v16 (F := Ideal) (arr2 h) (arr2 a0) (arr2 a1) (arr2 a2) (arr2 w0) (arr2 w1) (arr2 w2) (arr1 b)
    = arr2 (hidden a0 a1 a2 h w0 w1 w2 b) := by
  funext i
  rw [val_main_v16_apply, pre1, zeroR]
  exact (EReal.coe_strictMono.monotone.map_max).symm

end layer1

/-! ## The second layer, over the first layer's output -/

section layer2

variable (h : Fin 8192 → Fin 64 → ℝ) (a0 a1 a2 : Fin 8192 → Fin 8192 → ℝ) (w0 w1 w2 : Fin 128 → Fin 64 → ℝ)
  (b : Fin 128 → ℝ) (v v0 v1 v2 : Fin 128 → Fin 128 → ℝ) (b' : Fin 128 → ℝ)

/-- The three message matrices over the first layer's output. -/
theorem msg2_0 : val_main_v17 (F := Ideal) (arr2 h) (arr2 a0) (arr2 a1) (arr2 a2) (arr2 w0) (arr2 w1) (arr2 w2) (arr1 b)
    = arr2 (msg a0 (hidden a0 a1 a2 h w0 w1 w2 b)) := by
  funext i
  rw [val_main_v17_apply, hidden_eq]
  exact sum_coe_mul (fun k => a0 (i 0) k) (fun k => hidden a0 a1 a2 h w0 w1 w2 b k (i 1))

theorem msg2_1 : val_main_v22 (F := Ideal) (arr2 h) (arr2 a0) (arr2 a1) (arr2 a2) (arr2 w0) (arr2 w1) (arr2 w2) (arr1 b)
    = arr2 (msg a1 (hidden a0 a1 a2 h w0 w1 w2 b)) := by
  funext i
  rw [val_main_v22_apply, hidden_eq]
  exact sum_coe_mul (fun k => a1 (i 0) k) (fun k => hidden a0 a1 a2 h w0 w1 w2 b k (i 1))

theorem msg2_2 : val_main_v26 (F := Ideal) (arr2 h) (arr2 a0) (arr2 a1) (arr2 a2) (arr2 w0) (arr2 w1) (arr2 w2) (arr1 b)
    = arr2 (msg a2 (hidden a0 a1 a2 h w0 w1 w2 b)) := by
  funext i
  rw [val_main_v26_apply, hidden_eq]
  exact sum_coe_mul (fun k => a2 (i 0) k) (fun k => hidden a0 a1 a2 h w0 w1 w2 b k (i 1))

/-- A second-layer weight matrix transposed. -/
theorem wT2_0 : val_main_v18 (F := Ideal) (arr2 v) = arr2 (fun f o => v o f) := by
  funext i
  rw [val_main_v18_apply]
  rfl
theorem wT2_1 : val_main_v23 (F := Ideal) (arr2 v) = arr2 (fun f o => v o f) := wT2_0 v
theorem wT2_2 : val_main_v27 (F := Ideal) (arr2 v) = arr2 (fun f o => v o f) := wT2_0 v

/-- The three projections. -/
theorem proj2_0 : val_main_v19 (F := Ideal) (arr2 h) (arr2 a0) (arr2 a1) (arr2 a2) (arr2 w0) (arr2 w1) (arr2 w2) (arr2 v)
      (arr1 b) = arr2 (proj a0 (hidden a0 a1 a2 h w0 w1 w2 b) v) := by
  funext i
  rw [val_main_v19_apply, msg2_0, wT2_0]
  exact sum_coe_mul (fun f => msg a0 (hidden a0 a1 a2 h w0 w1 w2 b) (i 0) f) (fun f => v (i 1) f)

theorem proj2_1 : val_main_v24 (F := Ideal) (arr2 h) (arr2 a0) (arr2 a1) (arr2 a2) (arr2 w0) (arr2 w1) (arr2 w2) (arr2 v)
      (arr1 b) = arr2 (proj a1 (hidden a0 a1 a2 h w0 w1 w2 b) v) := by
  funext i
  rw [val_main_v24_apply, msg2_1, wT2_1]
  exact sum_coe_mul (fun f => msg a1 (hidden a0 a1 a2 h w0 w1 w2 b) (i 0) f) (fun f => v (i 1) f)

theorem proj2_2 : val_main_v28 (F := Ideal) (arr2 h) (arr2 a0) (arr2 a1) (arr2 a2) (arr2 w0) (arr2 w1) (arr2 w2) (arr2 v)
      (arr1 b) = arr2 (proj a2 (hidden a0 a1 a2 h w0 w1 w2 b) v) := by
  funext i
  rw [val_main_v28_apply, msg2_2, wT2_2]
  exact sum_coe_mul (fun f => msg a2 (hidden a0 a1 a2 h w0 w1 w2 b) (i 0) f) (fun f => v (i 1) f)

/-- The second total starts from the real zero too. -/
theorem zero2 (i : S8192x128.Idx) : val_main_v20 (F := Ideal) i = (0 : EReal) := by
  rw [val_main_v20_apply, val_main_cst_0_apply]
  exact Ideal.ofBits_zero_f32

/-- Zero plus the first projection; the first two; all three. -/
theorem total2_0 : val_main_v21 (F := Ideal) (arr2 h) (arr2 a0) (arr2 a1) (arr2 a2) (arr2 w0) (arr2 w1) (arr2 w2) (arr2 v)
      (arr1 b) = arr2 (proj a0 (hidden a0 a1 a2 h w0 w1 w2 b) v) := by
  funext i
  rw [val_main_v21_apply, zero2, proj2_0]
  exact zero_add _

theorem total2_1 : val_main_v25 (F := Ideal) (arr2 h) (arr2 a0) (arr2 a1) (arr2 a2) (arr2 w0) (arr2 w1) (arr2 w2)
      (arr2 v0) (arr2 v1) (arr1 b)
    = arr2 (fun n e => proj a0 (hidden a0 a1 a2 h w0 w1 w2 b) v0 n e + proj a1 (hidden a0 a1 a2 h w0 w1 w2 b) v1 n e) := by
  funext i
  rw [val_main_v25_apply, total2_0, proj2_1]
  exact (EReal.coe_add _ _).symm

theorem total2_2 : val_main_v29 (F := Ideal) (arr2 h) (arr2 a0) (arr2 a1) (arr2 a2) (arr2 w0) (arr2 w1) (arr2 w2)
      (arr2 v0) (arr2 v1) (arr2 v2) (arr1 b)
    = arr2 (agg a0 a1 a2 (hidden a0 a1 a2 h w0 w1 w2 b) v0 v1 v2) := by
  funext i
  rw [val_main_v29_apply, total2_1, proj2_2]
  exact (EReal.coe_add _ _).symm

/-- The second bias laid along the rows. -/
theorem bias2 : val_main_v31 (F := Ideal) (arr1 b') = arr2 (fun (_ : Fin 8192) e => b' e) := by
  funext i
  rw [val_main_v31_apply, val_main_v30_apply]
  rfl

end layer2

/-! ## The two results -/

/-- The reference's first result is the second layer's embedding. -/
theorem ref_emb (h : Fin 8192 → Fin 64 → ℝ) (a0 a1 a2 : Fin 8192 → Fin 8192 → ℝ)
    (w0 w1 w2 : Fin 128 → Fin 64 → ℝ) (v0 v1 v2 : Fin 128 → Fin 128 → ℝ) (b b' : Fin 128 → ℝ) :
    val_main_v32 (F := Ideal) (arr2 h) (arr2 a0) (arr2 a1) (arr2 a2) (arr2 w0) (arr2 w1) (arr2 w2)
      (arr2 v0) (arr2 v1) (arr2 v2) (arr1 b) (arr1 b')
      = arr2 (Spec.emb a0 a1 a2 h w0 w1 w2 b v0 v1 v2 b') := by
  funext i
  rw [val_main_v32_apply, total2_2, bias2]
  exact (EReal.coe_add _ _).symm

/-- The embedding transposed. -/
theorem embT (h : Fin 8192 → Fin 64 → ℝ) (a0 a1 a2 : Fin 8192 → Fin 8192 → ℝ)
    (w0 w1 w2 : Fin 128 → Fin 64 → ℝ) (v0 v1 v2 : Fin 128 → Fin 128 → ℝ) (b b' : Fin 128 → ℝ) :
    val_main_v33 (F := Ideal) (arr2 h) (arr2 a0) (arr2 a1) (arr2 a2) (arr2 w0) (arr2 w1) (arr2 w2)
      (arr2 v0) (arr2 v1) (arr2 v2) (arr1 b) (arr1 b')
      = arr2 (fun e n => Spec.emb a0 a1 a2 h w0 w1 w2 b v0 v1 v2 b' n e) := by
  funext i
  rw [val_main_v33_apply, ref_emb]
  rfl

/-- The reference's second result is the Gram matrix of the embedding's rows. -/
theorem ref_logits (h : Fin 8192 → Fin 64 → ℝ) (a0 a1 a2 : Fin 8192 → Fin 8192 → ℝ)
    (w0 w1 w2 : Fin 128 → Fin 64 → ℝ) (v0 v1 v2 : Fin 128 → Fin 128 → ℝ) (b b' : Fin 128 → ℝ) :
    val_main_v34 (F := Ideal) (arr2 h) (arr2 a0) (arr2 a1) (arr2 a2) (arr2 w0) (arr2 w1) (arr2 w2)
      (arr2 v0) (arr2 v1) (arr2 v2) (arr1 b) (arr1 b')
      = arr2 (Spec.gram (Spec.emb a0 a1 a2 h w0 w1 w2 b v0 v1 v2 b')) := by
  funext i
  rw [val_main_v34_apply, ref_emb, embT]
  exact sum_coe_mul (fun e => Spec.emb a0 a1 a2 h w0 w1 w2 b v0 v1 v2 b' (i 0) e)
    (fun e => Spec.emb a0 a1 a2 h w0 w1 w2 b v0 v1 v2 b' (i 1) e)

end Cert.RefValue

end
-- ==== Proof.Val.Finite.lean ====
/-
  From the finiteness predicate to real entries.

  The predicate takes, for each of the twelve arrays, the absolute value of every entry, compares it (strictly
  below) with +∞, and conjoins all the comparisons. If the predicate is 1 then no entry of any array is +∞ or −∞
  (an entry ⊥ has absolute value ⊤), so every array is a real matrix or vector.
-/
import proofs.«157318_j36885179138300_1_alg».proof.Defs
import proofs.«157318_j36885179138300_1_alg».proof.Proof.Gen.Pre_finite_inputs
import proofs.«157318_j36885179138300_1_alg».proof.Proof.Spec
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

/-- The rank-0 shape has exactly one index. -/
instance : Subsingleton S_.Idx := ⟨fun a b => funext fun d => d.elim0⟩

/-- The f32 pattern `0x7F800000` denotes +∞. -/
theorem inf_word : Ideal.ofBits .f32 0x7F800000#32 = (⊤ : EReal) := by
  simp [Ideal.ofBits, Ideal.ieee]

/-- An extended real whose absolute value `max x (-x)` is strictly below ⊤ is neither ⊤ nor ⊥. -/
theorem ne_top_bot_of_abs_lt (x : EReal) (h : max x (-x) < ⊤) : x ≠ ⊤ ∧ x ≠ ⊥ := by
  refine ⟨fun e => ?_, fun e => ?_⟩
  · subst e; simp at h
  · subst e; simp at h

/-- One array's part of the predicate: if the conjunction over ALL entries of `|x i| < +∞` is 1, then no entry
    of `x` is ⊤ or ⊥. Generic in the shape `s`, the reduced axes and the fold's initial word. -/
theorem finite_of_all {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
          (cmpf .olt (Host.absf x) (broadcastInDim s ![] hb (constant (F := Ideal) S_ .f32 0x7F800000#32))) init hr h0 j = 1#1) :
    ∀ i, x i ≠ ⊤ ∧ x i ≠ ⊥ := by
  intro i
  have hi := Host.reduce_andi_all _ init hr h0 j e i
  have hi' : Ideal.cmp .olt (max (x i) (-(x i))) (Ideal.ofBits .f32 0x7F800000#32) = 1#1 := hi
  rw [inf_word] at hi'
  refine ne_top_bot_of_abs_lt (x i) ?_
  by_contra hn
  simp [Ideal.cmp, hn] at hi'

/-- A conjunction of two one-bit arrays read at an index is 1 exactly when both are. -/
theorem andi_apply_eq_one {s : Shape} (a b : IVec s 1) (i : s.Idx) : andi a b i = 1#1 ↔ a i = 1#1 ∧ b i = 1#1 :=
  IntOp.andi_eq_one

variable [Cert.Pre_finite_inputs.Facts]
variable (x0 : FVec Ideal S8192x64 .f32) (x1 x2 x3 : FVec Ideal S8192x8192 .f32) (x4 x5 x6 : FVec Ideal S128x64 .f32)
  (x7 x8 x9 : FVec Ideal S128x128 .f32) (x10 x11 : FVec Ideal S128 .f32)

/-- If the predicate holds, none of the twelve arrays has an infinite entry. -/
theorem finite_of_pre (h : Cert.Pre_finite_inputs.fn (F := Ideal) x0 x1 x2 x3 x4 x5 x6 x7 x8 x9 x10 x11 = (fun _ => 1#1)) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥) ∧
    (∀ i, x4 i ≠ ⊤ ∧ x4 i ≠ ⊥) ∧ (∀ i, x5 i ≠ ⊤ ∧ x5 i ≠ ⊥) ∧ (∀ i, x6 i ≠ ⊤ ∧ x6 i ≠ ⊥) ∧ (∀ i, x7 i ≠ ⊤ ∧ x7 i ≠ ⊥) ∧
    (∀ i, x8 i ≠ ⊤ ∧ x8 i ≠ ⊥) ∧ (∀ i, x9 i ≠ ⊤ ∧ x9 i ≠ ⊥) ∧ (∀ i, x10 i ≠ ⊤ ∧ x10 i ≠ ⊥) ∧ (∀ i, x11 i ≠ ⊤ ∧ x11 i ≠ ⊥) := by
  -- the predicate's one entry, as the left-nested conjunction of the twelve reductions
  have hz := congrFun h ix0
  dsimp only [fn, fn_part1, fn_part2, fn_part3] at hz
  -- peel the conjunction from the outside: the last array's reduction comes off first
  obtain ⟨hz, h11⟩ := (andi_apply_eq_one _ _ _).1 hz
  obtain ⟨hz, h10⟩ := (andi_apply_eq_one _ _ _).1 hz
  obtain ⟨hz, h9⟩ := (andi_apply_eq_one _ _ _).1 hz
  obtain ⟨hz, h8⟩ := (andi_apply_eq_one _ _ _).1 hz
  obtain ⟨hz, h7⟩ := (andi_apply_eq_one _ _ _).1 hz
  obtain ⟨hz, h6⟩ := (andi_apply_eq_one _ _ _).1 hz
  obtain ⟨hz, h5⟩ := (andi_apply_eq_one _ _ _).1 hz
  obtain ⟨hz, h4⟩ := (andi_apply_eq_one _ _ _).1 hz
  obtain ⟨hz, h3⟩ := (andi_apply_eq_one _ _ _).1 hz
  obtain ⟨hz, h2⟩ := (andi_apply_eq_one _ _ _).1 hz
  obtain ⟨h0, h1⟩ := (andi_apply_eq_one _ _ _).1 hz
  exact ⟨finite_of_all x0 _ _ _ _ _ h0, finite_of_all x1 _ _ _ _ _ h1, finite_of_all x2 _ _ _ _ _ h2,
    finite_of_all x3 _ _ _ _ _ h3, finite_of_all x4 _ _ _ _ _ h4, finite_of_all x5 _ _ _ _ _ h5,
    finite_of_all x6 _ _ _ _ _ h6, finite_of_all x7 _ _ _ _ _ h7, finite_of_all x8 _ _ _ _ _ h8,
    finite_of_all x9 _ _ _ _ _ h9, finite_of_all x10 _ _ _ _ _ h10, finite_of_all x11 _ _ _ _ _ h11⟩

/-- If the predicate holds, the twelve arrays are real matrices and vectors. -/
theorem exists_real_of_pre (h : Cert.Pre_finite_inputs.fn (F := Ideal) x0 x1 x2 x3 x4 x5 x6 x7 x8 x9 x10 x11 = (fun _ => 1#1)) :
    ∃ (g0 : Fin 8192 → Fin 64 → ℝ) (g1 g2 g3 : Fin 8192 → Fin 8192 → ℝ) (g4 g5 g6 : Fin 128 → Fin 64 → ℝ)
      (g7 g8 g9 : Fin 128 → Fin 128 → ℝ) (g10 g11 : Fin 128 → ℝ),
      x0 = Cert.Spec.arr2 g0 ∧ x1 = Cert.Spec.arr2 g1 ∧ x2 = Cert.Spec.arr2 g2 ∧ x3 = Cert.Spec.arr2 g3 ∧
      x4 = Cert.Spec.arr2 g4 ∧ x5 = Cert.Spec.arr2 g5 ∧ x6 = Cert.Spec.arr2 g6 ∧
      x7 = Cert.Spec.arr2 g7 ∧ x8 = Cert.Spec.arr2 g8 ∧ x9 = Cert.Spec.arr2 g9 ∧
      x10 = Cert.Spec.arr1 g10 ∧ x11 = Cert.Spec.arr1 g11 := by
  obtain ⟨h0, h1, h2, h3, h4, h5, h6, h7, h8, h9, h10, h11⟩ := finite_of_pre x0 x1 x2 x3 x4 x5 x6 x7 x8 x9 x10 x11 h
  obtain ⟨g0, e0⟩ := Cert.Spec.exists_arr2 x0 h0
  obtain ⟨g1, e1⟩ := Cert.Spec.exists_arr2 x1 h1
  obtain ⟨g2, e2⟩ := Cert.Spec.exists_arr2 x2 h2
  obtain ⟨g3, e3⟩ := Cert.Spec.exists_arr2 x3 h3
  obtain ⟨g4, e4⟩ := Cert.Spec.exists_arr2 x4 h4
  obtain ⟨g5, e5⟩ := Cert.Spec.exists_arr2 x5 h5
  obtain ⟨g6, e6⟩ := Cert.Spec.exists_arr2 x6 h6
  obtain ⟨g7, e7⟩ := Cert.Spec.exists_arr2 x7 h7
  obtain ⟨g8, e8⟩ := Cert.Spec.exists_arr2 x8 h8
  obtain ⟨g9, e9⟩ := Cert.Spec.exists_arr2 x9 h9
  obtain ⟨g10, e10⟩ := Cert.Spec.exists_arr1 x10 h10
  obtain ⟨g11, e11⟩ := Cert.Spec.exists_arr1 x11 h11
  exact ⟨g0, g1, g2, g3, g4, g5, g6, g7, g8, g9, g10, g11, e0, e1, e2, e3, e4, e5, e6, e7, e8, e9, e10, e11⟩

end Cert.Finite

end
-- ==== Proof.Val.Blocks0.lean ====
/-
  Layer 1's output array from its row blocks. The layer runs over 16 × 8 points; the point t = 8·i + j works on row
  block i (512 × 128) of the output and writes it back at j = 7. The 16 blocks written back tile the 8192 × 128 array,
  so a function G that every written block agrees with, row for row, is what the array ends holding.
-/
import proofs.«157318_j36885179138300_1_alg».proof.Proof.KI.Layer0
import Idealize.ShloMosaic.Lib.ValueIdx
import Idealize.ShloMosaic.Lib.Pipeline.Value

noncomputable section

namespace Cert.KernelIdeal.B0

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-! ## The grid: point t = 8·i + j has row block i = t / 8 and column block j = t % 8 -/

theorem lt128 (t : Fin cfg0.N) : t.val < 128 := by
  have h := t.isLt
  have e : cfg0.N = 128 := N_0
  omega

/-- The output window's block index over the 128 points: row block t / 8, column block 0. -/
theorem idxO : ∀ t : Fin cfg0.N, win0_8.index t (0 : Fin 2) = t.val / 8 ∧ win0_8.index t (1 : Fin 2) = 0 :=
  (by decide +kernel : ∀ t : Fin grid0.N, _)

/-! ## The output array from its row blocks -/

/-- An index of the output array is in point t's block iff each coordinate is in the block's range on its axis. -/
theorem mem_blk (t : Fin cfg0.N) (i : S8192x128.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v1).slice (win0_8.rect t)).set ↔ _
  rw [View.set_slice_whole, Rect.mem_set_unit]
  exact Iff.rfl

/-- Row r of the output lies in the block written back at the last column block of its row of blocks, the point
    8·(r / 512) + 7. -/
theorem cover (i : S8192x128.Idx) : ∃ t : Fin cfg0.N, (cfg0.win 8).flush t = true ∧ i ∈ ((cfg0.win 8).blk t).view.set := by
  have h0 : (i 0).val < 8192 := (i 0).isLt
  have h1 : (i 1).val < 128 := (i 1).isLt
  obtain ⟨t, ht⟩ : ∃ t : Fin cfg0.N, t.val = 8 * ((i 0).val / 512) + 7 :=
    ⟨⟨8 * ((i 0).val / 512) + 7, by rw [show cfg0.N = 128 from N_0]; omega⟩, rfl⟩
  refine ⟨t, (flush0_8 t).mpr (by rw [ht]; omega), ?_⟩
  rw [mem_blk]
  obtain ⟨e0, e1⟩ := idxO t
  intro a
  match a with
  | ⟨0, _⟩ => show win0_8.index t 0 * 512 ≤ (i 0).val ∧ (i 0).val < win0_8.index t 0 * 512 + 512; rw [e0, ht]; omega
  | ⟨1, _⟩ => show win0_8.index t 1 * 128 ≤ (i 1).val ∧ (i 1).val < win0_8.index t 1 * 128 + 128; rw [e1]; omega

variable (V : (c : Dev nD) → (b : Ref sig .tc) → Buf (Elt F) ((c : Thread nD τ).loc b))

/-- If at every point that writes back (t % 8 = 7) the output block holds rows 512·(t / 8) … of G, the output array ends
    holding G. -/
theorem arrAt8_of_rows (c : Dev nD) (G : S8192x128.Idx → Elt F .f32)
    (hG : ∀ t : Fin cfg0.N, t.val % 8 = 7 → ∀ (p : Fin 512) (q : Fin 128),
      L0.outAt V c t.val t.isLt (ix2 p q) = G (ix2 (⟨512 * (t.val / 8) + p.val, by have := lt128 t; omega⟩ : Fin 8192) q)) :
    (L0.dat V c).arrAt 8 cfg0.N = G := by
  refine (L0.dat V c).arrAt_eq_of_cover 8 G (fun t hf => ?_) cover
  show (cfg0.win 8).cut (grid0.coords t) ((L0.dat V c).after 8 t) = _
  rw [L0.after_8]
  obtain ⟨e0, e1⟩ := idxO t
  have ht := lt128 t
  funext j
  obtain ⟨p, q, rfl⟩ : ∃ (p : Fin 512) (q : Fin 128), j = ix2 p q := ⟨j 0, j 1, eq_ix2 j⟩
  rw [View.read_apply]
  show L0.outAt V c t.val t.isLt (ix2 p q) = G (((cfg0.win 8).blk t).view.emb (ix2 p q))
  rw [hG t ((flush0_8 t).mp hf) p q]
  congr 1
  funext a
  apply Fin.ext
  match a with
  | ⟨0, _⟩ => show 512 * (t.val / 8) + p.val = win0_8.index t 0 * 512 + 1 * p.val; rw [e0]; omega
  | ⟨1, _⟩ => show q.val = win0_8.index t 1 * 128 + 1 * q.val; rw [e1]; omega

end Cert.KernelIdeal.B0

end
-- ==== Proof.Val.Cols.lean ====
/-
  Real matrices cut into blocks, for a graph-convolution layer computed over a grid of 16 row blocks by 8 column
  blocks.

  Row block i holds the rows 512 i .. 512 i + 511 and column block j the columns 1024 j .. 1024 j + 1023 of an
  8192 × 8192 matrix. At the point (i, j) a layer's accumulator block gains, for each of the three edge types r,
      Σ_f (Σ_k A_r[i,j] p k · X[j] k f) · w_r q f,
  with A_r[i,j] the block of a_r and X[j] the rows 1024 j .. of x. Since k ↦ (k / 1024, k % 1024) splits the 8192
  columns into the eight blocks, the eight gains of a row block add up to Σ_r Σ_f (Σ_k a_r n k · x k f) · w_r q f
  over all 8192 columns. All of this is generic in the feature width.

  Also here: a matrix product that contracts the last axis of both operands, read at an entry.
-/
import proofs.«157318_j36885179138300_1_alg».proof.Proof.Spec
import Idealize.ShloMosaic.Lib.ValueIdx
import Idealize.ShloMosaic.PureOps.Ideal.Laws

noncomputable section

open scoped BigOperators

namespace Cert.Cols

open Idealize.ShloMosaic Idealize.ShloMosaic.ValueIdx Cert.Spec

/-! ## A product over the last axis of both operands -/

/-- A product of an M×K by an N×K matrix over the LAST axis of both, accumulated into zeros, at entry (p, j): the
    contracted axis is re-indexed by its one coordinate, the left operand read at row p, the right at row j. -/
theorem matmul_last_apply {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision)
    (l : FVec Ideal ⟨2, ![M, K]⟩ .f32) (r : FVec Ideal ⟨2, ![N, K]⟩ .f32) (p : Fin M) (j : Fin N) :
    FloatOps.matmul D prec l r (constant (F := Ideal) ⟨2, ![M, N]⟩ .f32 0x00000000#32) (ix2 p j)
      = ∑ k : Fin K, l (ix2 p k) * r (ix2 j k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-! ## Row blocks and column blocks -/

/-- Row p of row block i. -/
def rowOf (i : Fin 16) (p : Fin 512) : Fin 8192 := ⟨512 * i.val + p.val, by have := i.isLt; have := p.isLt; omega⟩

/-- Column k of column block j. -/
def colOf (j : Fin 8) (k : Fin 1024) : Fin 8192 := ⟨1024 * j.val + k.val, by have := j.isLt; have := k.isLt; omega⟩

/-- The block of a at row block i, column block j. -/
def ablk (a : Fin 8192 → Fin 8192 → ℝ) (i : Fin 16) (j : Fin 8) : Fin 512 → Fin 1024 → ℝ := fun p k => a (rowOf i p) (colOf j k)

/-- The rows of x that column block j meets. -/
def xblk {I : ℕ} (x : Fin 8192 → Fin I → ℝ) (j : Fin 8) : Fin 1024 → Fin I → ℝ := fun k f => x (colOf j k) f

/-- A sum over the 8192 columns, taken one column block at a time. -/
theorem sum_cols (g : Fin 8192 → ℝ) : ∑ k : Fin 8192, g k = ∑ j : Fin 8, ∑ k : Fin 1024, g (colOf j k) := by
  refine (sum_blocks 8 1024 g).trans (Finset.sum_congr rfl fun j _ => Finset.sum_congr rfl fun k _ => congrArg g (Fin.ext ?_))
  show k.val + 1024 * j.val = 1024 * j.val + k.val
  omega

/-- One edge type's term, one column block at a time. -/
theorem proj_cols {I O : ℕ} (a : Fin 8192 → Fin 8192 → ℝ) (x : Fin 8192 → Fin I → ℝ) (w : Fin O → Fin I → ℝ) (n : Fin 8192) (o : Fin O) :
    proj a x w n o = ∑ j : Fin 8, ∑ f : Fin I, (∑ k : Fin 1024, a n (colOf j k) * x (colOf j k) f) * w o f := by
  unfold proj
  have hk : ∀ f : Fin I, ∑ k : Fin 8192, a n k * x k f = ∑ j : Fin 8, ∑ k : Fin 1024, a n (colOf j k) * x (colOf j k) f :=
    fun f => sum_cols fun k => a n k * x k f
  simp only [hk, Finset.sum_mul]
  exact Finset.sum_comm

/-! ## The gains of the points of a row block -/

/-- What a point adds to the accumulator, over real blocks: the three edge types' gains. -/
def gain {I : ℕ} (x : Fin 1024 → Fin I → ℝ) (a0 a1 a2 : Fin 512 → Fin 1024 → ℝ) (w0 w1 w2 : Fin 128 → Fin I → ℝ)
    (p : Fin 512) (q : Fin 128) : ℝ :=
  (∑ f : Fin I, (∑ k : Fin 1024, a0 p k * x k f) * w0 q f) + (∑ f : Fin I, (∑ k : Fin 1024, a1 p k * x k f) * w1 q f)
    + (∑ f : Fin I, (∑ k : Fin 1024, a2 p k * x k f) * w2 q f)

section Reals

variable {I : ℕ} (a0 a1 a2 : Fin 8192 → Fin 8192 → ℝ) (x : Fin 8192 → Fin I → ℝ) (w0 w1 w2 : Fin 128 → Fin I → ℝ)

/-- What the point (i, j) adds to the accumulator. -/
def gainAt (i : Fin 16) (j : Fin 8) : Fin 512 → Fin 128 → ℝ :=
  gain (xblk x j) (ablk a0 i j) (ablk a1 i j) (ablk a2 i j) w0 w1 w2

/-- The same with the column block a natural number (zero past the grid). -/
def gainN (i : Fin 16) (j : ℕ) (p : Fin 512) (q : Fin 128) : ℝ :=
  if h : j < 8 then gainAt a0 a1 a2 x w0 w1 w2 i ⟨j, h⟩ p q else 0

theorem gainN_of_lt (i : Fin 16) (j : ℕ) (h : j < 8) (p : Fin 512) (q : Fin 128) :
    gainN a0 a1 a2 x w0 w1 w2 i j p q = gainAt a0 a1 a2 x w0 w1 w2 i ⟨j, h⟩ p q := dif_pos h

/-- The accumulator after the column blocks 0..j of row block i. -/
def partialSum (i : Fin 16) (j : ℕ) : Fin 512 → Fin 128 → ℝ := fun p q => ∑ jj ∈ Finset.range (j + 1), gainN a0 a1 a2 x w0 w1 w2 i jj p q

/-- All eight column blocks give the three edge types' whole sums. -/
theorem partialSum_last (i : Fin 16) (p : Fin 512) (q : Fin 128) :
    partialSum a0 a1 a2 x w0 w1 w2 i 7 p q = agg a0 a1 a2 x w0 w1 w2 (rowOf i p) q := by
  unfold agg
  rw [proj_cols, proj_cols, proj_cols, ← Finset.sum_add_distrib, ← Finset.sum_add_distrib]
  show ∑ jj ∈ Finset.range 8, gainN a0 a1 a2 x w0 w1 w2 i jj p q = _
  rw [← Fin.sum_univ_eq_sum_range (fun jj => gainN a0 a1 a2 x w0 w1 w2 i jj p q) 8]
  refine Finset.sum_congr rfl fun j _ => ?_
  unfold gainN
  rw [dif_pos j.isLt]
  rfl

end Reals

end Cert.Cols

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Val.Acc0.lean ====
/-
  At the extended reals, what one graph-convolution region of the program (a layer over a grid of 16 row blocks by 8
  column blocks) leaves in its output array, for real input arrays.

  One edge type's gain at a point is s + (A · X) · Wᵀ read at an entry: the first product is rows by columns, the
  second contracts the last axis of both operands, and narrowing to the half-width format is the identity on the
  extended reals. The blocks a point reads are the blocks of the real arrays at the point's row block t / 8 and column
  block t % 8. By induction over the points of a row block the accumulator holds the running sum of the gains, which
  after the last column block is the whole sum over the 8192 columns; the last point's output block is the last-point
  function of that sum and the bias, and the 16 row blocks tile the output array.

  The last-point function post and the two facts about the layer's ends (the narrowed feature block is the same real
  matrix; the last point's output is post of the accumulator and the bias row, entry by entry) are hypotheses here.
-/
import proofs.«157318_j36885179138300_1_alg».proof.Proof.KI.Layer0
import proofs.«157318_j36885179138300_1_alg».proof.Proof.Val.Blocks0
import proofs.«157318_j36885179138300_1_alg».proof.Proof.Val.Cols
import proofs.«157318_j36885179138300_1_alg».proof.Proof.Spec
import proofs.«157318_j36885179138300_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.V0

open Idealize.ShloMosaic Idealize.ShloMosaic.TcCoe Idealize.ShloMosaic.ValueIdx Cert.KernelIdeal Cert.KernelIdeal.Gen Cert.KernelIdeal.Hand Cert.Spec Cert.Cols

/-! ## The two matrix products of a point, read at an entry -/

theorem lhs_agg_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_agg_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_agg_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_agg_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

theorem lhs_prj_0 (i : S512x128.Idx) (q : dot_S512x64_S128x64_S512x128_1_1_0_0_n_n.contr.Idx) :
    (dot_S512x64_S128x64_S512x128_1_1_0_0_n_n.lhsIdx i q 0).val = (i 0).val := by
  unfold DotDims.lhsIdx
  rw [dif_neg (show ¬(0 : Fin S512x64.rank) ∈ dot_S512x64_S128x64_S512x128_1_1_0_0_n_n.lhsBatch by decide), dif_pos (show (0 : Fin S512x64.rank) ∈ dot_S512x64_S128x64_S512x128_1_1_0_0_n_n.lhsNonContracting by decide)]
  rfl
theorem lhs_prj_1 (i : S512x128.Idx) (q : dot_S512x64_S128x64_S512x128_1_1_0_0_n_n.contr.Idx) :
    (dot_S512x64_S128x64_S512x128_1_1_0_0_n_n.lhsIdx i q 1).val = (q ⟨0, by decide⟩).val :=
  dot_S512x64_S128x64_S512x128_1_1_0_0_n_n.lhsIdx_val_of_single rfl i q
theorem rhs_prj_0 (i : S512x128.Idx) (q : dot_S512x64_S128x64_S512x128_1_1_0_0_n_n.contr.Idx) :
    (dot_S512x64_S128x64_S512x128_1_1_0_0_n_n.rhsIdx i q 0).val = (i 1).val := by
  unfold DotDims.rhsIdx
  rw [dif_neg (show ¬(0 : Fin S128x64.rank) ∈ dot_S512x64_S128x64_S512x128_1_1_0_0_n_n.rhsBatch by decide), dif_pos (show (0 : Fin S128x64.rank) ∈ dot_S512x64_S128x64_S512x128_1_1_0_0_n_n.rhsNonContracting by decide)]
  rfl
theorem rhs_prj_1 (i : S512x128.Idx) (q : dot_S512x64_S128x64_S512x128_1_1_0_0_n_n.contr.Idx) :
    (dot_S512x64_S128x64_S512x128_1_1_0_0_n_n.rhsIdx i q 1).val = (q ⟨0, by decide⟩).val :=
  dot_S512x64_S128x64_S512x128_1_1_0_0_n_n.rhsIdx_val_of_single rfl i q

/-- One edge type's gain at an entry: s + (a · x) · wᵀ (the narrowing to the half-width format is the identity on
    the extended reals). -/
theorem edge_apply (xb : FVec Ideal S1024x64 .bf16) (a : Vec Ideal S512x1024 .f32) (w : Vec Ideal S128x64 .f32)
    (s : Vec Ideal S512x128 .f32) (p : Fin 512) (q : Fin 128) :
    k0_pay1 (F := Ideal) xb a w s (ix2 p q)
      = s (ix2 p q) + ∑ f : Fin 64, (∑ k : Fin 1024, a (ix2 p k) * xb (ix2 k f)) * w (ix2 q f) := by
  unfold k0_pay1
  refine (congrFun (shapeCast_self _ _) (ix2 p q)).trans ?_
  refine congrArg (s (ix2 p q) + ·) ?_
  refine (matmul_last_apply dot_S512x64_S128x64_S512x128_1_1_0_0_n_n rfl rfl lhs_prj_0 lhs_prj_1 rhs_prj_0 rhs_prj_1 none _ _ p q).trans ?_
  refine Finset.sum_congr rfl fun f _ => ?_
  exact congrArg (· * w (ix2 q f))
    (LibPlainDot.matmul_plain_apply dot_S512x1024_S1024x64_S512x64_1_0_0_1_n_n rfl rfl lhs_agg_0 lhs_agg_1 rhs_agg_0 rhs_agg_1 none _ _ p f)

/-- The same over real matrices. -/
theorem edge_arr2 (hpay4 : ∀ x : Fin 1024 → Fin 64 → ℝ, (k0_pay4 (F := Ideal) (arr2 x) : FVec Ideal S1024x64 .bf16) = arr2 x)
    (x : Fin 1024 → Fin 64 → ℝ) (a : Fin 512 → Fin 1024 → ℝ) (w : Fin 128 → Fin 64 → ℝ) (s : Fin 512 → Fin 128 → ℝ) :
    k0_pay1 (F := Ideal) (k0_pay4 (arr2 x)) (arr2 a) (arr2 w) (arr2 s)
      = arr2 (fun p q => s p q + ∑ f : Fin 64, (∑ k : Fin 1024, a p k * x k f) * w q f) := by
  rw [hpay4]
  funext j
  obtain ⟨p, q, rfl⟩ : ∃ (p : Fin 512) (q : Fin 128), j = ix2 p q := ⟨j 0, j 1, eq_ix2 j⟩
  refine (edge_apply _ _ _ _ p q).trans ?_
  show ((s p q : ℝ) : EReal) + ∑ f : Fin 64, (∑ k : Fin 1024, ((a p k : ℝ) : EReal) * ((x k f : ℝ) : EReal)) * ((w q f : ℝ) : EReal)
    = ((s p q + ∑ f : Fin 64, (∑ k : Fin 1024, a p k * x k f) * w q f : ℝ) : EReal)
  simp only [EReal.coe_add, EReal.coe_mul, coe_sum]

/-- One point's update of the accumulator over real blocks. -/
theorem step0_arr2 (hpay4 : ∀ x : Fin 1024 → Fin 64 → ℝ, (k0_pay4 (F := Ideal) (arr2 x) : FVec Ideal S1024x64 .bf16) = arr2 x)
    (x : Fin 1024 → Fin 64 → ℝ) (a0 a1 a2 : Fin 512 → Fin 1024 → ℝ) (w0 w1 w2 : Fin 128 → Fin 64 → ℝ) (s : Fin 512 → Fin 128 → ℝ) :
    step0 (F := Ideal) (arr2 x) (arr2 a0) (arr2 a1) (arr2 a2) (arr2 w0) (arr2 w1) (arr2 w2) (arr2 s)
      = arr2 (fun p q => s p q + gain x a0 a1 a2 w0 w1 w2 p q) := by
  show k0_pay1 (F := Ideal) (k0_pay4 (arr2 x)) (arr2 a2) (arr2 w2)
    (k0_pay1 (F := Ideal) (k0_pay4 (arr2 x)) (arr2 a1) (arr2 w1) (k0_pay1 (F := Ideal) (k0_pay4 (arr2 x)) (arr2 a0) (arr2 w0) (arr2 s))) = _
  rw [edge_arr2 hpay4, edge_arr2 hpay4, edge_arr2 hpay4]
  refine congrArg arr2 (funext fun p => funext fun q => ?_)
  unfold gain
  ring

/-- The reset block is the zero matrix. -/
theorem reset_arr2 : (k0_pay3 (F := Ideal) : Vec Ideal S512x128 .f32) = arr2 (fun (_ : Fin 512) (_ : Fin 128) => (0 : ℝ)) := by
  funext j
  unfold k0_pay3
  refine (congrFun (shapeCast_self _ _) j).trans ?_
  show (Scalar.ofBits (F := Ideal) .f32 0x00000000#32 : Ideal .f32) = ((0 : ℝ) : EReal)
  rw [LibPlainDot.scalar_zero, EReal.coe_zero]

/-! ## The blocks a point reads, off real arrays -/

/-- The printed index maps over the grid: point t is row block t / 8 and column block t % 8. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val / 8 ∧ win0_8.index t (1 : Fin 2) = 0 :=
  (by decide +kernel : ∀ t : Fin grid0.N, _)

section Blocks

variable (V : (c : Dev nD) → (b : Ref sig .tc) → Buf (Elt Ideal) ((c : Thread nD τ).loc b))

/-- The first adjacency matrix's block at point t. -/
theorem readA0 (c : Dev nD) (t : Fin cfg0.N) (i : Fin 16) (j : Fin 8) (hi : t.val / 8 = i.val) (hj : t.val % 8 = j.val)
    (a : Fin 8192 → Fin 8192 → ℝ) (h : V c (Pipeline.arrRef spec0 0) = arr2 a) :
    (L0.iblk V c 0 t : Vec Ideal S512x1024 .f32) = arr2 (ablk a i j) := by
  obtain ⟨f0, f1, -⟩ := idx_facts t
  funext y
  obtain ⟨p, k, rfl⟩ : ∃ (p : Fin 512) (k : Fin 1024), y = ix2 p k := ⟨y 0, y 1, eq_ix2 y⟩
  unfold L0.iblk
  rw [View.read_apply, h]
  have e : ((cfg0.win 0).blk t).view.emb (ix2 p k) = ix2 (rowOf i p) (colOf j k) := by
    funext ax; apply Fin.ext
    match ax with
    | ⟨0, _⟩ => show win0_0.index t (0 : Fin 2) * 512 + 1 * p.val = 512 * i.val + p.val; rw [f0]; omega
    | ⟨1, _⟩ => show win0_0.index t (1 : Fin 2) * 1024 + 1 * k.val = 1024 * j.val + k.val; rw [f1]; omega
  rw [e]
  rfl

/-- The second adjacency matrix's block at point t. -/
theorem readA1 (c : Dev nD) (t : Fin cfg0.N) (i : Fin 16) (j : Fin 8) (hi : t.val / 8 = i.val) (hj : t.val % 8 = j.val)
    (a : Fin 8192 → Fin 8192 → ℝ) (h : V c (Pipeline.arrRef spec0 1) = arr2 a) :
    (L0.iblk V c 1 t : Vec Ideal S512x1024 .f32) = arr2 (ablk a i j) := by
  obtain ⟨-, -, f0, f1, -⟩ := idx_facts t
  funext y
  obtain ⟨p, k, rfl⟩ : ∃ (p : Fin 512) (k : Fin 1024), y = ix2 p k := ⟨y 0, y 1, eq_ix2 y⟩
  unfold L0.iblk
  rw [View.read_apply, h]
  have e : ((cfg0.win 1).blk t).view.emb (ix2 p k) = ix2 (rowOf i p) (colOf j k) := by
    funext ax; apply Fin.ext
    match ax with
    | ⟨0, _⟩ => show win0_1.index t (0 : Fin 2) * 512 + 1 * p.val = 512 * i.val + p.val; rw [f0]; omega
    | ⟨1, _⟩ => show win0_1.index t (1 : Fin 2) * 1024 + 1 * k.val = 1024 * j.val + k.val; rw [f1]; omega
  rw [e]
  rfl

/-- The third adjacency matrix's block at point t. -/
theorem readA2 (c : Dev nD) (t : Fin cfg0.N) (i : Fin 16) (j : Fin 8) (hi : t.val / 8 = i.val) (hj : t.val % 8 = j.val)
    (a : Fin 8192 → Fin 8192 → ℝ) (h : V c (Pipeline.arrRef spec0 2) = arr2 a) :
    (L0.iblk V c 2 t : Vec Ideal S512x1024 .f32) = arr2 (ablk a i j) := by
  obtain ⟨-, -, -, -, f0, f1, -⟩ := idx_facts t
  funext y
  obtain ⟨p, k, rfl⟩ : ∃ (p : Fin 512) (k : Fin 1024), y = ix2 p k := ⟨y 0, y 1, eq_ix2 y⟩
  unfold L0.iblk
  rw [View.read_apply, h]
  have e : ((cfg0.win 2).blk t).view.emb (ix2 p k) = ix2 (rowOf i p) (colOf j k) := by
    funext ax; apply Fin.ext
    match ax with
    | ⟨0, _⟩ => show win0_2.index t (0 : Fin 2) * 512 + 1 * p.val = 512 * i.val + p.val; rw [f0]; omega
    | ⟨1, _⟩ => show win0_2.index t (1 : Fin 2) * 1024 + 1 * k.val = 1024 * j.val + k.val; rw [f1]; omega
  rw [e]
  rfl

/-- The feature matrix's block at point t. -/
theorem readX (c : Dev nD) (t : Fin cfg0.N) (j : Fin 8) (hj : t.val % 8 = j.val)
    (x : Fin 8192 → Fin 64 → ℝ) (h : V c (Pipeline.arrRef spec0 3) = arr2 x) :
    (L0.iblk V c 3 t : Vec Ideal S1024x64 .f32) = arr2 (xblk x j) := by
  obtain ⟨-, -, -, -, -, -, f0, f1, -⟩ := idx_facts t
  funext y
  obtain ⟨k, f, rfl⟩ : ∃ (k : Fin 1024) (f : Fin 64), y = ix2 k f := ⟨y 0, y 1, eq_ix2 y⟩
  unfold L0.iblk
  rw [View.read_apply, h]
  have e : ((cfg0.win 3).blk t).view.emb (ix2 k f) = ix2 (colOf j k) f := by
    funext ax; apply Fin.ext
    match ax with
    | ⟨0, _⟩ => show win0_3.index t (0 : Fin 2) * 1024 + 1 * k.val = 1024 * j.val + k.val; rw [f0]; omega
    | ⟨1, _⟩ => show win0_3.index t (1 : Fin 2) * 64 + 1 * f.val = f.val; rw [f1]; omega
  rw [e]
  rfl

/-- The first weight matrix is read whole at every point. -/
theorem readW0 (c : Dev nD) (t : Fin cfg0.N) (w : Fin 128 → Fin 64 → ℝ) (h : V c (Pipeline.arrRef spec0 4) = arr2 w) :
    (L0.iblk V c 4 t : Vec Ideal S128x64 .f32) = arr2 w := by
  obtain ⟨-, -, -, -, -, -, -, -, f0, f1, -⟩ := idx_facts t
  funext y
  obtain ⟨q, f, rfl⟩ : ∃ (q : Fin 128) (f : Fin 64), y = ix2 q f := ⟨y 0, y 1, eq_ix2 y⟩
  unfold L0.iblk
  rw [View.read_apply, h]
  have e : ((cfg0.win 4).blk t).view.emb (ix2 q f) = ix2 q f := by
    funext ax; apply Fin.ext
    match ax with
    | ⟨0, _⟩ => show win0_4.index t (0 : Fin 2) * 128 + 1 * q.val = q.val; rw [f0]; omega
    | ⟨1, _⟩ => show win0_4.index t (1 : Fin 2) * 64 + 1 * f.val = f.val; rw [f1]; omega
  rw [e]
  rfl

/-- The second weight matrix is read whole at every point. -/
theorem readW1 (c : Dev nD) (t : Fin cfg0.N) (w : Fin 128 → Fin 64 → ℝ) (h : V c (Pipeline.arrRef spec0 5) = arr2 w) :
    (L0.iblk V c 5 t : Vec Ideal S128x64 .f32) = arr2 w := by
  obtain ⟨-, -, -, -, -, -, -, -, -, -, f0, f1, -⟩ := idx_facts t
  funext y
  obtain ⟨q, f, rfl⟩ : ∃ (q : Fin 128) (f : Fin 64), y = ix2 q f := ⟨y 0, y 1, eq_ix2 y⟩
  unfold L0.iblk
  rw [View.read_apply, h]
  have e : ((cfg0.win 5).blk t).view.emb (ix2 q f) = ix2 q f := by
    funext ax; apply Fin.ext
    match ax with
    | ⟨0, _⟩ => show win0_5.index t (0 : Fin 2) * 128 + 1 * q.val = q.val; rw [f0]; omega
    | ⟨1, _⟩ => show win0_5.index t (1 : Fin 2) * 64 + 1 * f.val = f.val; rw [f1]; omega
  rw [e]
  rfl

/-- The third weight matrix is read whole at every point. -/
theorem readW2 (c : Dev nD) (t : Fin cfg0.N) (w : Fin 128 → Fin 64 → ℝ) (h : V c (Pipeline.arrRef spec0 6) = arr2 w) :
    (L0.iblk V c 6 t : Vec Ideal S128x64 .f32) = arr2 w := by
  obtain ⟨-, -, -, -, -, -, -, -, -, -, -, -, f0, f1, -⟩ := idx_facts t
  funext y
  obtain ⟨q, f, rfl⟩ : ∃ (q : Fin 128) (f : Fin 64), y = ix2 q f := ⟨y 0, y 1, eq_ix2 y⟩
  unfold L0.iblk
  rw [View.read_apply, h]
  have e : ((cfg0.win 6).blk t).view.emb (ix2 q f) = ix2 q f := by
    funext ax; apply Fin.ext
    match ax with
    | ⟨0, _⟩ => show win0_6.index t (0 : Fin 2) * 128 + 1 * q.val = q.val; rw [f0]; omega
    | ⟨1, _⟩ => show win0_6.index t (1 : Fin 2) * 64 + 1 * f.val = f.val; rw [f1]; omega
  rw [e]
  rfl

/-- The bias row is read whole at every point. -/
theorem readB (c : Dev nD) (t : Fin cfg0.N) (b : Fin 128 → ℝ) (h : V c (Pipeline.arrRef spec0 7) = row1 b) :
    (L0.iblk V c 7 t : Vec Ideal S1x128 .f32) = row1 b := by
  obtain ⟨-, -, -, -, -, -, -, -, -, -, -, -, -, -, f0, f1, -⟩ := idx_facts t
  funext y
  obtain ⟨r, q, rfl⟩ : ∃ (r : Fin 1) (q : Fin 128), y = ix2 r q := ⟨y 0, y 1, eq_ix2 y⟩
  unfold L0.iblk
  rw [View.read_apply, h]
  have e : ((cfg0.win 7).blk t).view.emb (ix2 r q) = ix2 r q := by
    funext ax; apply Fin.ext
    match ax with
    | ⟨0, _⟩ => show win0_7.index t (0 : Fin 2) * 1 + 1 * r.val = r.val; rw [f0]; omega
    | ⟨1, _⟩ => show win0_7.index t (1 : Fin 2) * 128 + 1 * q.val = q.val; rw [f1]; omega
  rw [e]
  rfl

/-! ## The accumulator after each point -/

variable (a0 a1 a2 : Fin 8192 → Fin 8192 → ℝ) (x : Fin 8192 → Fin 64 → ℝ) (w0 w1 w2 : Fin 128 → Fin 64 → ℝ) (b : Fin 128 → ℝ)

/-- After the point 8 i + j the accumulator holds the gains of the column blocks 0..j of row block i. -/
theorem accAt_eq (hpay4 : ∀ x : Fin 1024 → Fin 64 → ℝ, (k0_pay4 (F := Ideal) (arr2 x) : FVec Ideal S1024x64 .bf16) = arr2 x) (c : Dev nD)
    (h0 : V c (Pipeline.arrRef spec0 0) = arr2 a0) (h1 : V c (Pipeline.arrRef spec0 1) = arr2 a1)
    (h2 : V c (Pipeline.arrRef spec0 2) = arr2 a2) (h3 : V c (Pipeline.arrRef spec0 3) = arr2 x)
    (h4 : V c (Pipeline.arrRef spec0 4) = arr2 w0) (h5 : V c (Pipeline.arrRef spec0 5) = arr2 w1)
    (h6 : V c (Pipeline.arrRef spec0 6) = arr2 w2) :
    ∀ (n : ℕ) (hn : n < cfg0.N) (i : Fin 16), n / 8 = i.val →
      L0.accAt V c n hn = arr2 (partialSum a0 a1 a2 x w0 w1 w2 i (n % 8)) := by
  intro n
  induction n using Nat.strong_induction_on with
  | _ n ih =>
    intro hn i hi
    have hN : n < 128 := lt_of_lt_of_eq hn N_0
    have hj8 : n % 8 < 8 := Nat.mod_lt _ (by decide)
    have e0 := readA0 V c ⟨n, hn⟩ i ⟨n % 8, hj8⟩ hi rfl a0 h0
    have e1 := readA1 V c ⟨n, hn⟩ i ⟨n % 8, hj8⟩ hi rfl a1 h1
    have e2 := readA2 V c ⟨n, hn⟩ i ⟨n % 8, hj8⟩ hi rfl a2 h2
    have e3 := readX V c ⟨n, hn⟩ ⟨n % 8, hj8⟩ rfl x h3
    have e4 := readW0 V c ⟨n, hn⟩ w0 h4
    have e5 := readW1 V c ⟨n, hn⟩ w1 h5
    have e6 := readW2 V c ⟨n, hn⟩ w2 h6
    by_cases h8 : n % 8 = 0
    · refine (L0.accAt_first V c ⟨n, hn⟩ h8).trans ?_
      rw [e0, e1, e2, e3, e4, e5, e6, reset_arr2, step0_arr2 hpay4]
      refine congrArg arr2 (funext fun p => funext fun q => ?_)
      show (0 : ℝ) + gainAt a0 a1 a2 x w0 w1 w2 i ⟨n % 8, hj8⟩ p q = ∑ jj ∈ Finset.range (n % 8 + 1), gainN a0 a1 a2 x w0 w1 w2 i jj p q
      rw [← gainN_of_lt a0 a1 a2 x w0 w1 w2 i (n % 8) hj8 p q, h8, Finset.sum_range_one, zero_add]
    · refine (L0.accAt_next V c ⟨n, hn⟩ h8).trans ?_
      have ihn := ih (n - 1) (by omega) (by omega) i (by omega)
      rw [e0, e1, e2, e3, e4, e5, e6, ihn, step0_arr2 hpay4]
      refine congrArg arr2 (funext fun p => funext fun q => ?_)
      show (∑ jj ∈ Finset.range ((n - 1) % 8 + 1), gainN a0 a1 a2 x w0 w1 w2 i jj p q) + gainAt a0 a1 a2 x w0 w1 w2 i ⟨n % 8, hj8⟩ p q
        = ∑ jj ∈ Finset.range (n % 8 + 1), gainN a0 a1 a2 x w0 w1 w2 i jj p q
      rw [← gainN_of_lt a0 a1 a2 x w0 w1 w2 i (n % 8) hj8 p q, show n % 8 = (n - 1) % 8 + 1 by omega]
      exact (Finset.sum_range_succ _ _).symm

/-! ## The output array -/

/-- The output block after the last column block of row block i: the last-point function of the whole sums of the
    rows 512 i .. 512 i + 511 and the bias. -/
theorem outAt_last (post : ℝ → ℝ → ℝ) (hpay4 : ∀ x : Fin 1024 → Fin 64 → ℝ, (k0_pay4 (F := Ideal) (arr2 x) : FVec Ideal S1024x64 .bf16) = arr2 x)
    (hfin : ∀ (s : Fin 512 → Fin 128 → ℝ) (b : Fin 128 → ℝ), fin0 (F := Ideal) (arr2 s) (row1 b) = arr2 (fun p q => post (s p q) (b q)))
    (c : Dev nD)
    (h0 : V c (Pipeline.arrRef spec0 0) = arr2 a0) (h1 : V c (Pipeline.arrRef spec0 1) = arr2 a1)
    (h2 : V c (Pipeline.arrRef spec0 2) = arr2 a2) (h3 : V c (Pipeline.arrRef spec0 3) = arr2 x)
    (h4 : V c (Pipeline.arrRef spec0 4) = arr2 w0) (h5 : V c (Pipeline.arrRef spec0 5) = arr2 w1)
    (h6 : V c (Pipeline.arrRef spec0 6) = arr2 w2) (h7 : V c (Pipeline.arrRef spec0 7) = row1 b)
    (t : Fin cfg0.N) (hl : t.val % 8 = 7) (i : Fin 16) (hi : t.val / 8 = i.val) :
    L0.outAt V c t.val t.isLt = arr2 (fun p q => post (agg a0 a1 a2 x w0 w1 w2 (rowOf i p) q) (b q)) := by
  unfold L0.outAt
  rw [accAt_eq V a0 a1 a2 x w0 w1 w2 hpay4 c h0 h1 h2 h3 h4 h5 h6 t.val t.isLt i hi, readB V c ⟨t.val, t.isLt⟩ b h7, hfin]
  refine congrArg arr2 (funext fun p => funext fun q => ?_)
  rw [hl, partialSum_last]

/-- The region's output array ends holding the last-point function of the three edge types' sums and the bias. -/
theorem core_value (post : ℝ → ℝ → ℝ) (hpay4 : ∀ x : Fin 1024 → Fin 64 → ℝ, (k0_pay4 (F := Ideal) (arr2 x) : FVec Ideal S1024x64 .bf16) = arr2 x)
    (hfin : ∀ (s : Fin 512 → Fin 128 → ℝ) (b : Fin 128 → ℝ), fin0 (F := Ideal) (arr2 s) (row1 b) = arr2 (fun p q => post (s p q) (b q)))
    (c : Dev nD)
    (h0 : V c (Pipeline.arrRef spec0 0) = arr2 a0) (h1 : V c (Pipeline.arrRef spec0 1) = arr2 a1)
    (h2 : V c (Pipeline.arrRef spec0 2) = arr2 a2) (h3 : V c (Pipeline.arrRef spec0 3) = arr2 x)
    (h4 : V c (Pipeline.arrRef spec0 4) = arr2 w0) (h5 : V c (Pipeline.arrRef spec0 5) = arr2 w1)
    (h6 : V c (Pipeline.arrRef spec0 6) = arr2 w2) (h7 : V c (Pipeline.arrRef spec0 7) = row1 b) :
    (L0.dat (F := Ideal) V c).arrAt 8 cfg0.N = arr2 (fun n o => post (agg a0 a1 a2 x w0 w1 w2 n o) (b o)) := by
  refine B0.arrAt8_of_rows V c (arr2 (fun n o => post (agg a0 a1 a2 x w0 w1 w2 n o) (b o))) fun t hl p q => ?_
  have ht := B0.lt128 t
  rw [outAt_last V a0 a1 a2 x w0 w1 w2 b post hpay4 hfin c h0 h1 h2 h3 h4 h5 h6 h7 t hl ⟨t.val / 8, by omega⟩ rfl]
  rfl

end Blocks

end Cert.KernelIdeal.V0

end
-- ==== Proof.Val.Layer0.lean ====
/-
  The first graph-convolution layer at the extended reals: region 0's output array ends holding the matrix
      max(Σ_r Σ_f (Σ_k a_r n k · x k f) · w_r o f + b o, 0).

  Two facts about this layer's ends feed the general statement: narrowing the feature block to the half-width format
  does nothing to real values, and the last point of a row block adds the bias row along the rows and keeps the
  positive part.
-/
import proofs.«157318_j36885179138300_1_alg».proof.Proof.Val.Acc0

noncomputable section

open scoped BigOperators

namespace Cert.KernelIdeal.V0

open Idealize.ShloMosaic Idealize.ShloMosaic.TcCoe Idealize.ShloMosaic.ValueIdx Cert.KernelIdeal Cert.KernelIdeal.Gen Cert.KernelIdeal.Hand Cert.Spec

/-- The feature block narrowed to the half-width format is the same real matrix. -/
theorem pay4_arr2 (x : Fin 1024 → Fin 64 → ℝ) : (k0_pay4 (F := Ideal) (arr2 x) : FVec Ideal S1024x64 .bf16) = arr2 x := rfl

/-- The last point's output over real blocks: the bias row laid along the rows, then the positive part. -/
theorem fin0_arr2 (s : Fin 512 → Fin 128 → ℝ) (b : Fin 128 → ℝ) :
    fin0 (F := Ideal) (arr2 s) (row1 b) = arr2 (fun p q => max (s p q + b q) 0) := by
  funext j
  obtain ⟨p, q, rfl⟩ : ∃ (p : Fin 512) (q : Fin 128), j = ix2 p q := ⟨j 0, j 1, eq_ix2 j⟩
  unfold fin0 k0_pay2
  show max (((s p q : ℝ) : EReal) + broadcastTo S512x128 (shapeCast S1x128 (row1 b) shapeCasts_S1x128_S1x128) broadcasts_S1x128_S512x128 (ix2 p q))
      (Scalar.ofBits (F := Ideal) .f32 0x00000000#32 : Ideal .f32) = ((max (s p q + b q) 0 : ℝ) : EReal)
  rw [broadcastTo_1b_ab_apply, shapeCast_self, row1_ix2, LibPlainDot.scalar_zero, ← EReal.coe_add, ← EReal.coe_zero]
  exact (EReal.coe_strictMono.monotone.map_max).symm

/-- Region 0's output array ends holding the first layer's matrix. -/
theorem layer0_value (V : (c : Dev nD) → (b : Ref sig .tc) → Buf (Elt Ideal) ((c : Thread nD τ).loc b))
    (a0 a1 a2 : Fin 8192 → Fin 8192 → ℝ) (x : Fin 8192 → Fin 64 → ℝ) (w0 w1 w2 : Fin 128 → Fin 64 → ℝ) (b : Fin 128 → ℝ)
    (c : Dev nD)
    (h0 : V c (Pipeline.arrRef spec0 0) = arr2 a0) (h1 : V c (Pipeline.arrRef spec0 1) = arr2 a1)
    (h2 : V c (Pipeline.arrRef spec0 2) = arr2 a2) (h3 : V c (Pipeline.arrRef spec0 3) = arr2 x)
    (h4 : V c (Pipeline.arrRef spec0 4) = arr2 w0) (h5 : V c (Pipeline.arrRef spec0 5) = arr2 w1)
    (h6 : V c (Pipeline.arrRef spec0 6) = arr2 w2) (h7 : V c (Pipeline.arrRef spec0 7) = row1 b) :
    (L0.dat (F := Ideal) V c).arrAt 8 cfg0.N = arr2 (hidden a0 a1 a2 x w0 w1 w2 b) :=
  core_value V a0 a1 a2 x w0 w1 w2 b (fun s b => max (s + b) 0) pay4_arr2 fin0_arr2 c h0 h1 h2 h3 h4 h5 h6 h7

end Cert.KernelIdeal.V0

end
-- ==== Proof.Val.Blocks1.lean ====
/-
  Layer 2's output array from its row blocks. The layer runs over 16 × 8 points; the point t = 8·i + j works on row
  block i (512 × 128) of the output and writes it back at j = 7. The 16 blocks written back tile the 8192 × 128 array,
  so a function G that every written block agrees with, row for row, is what the array ends holding.
-/
import proofs.«157318_j36885179138300_1_alg».proof.Proof.KI.Layer1
import Idealize.ShloMosaic.Lib.ValueIdx
import Idealize.ShloMosaic.Lib.Pipeline.Value

noncomputable section

namespace Cert.KernelIdeal.B1

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-! ## The grid: point t = 8·i + j has row block i = t / 8 and column block j = t % 8 -/

theorem lt128 (t : Fin cfg1.N) : t.val < 128 := by
  have h := t.isLt
  have e : cfg1.N = 128 := N_1
  omega

/-- The output window's block index over the 128 points: row block t / 8, column block 0. -/
theorem idxO : ∀ t : Fin cfg1.N, win1_8.index t (0 : Fin 2) = t.val / 8 ∧ win1_8.index t (1 : Fin 2) = 0 :=
  (by decide +kernel : ∀ t : Fin grid1.N, _)

/-! ## The output array from its row blocks -/

/-- An index of the output array is in point t's block iff each coordinate is in the block's range on its axis. -/
theorem mem_blk (t : Fin cfg1.N) (i : S8192x128.Idx) :
    i ∈ ((cfg1.win 8).blk t).view.set ↔ ∀ a : Fin 2, win1_8.index t a * S512x128.size a ≤ (i a).val ∧ (i a).val < win1_8.index t a * S512x128.size a + S512x128.size a := by
  show i ∈ ((View.whole main_v3).slice (win1_8.rect t)).set ↔ _
  rw [View.set_slice_whole, Rect.mem_set_unit]
  exact Iff.rfl

/-- Row r of the output lies in the block written back at the last column block of its row of blocks, the point
    8·(r / 512) + 7. -/
theorem cover (i : S8192x128.Idx) : ∃ t : Fin cfg1.N, (cfg1.win 8).flush t = true ∧ i ∈ ((cfg1.win 8).blk t).view.set := by
  have h0 : (i 0).val < 8192 := (i 0).isLt
  have h1 : (i 1).val < 128 := (i 1).isLt
  obtain ⟨t, ht⟩ : ∃ t : Fin cfg1.N, t.val = 8 * ((i 0).val / 512) + 7 :=
    ⟨⟨8 * ((i 0).val / 512) + 7, by rw [show cfg1.N = 128 from N_1]; omega⟩, rfl⟩
  refine ⟨t, (flush1_8 t).mpr (by rw [ht]; omega), ?_⟩
  rw [mem_blk]
  obtain ⟨e0, e1⟩ := idxO t
  intro a
  match a with
  | ⟨0, _⟩ => show win1_8.index t 0 * 512 ≤ (i 0).val ∧ (i 0).val < win1_8.index t 0 * 512 + 512; rw [e0, ht]; omega
  | ⟨1, _⟩ => show win1_8.index t 1 * 128 ≤ (i 1).val ∧ (i 1).val < win1_8.index t 1 * 128 + 128; rw [e1]; omega

variable (V : (c : Dev nD) → (b : Ref sig .tc) → Buf (Elt F) ((c : Thread nD τ).loc b))

/-- If at every point that writes back (t % 8 = 7) the output block holds rows 512·(t / 8) … of G, the output array ends
    holding G. -/
theorem arrAt8_of_rows (c : Dev nD) (G : S8192x128.Idx → Elt F .f32)
    (hG : ∀ t : Fin cfg1.N, t.val % 8 = 7 → ∀ (p : Fin 512) (q : Fin 128),
      L1.outAt V c t.val t.isLt (ix2 p q) = G (ix2 (⟨512 * (t.val / 8) + p.val, by have := lt128 t; omega⟩ : Fin 8192) q)) :
    (L1.dat V c).arrAt 8 cfg1.N = G := by
  refine (L1.dat V c).arrAt_eq_of_cover 8 G (fun t hf => ?_) cover
  show (cfg1.win 8).cut (grid1.coords t) ((L1.dat V c).after 8 t) = _
  rw [L1.after_8]
  obtain ⟨e0, e1⟩ := idxO t
  have ht := lt128 t
  funext j
  obtain ⟨p, q, rfl⟩ : ∃ (p : Fin 512) (q : Fin 128), j = ix2 p q := ⟨j 0, j 1, eq_ix2 j⟩
  rw [View.read_apply]
  show L1.outAt V c t.val t.isLt (ix2 p q) = G (((cfg1.win 8).blk t).view.emb (ix2 p q))
  rw [hG t ((flush1_8 t).mp hf) p q]
  congr 1
  funext a
  apply Fin.ext
  match a with
  | ⟨0, _⟩ => show 512 * (t.val / 8) + p.val = win1_8.index t 0 * 512 + 1 * p.val; rw [e0]; omega
  | ⟨1, _⟩ => show q.val = win1_8.index t 1 * 128 + 1 * q.val; rw [e1]; omega

end Cert.KernelIdeal.B1

end
-- ==== Proof.Val.Acc1.lean ====
/-
  At the extended reals, what one graph-convolution region of the program (a layer over a grid of 16 row blocks by 8
  column blocks) leaves in its output array, for real input arrays.

  One edge type's gain at a point is s + (A · X) · Wᵀ read at an entry: the first product is rows by columns, the
  second contracts the last axis of both operands, and narrowing to the half-width format is the identity on the
  extended reals. The blocks a point reads are the blocks of the real arrays at the point's row block t / 8 and column
  block t % 8. By induction over the points of a row block the accumulator holds the running sum of the gains, which
  after the last column block is the whole sum over the 8192 columns; the last point's output block is the last-point
  function of that sum and the bias, and the 16 row blocks tile the output array.

  The last-point function post and the two facts about the layer's ends (the narrowed feature block is the same real
  matrix; the last point's output is post of the accumulator and the bias row, entry by entry) are hypotheses here.
-/
import proofs.«157318_j36885179138300_1_alg».proof.Proof.KI.Layer1
import proofs.«157318_j36885179138300_1_alg».proof.Proof.Val.Blocks1
import proofs.«157318_j36885179138300_1_alg».proof.Proof.Val.Cols
import proofs.«157318_j36885179138300_1_alg».proof.Proof.Spec
import proofs.«157318_j36885179138300_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.V1

open Idealize.ShloMosaic Idealize.ShloMosaic.TcCoe Idealize.ShloMosaic.ValueIdx Cert.KernelIdeal Cert.KernelIdeal.Gen Cert.KernelIdeal.Hand Cert.Spec Cert.Cols

/-! ## The two matrix products of a point, read at an entry -/

theorem lhs_agg_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_agg_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_agg_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_agg_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

theorem lhs_prj_0 (i : S512x128.Idx) (q : dot_S512x128_S128x128_S512x128_1_1_0_0_n_n.contr.Idx) :
    (dot_S512x128_S128x128_S512x128_1_1_0_0_n_n.lhsIdx i q 0).val = (i 0).val := by
  unfold DotDims.lhsIdx
  rw [dif_neg (show ¬(0 : Fin S512x128.rank) ∈ dot_S512x128_S128x128_S512x128_1_1_0_0_n_n.lhsBatch by decide), dif_pos (show (0 : Fin S512x128.rank) ∈ dot_S512x128_S128x128_S512x128_1_1_0_0_n_n.lhsNonContracting by decide)]
  rfl
theorem lhs_prj_1 (i : S512x128.Idx) (q : dot_S512x128_S128x128_S512x128_1_1_0_0_n_n.contr.Idx) :
    (dot_S512x128_S128x128_S512x128_1_1_0_0_n_n.lhsIdx i q 1).val = (q ⟨0, by decide⟩).val :=
  dot_S512x128_S128x128_S512x128_1_1_0_0_n_n.lhsIdx_val_of_single rfl i q
theorem rhs_prj_0 (i : S512x128.Idx) (q : dot_S512x128_S128x128_S512x128_1_1_0_0_n_n.contr.Idx) :
    (dot_S512x128_S128x128_S512x128_1_1_0_0_n_n.rhsIdx i q 0).val = (i 1).val := by
  unfold DotDims.rhsIdx
  rw [dif_neg (show ¬(0 : Fin S128x128.rank) ∈ dot_S512x128_S128x128_S512x128_1_1_0_0_n_n.rhsBatch by decide), dif_pos (show (0 : Fin S128x128.rank) ∈ dot_S512x128_S128x128_S512x128_1_1_0_0_n_n.rhsNonContracting by decide)]
  rfl
theorem rhs_prj_1 (i : S512x128.Idx) (q : dot_S512x128_S128x128_S512x128_1_1_0_0_n_n.contr.Idx) :
    (dot_S512x128_S128x128_S512x128_1_1_0_0_n_n.rhsIdx i q 1).val = (q ⟨0, by decide⟩).val :=
  dot_S512x128_S128x128_S512x128_1_1_0_0_n_n.rhsIdx_val_of_single rfl i q

/-- One edge type's gain at an entry: s + (a · x) · wᵀ (the narrowing to the half-width format is the identity on
    the extended reals). -/
theorem edge_apply (xb : FVec Ideal S1024x128 .bf16) (a : Vec Ideal S512x1024 .f32) (w : Vec Ideal S128x128 .f32)
    (s : Vec Ideal S512x128 .f32) (p : Fin 512) (q : Fin 128) :
    k1_pay1 (F := Ideal) xb a w s (ix2 p q)
      = s (ix2 p q) + ∑ f : Fin 128, (∑ k : Fin 1024, a (ix2 p k) * xb (ix2 k f)) * w (ix2 q f) := by
  unfold k1_pay1
  refine (congrFun (shapeCast_self _ _) (ix2 p q)).trans ?_
  refine congrArg (s (ix2 p q) + ·) ?_
  refine (matmul_last_apply dot_S512x128_S128x128_S512x128_1_1_0_0_n_n rfl rfl lhs_prj_0 lhs_prj_1 rhs_prj_0 rhs_prj_1 none _ _ p q).trans ?_
  refine Finset.sum_congr rfl fun f _ => ?_
  exact congrArg (· * w (ix2 q f))
    (LibPlainDot.matmul_plain_apply dot_S512x1024_S1024x128_S512x128_1_0_0_1_n_n rfl rfl lhs_agg_0 lhs_agg_1 rhs_agg_0 rhs_agg_1 none _ _ p f)

/-- The same over real matrices. -/
theorem edge_arr2 (hpay4 : ∀ x : Fin 1024 → Fin 128 → ℝ, (k1_pay4 (F := Ideal) (arr2 x) : FVec Ideal S1024x128 .bf16) = arr2 x)
    (x : Fin 1024 → Fin 128 → ℝ) (a : Fin 512 → Fin 1024 → ℝ) (w : Fin 128 → Fin 128 → ℝ) (s : Fin 512 → Fin 128 → ℝ) :
    k1_pay1 (F := Ideal) (k1_pay4 (arr2 x)) (arr2 a) (arr2 w) (arr2 s)
      = arr2 (fun p q => s p q + ∑ f : Fin 128, (∑ k : Fin 1024, a p k * x k f) * w q f) := by
  rw [hpay4]
  funext j
  obtain ⟨p, q, rfl⟩ : ∃ (p : Fin 512) (q : Fin 128), j = ix2 p q := ⟨j 0, j 1, eq_ix2 j⟩
  refine (edge_apply _ _ _ _ p q).trans ?_
  show ((s p q : ℝ) : EReal) + ∑ f : Fin 128, (∑ k : Fin 1024, ((a p k : ℝ) : EReal) * ((x k f : ℝ) : EReal)) * ((w q f : ℝ) : EReal)
    = ((s p q + ∑ f : Fin 128, (∑ k : Fin 1024, a p k * x k f) * w q f : ℝ) : EReal)
  simp only [EReal.coe_add, EReal.coe_mul, coe_sum]

/-- One point's update of the accumulator over real blocks. -/
theorem step1_arr2 (hpay4 : ∀ x : Fin 1024 → Fin 128 → ℝ, (k1_pay4 (F := Ideal) (arr2 x) : FVec Ideal S1024x128 .bf16) = arr2 x)
    (x : Fin 1024 → Fin 128 → ℝ) (a0 a1 a2 : Fin 512 → Fin 1024 → ℝ) (w0 w1 w2 : Fin 128 → Fin 128 → ℝ) (s : Fin 512 → Fin 128 → ℝ) :
    step1 (F := Ideal) (arr2 x) (arr2 a0) (arr2 a1) (arr2 a2) (arr2 w0) (arr2 w1) (arr2 w2) (arr2 s)
      = arr2 (fun p q => s p q + gain x a0 a1 a2 w0 w1 w2 p q) := by
  show k1_pay1 (F := Ideal) (k1_pay4 (arr2 x)) (arr2 a2) (arr2 w2)
    (k1_pay1 (F := Ideal) (k1_pay4 (arr2 x)) (arr2 a1) (arr2 w1) (k1_pay1 (F := Ideal) (k1_pay4 (arr2 x)) (arr2 a0) (arr2 w0) (arr2 s))) = _
  rw [edge_arr2 hpay4, edge_arr2 hpay4, edge_arr2 hpay4]
  refine congrArg arr2 (funext fun p => funext fun q => ?_)
  unfold gain
  ring

/-- The reset block is the zero matrix. -/
theorem reset_arr2 : (k1_pay3 (F := Ideal) : Vec Ideal S512x128 .f32) = arr2 (fun (_ : Fin 512) (_ : Fin 128) => (0 : ℝ)) := by
  funext j
  unfold k1_pay3
  refine (congrFun (shapeCast_self _ _) j).trans ?_
  show (Scalar.ofBits (F := Ideal) .f32 0x00000000#32 : Ideal .f32) = ((0 : ℝ) : EReal)
  rw [LibPlainDot.scalar_zero, EReal.coe_zero]

/-! ## The blocks a point reads, off real arrays -/

/-- The printed index maps over the grid: point t is row block t / 8 and column block t % 8. -/
theorem idx_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = t.val % 8
    ∧ win1_3.index t (0 : Fin 2) = t.val % 8 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 8 ∧ win1_8.index t (1 : Fin 2) = 0 :=
  (by decide +kernel : ∀ t : Fin grid1.N, _)

section Blocks

variable (V : (c : Dev nD) → (b : Ref sig .tc) → Buf (Elt Ideal) ((c : Thread nD τ).loc b))

/-- The first adjacency matrix's block at point t. -/
theorem readA0 (c : Dev nD) (t : Fin cfg1.N) (i : Fin 16) (j : Fin 8) (hi : t.val / 8 = i.val) (hj : t.val % 8 = j.val)
    (a : Fin 8192 → Fin 8192 → ℝ) (h : V c (Pipeline.arrRef spec1 0) = arr2 a) :
    (L1.iblk V c 0 t : Vec Ideal S512x1024 .f32) = arr2 (ablk a i j) := by
  obtain ⟨f0, f1, -⟩ := idx_facts t
  funext y
  obtain ⟨p, k, rfl⟩ : ∃ (p : Fin 512) (k : Fin 1024), y = ix2 p k := ⟨y 0, y 1, eq_ix2 y⟩
  unfold L1.iblk
  rw [View.read_apply, h]
  have e : ((cfg1.win 0).blk t).view.emb (ix2 p k) = ix2 (rowOf i p) (colOf j k) := by
    funext ax; apply Fin.ext
    match ax with
    | ⟨0, _⟩ => show win1_0.index t (0 : Fin 2) * 512 + 1 * p.val = 512 * i.val + p.val; rw [f0]; omega
    | ⟨1, _⟩ => show win1_0.index t (1 : Fin 2) * 1024 + 1 * k.val = 1024 * j.val + k.val; rw [f1]; omega
  rw [e]
  rfl

/-- The second adjacency matrix's block at point t. -/
theorem readA1 (c : Dev nD) (t : Fin cfg1.N) (i : Fin 16) (j : Fin 8) (hi : t.val / 8 = i.val) (hj : t.val % 8 = j.val)
    (a : Fin 8192 → Fin 8192 → ℝ) (h : V c (Pipeline.arrRef spec1 1) = arr2 a) :
    (L1.iblk V c 1 t : Vec Ideal S512x1024 .f32) = arr2 (ablk a i j) := by
  obtain ⟨-, -, f0, f1, -⟩ := idx_facts t
  funext y
  obtain ⟨p, k, rfl⟩ : ∃ (p : Fin 512) (k : Fin 1024), y = ix2 p k := ⟨y 0, y 1, eq_ix2 y⟩
  unfold L1.iblk
  rw [View.read_apply, h]
  have e : ((cfg1.win 1).blk t).view.emb (ix2 p k) = ix2 (rowOf i p) (colOf j k) := by
    funext ax; apply Fin.ext
    match ax with
    | ⟨0, _⟩ => show win1_1.index t (0 : Fin 2) * 512 + 1 * p.val = 512 * i.val + p.val; rw [f0]; omega
    | ⟨1, _⟩ => show win1_1.index t (1 : Fin 2) * 1024 + 1 * k.val = 1024 * j.val + k.val; rw [f1]; omega
  rw [e]
  rfl

/-- The third adjacency matrix's block at point t. -/
theorem readA2 (c : Dev nD) (t : Fin cfg1.N) (i : Fin 16) (j : Fin 8) (hi : t.val / 8 = i.val) (hj : t.val % 8 = j.val)
    (a : Fin 8192 → Fin 8192 → ℝ) (h : V c (Pipeline.arrRef spec1 2) = arr2 a) :
    (L1.iblk V c 2 t : Vec Ideal S512x1024 .f32) = arr2 (ablk a i j) := by
  obtain ⟨-, -, -, -, f0, f1, -⟩ := idx_facts t
  funext y
  obtain ⟨p, k, rfl⟩ : ∃ (p : Fin 512) (k : Fin 1024), y = ix2 p k := ⟨y 0, y 1, eq_ix2 y⟩
  unfold L1.iblk
  rw [View.read_apply, h]
  have e : ((cfg1.win 2).blk t).view.emb (ix2 p k) = ix2 (rowOf i p) (colOf j k) := by
    funext ax; apply Fin.ext
    match ax with
    | ⟨0, _⟩ => show win1_2.index t (0 : Fin 2) * 512 + 1 * p.val = 512 * i.val + p.val; rw [f0]; omega
    | ⟨1, _⟩ => show win1_2.index t (1 : Fin 2) * 1024 + 1 * k.val = 1024 * j.val + k.val; rw [f1]; omega
  rw [e]
  rfl

/-- The feature matrix's block at point t. -/
theorem readX (c : Dev nD) (t : Fin cfg1.N) (j : Fin 8) (hj : t.val % 8 = j.val)
    (x : Fin 8192 → Fin 128 → ℝ) (h : V c (Pipeline.arrRef spec1 3) = arr2 x) :
    (L1.iblk V c 3 t : Vec Ideal S1024x128 .f32) = arr2 (xblk x j) := by
  obtain ⟨-, -, -, -, -, -, f0, f1, -⟩ := idx_facts t
  funext y
  obtain ⟨k, f, rfl⟩ : ∃ (k : Fin 1024) (f : Fin 128), y = ix2 k f := ⟨y 0, y 1, eq_ix2 y⟩
  unfold L1.iblk
  rw [View.read_apply, h]
  have e : ((cfg1.win 3).blk t).view.emb (ix2 k f) = ix2 (colOf j k) f := by
    funext ax; apply Fin.ext
    match ax with
    | ⟨0, _⟩ => show win1_3.index t (0 : Fin 2) * 1024 + 1 * k.val = 1024 * j.val + k.val; rw [f0]; omega
    | ⟨1, _⟩ => show win1_3.index t (1 : Fin 2) * 128 + 1 * f.val = f.val; rw [f1]; omega
  rw [e]
  rfl

/-- The first weight matrix is read whole at every point. -/
theorem readW0 (c : Dev nD) (t : Fin cfg1.N) (w : Fin 128 → Fin 128 → ℝ) (h : V c (Pipeline.arrRef spec1 4) = arr2 w) :
    (L1.iblk V c 4 t : Vec Ideal S128x128 .f32) = arr2 w := by
  obtain ⟨-, -, -, -, -, -, -, -, f0, f1, -⟩ := idx_facts t
  funext y
  obtain ⟨q, f, rfl⟩ : ∃ (q : Fin 128) (f : Fin 128), y = ix2 q f := ⟨y 0, y 1, eq_ix2 y⟩
  unfold L1.iblk
  rw [View.read_apply, h]
  have e : ((cfg1.win 4).blk t).view.emb (ix2 q f) = ix2 q f := by
    funext ax; apply Fin.ext
    match ax with
    | ⟨0, _⟩ => show win1_4.index t (0 : Fin 2) * 128 + 1 * q.val = q.val; rw [f0]; omega
    | ⟨1, _⟩ => show win1_4.index t (1 : Fin 2) * 128 + 1 * f.val = f.val; rw [f1]; omega
  rw [e]
  rfl

/-- The second weight matrix is read whole at every point. -/
theorem readW1 (c : Dev nD) (t : Fin cfg1.N) (w : Fin 128 → Fin 128 → ℝ) (h : V c (Pipeline.arrRef spec1 5) = arr2 w) :
    (L1.iblk V c 5 t : Vec Ideal S128x128 .f32) = arr2 w := by
  obtain ⟨-, -, -, -, -, -, -, -, -, -, f0, f1, -⟩ := idx_facts t
  funext y
  obtain ⟨q, f, rfl⟩ : ∃ (q : Fin 128) (f : Fin 128), y = ix2 q f := ⟨y 0, y 1, eq_ix2 y⟩
  unfold L1.iblk
  rw [View.read_apply, h]
  have e : ((cfg1.win 5).blk t).view.emb (ix2 q f) = ix2 q f := by
    funext ax; apply Fin.ext
    match ax with
    | ⟨0, _⟩ => show win1_5.index t (0 : Fin 2) * 128 + 1 * q.val = q.val; rw [f0]; omega
    | ⟨1, _⟩ => show win1_5.index t (1 : Fin 2) * 128 + 1 * f.val = f.val; rw [f1]; omega
  rw [e]
  rfl

/-- The third weight matrix is read whole at every point. -/
theorem readW2 (c : Dev nD) (t : Fin cfg1.N) (w : Fin 128 → Fin 128 → ℝ) (h : V c (Pipeline.arrRef spec1 6) = arr2 w) :
    (L1.iblk V c 6 t : Vec Ideal S128x128 .f32) = arr2 w := by
  obtain ⟨-, -, -, -, -, -, -, -, -, -, -, -, f0, f1, -⟩ := idx_facts t
  funext y
  obtain ⟨q, f, rfl⟩ : ∃ (q : Fin 128) (f : Fin 128), y = ix2 q f := ⟨y 0, y 1, eq_ix2 y⟩
  unfold L1.iblk
  rw [View.read_apply, h]
  have e : ((cfg1.win 6).blk t).view.emb (ix2 q f) = ix2 q f := by
    funext ax; apply Fin.ext
    match ax with
    | ⟨0, _⟩ => show win1_6.index t (0 : Fin 2) * 128 + 1 * q.val = q.val; rw [f0]; omega
    | ⟨1, _⟩ => show win1_6.index t (1 : Fin 2) * 128 + 1 * f.val = f.val; rw [f1]; omega
  rw [e]
  rfl

/-- The bias row is read whole at every point. -/
theorem readB (c : Dev nD) (t : Fin cfg1.N) (b : Fin 128 → ℝ) (h : V c (Pipeline.arrRef spec1 7) = row1 b) :
    (L1.iblk V c 7 t : Vec Ideal S1x128 .f32) = row1 b := by
  obtain ⟨-, -, -, -, -, -, -, -, -, -, -, -, -, -, f0, f1, -⟩ := idx_facts t
  funext y
  obtain ⟨r, q, rfl⟩ : ∃ (r : Fin 1) (q : Fin 128), y = ix2 r q := ⟨y 0, y 1, eq_ix2 y⟩
  unfold L1.iblk
  rw [View.read_apply, h]
  have e : ((cfg1.win 7).blk t).view.emb (ix2 r q) = ix2 r q := by
    funext ax; apply Fin.ext
    match ax with
    | ⟨0, _⟩ => show win1_7.index t (0 : Fin 2) * 1 + 1 * r.val = r.val; rw [f0]; omega
    | ⟨1, _⟩ => show win1_7.index t (1 : Fin 2) * 128 + 1 * q.val = q.val; rw [f1]; omega
  rw [e]
  rfl

/-! ## The accumulator after each point -/

variable (a0 a1 a2 : Fin 8192 → Fin 8192 → ℝ) (x : Fin 8192 → Fin 128 → ℝ) (w0 w1 w2 : Fin 128 → Fin 128 → ℝ) (b : Fin 128 → ℝ)

/-- After the point 8 i + j the accumulator holds the gains of the column blocks 0..j of row block i. -/
theorem accAt_eq (hpay4 : ∀ x : Fin 1024 → Fin 128 → ℝ, (k1_pay4 (F := Ideal) (arr2 x) : FVec Ideal S1024x128 .bf16) = arr2 x) (c : Dev nD)
    (h0 : V c (Pipeline.arrRef spec1 0) = arr2 a0) (h1 : V c (Pipeline.arrRef spec1 1) = arr2 a1)
    (h2 : V c (Pipeline.arrRef spec1 2) = arr2 a2) (h3 : V c (Pipeline.arrRef spec1 3) = arr2 x)
    (h4 : V c (Pipeline.arrRef spec1 4) = arr2 w0) (h5 : V c (Pipeline.arrRef spec1 5) = arr2 w1)
    (h6 : V c (Pipeline.arrRef spec1 6) = arr2 w2) :
    ∀ (n : ℕ) (hn : n < cfg1.N) (i : Fin 16), n / 8 = i.val →
      L1.accAt V c n hn = arr2 (partialSum a0 a1 a2 x w0 w1 w2 i (n % 8)) := by
  intro n
  induction n using Nat.strong_induction_on with
  | _ n ih =>
    intro hn i hi
    have hN : n < 128 := lt_of_lt_of_eq hn N_1
    have hj8 : n % 8 < 8 := Nat.mod_lt _ (by decide)
    have e0 := readA0 V c ⟨n, hn⟩ i ⟨n % 8, hj8⟩ hi rfl a0 h0
    have e1 := readA1 V c ⟨n, hn⟩ i ⟨n % 8, hj8⟩ hi rfl a1 h1
    have e2 := readA2 V c ⟨n, hn⟩ i ⟨n % 8, hj8⟩ hi rfl a2 h2
    have e3 := readX V c ⟨n, hn⟩ ⟨n % 8, hj8⟩ rfl x h3
    have e4 := readW0 V c ⟨n, hn⟩ w0 h4
    have e5 := readW1 V c ⟨n, hn⟩ w1 h5
    have e6 := readW2 V c ⟨n, hn⟩ w2 h6
    by_cases h8 : n % 8 = 0
    · refine (L1.accAt_first V c ⟨n, hn⟩ h8).trans ?_
      rw [e0, e1, e2, e3, e4, e5, e6, reset_arr2, step1_arr2 hpay4]
      refine congrArg arr2 (funext fun p => funext fun q => ?_)
      show (0 : ℝ) + gainAt a0 a1 a2 x w0 w1 w2 i ⟨n % 8, hj8⟩ p q = ∑ jj ∈ Finset.range (n % 8 + 1), gainN a0 a1 a2 x w0 w1 w2 i jj p q
      rw [← gainN_of_lt a0 a1 a2 x w0 w1 w2 i (n % 8) hj8 p q, h8, Finset.sum_range_one, zero_add]
    · refine (L1.accAt_next V c ⟨n, hn⟩ h8).trans ?_
      have ihn := ih (n - 1) (by omega) (by omega) i (by omega)
      rw [e0, e1, e2, e3, e4, e5, e6, ihn, step1_arr2 hpay4]
      refine congrArg arr2 (funext fun p => funext fun q => ?_)
      show (∑ jj ∈ Finset.range ((n - 1) % 8 + 1), gainN a0 a1 a2 x w0 w1 w2 i jj p q) + gainAt a0 a1 a2 x w0 w1 w2 i ⟨n % 8, hj8⟩ p q
        = ∑ jj ∈ Finset.range (n % 8 + 1), gainN a0 a1 a2 x w0 w1 w2 i jj p q
      rw [← gainN_of_lt a0 a1 a2 x w0 w1 w2 i (n % 8) hj8 p q, show n % 8 = (n - 1) % 8 + 1 by omega]
      exact (Finset.sum_range_succ _ _).symm

/-! ## The output array -/

/-- The output block after the last column block of row block i: the last-point function of the whole sums of the
    rows 512 i .. 512 i + 511 and the bias. -/
theorem outAt_last (post : ℝ → ℝ → ℝ) (hpay4 : ∀ x : Fin 1024 → Fin 128 → ℝ, (k1_pay4 (F := Ideal) (arr2 x) : FVec Ideal S1024x128 .bf16) = arr2 x)
    (hfin : ∀ (s : Fin 512 → Fin 128 → ℝ) (b : Fin 128 → ℝ), fin1 (F := Ideal) (arr2 s) (row1 b) = arr2 (fun p q => post (s p q) (b q)))
    (c : Dev nD)
    (h0 : V c (Pipeline.arrRef spec1 0) = arr2 a0) (h1 : V c (Pipeline.arrRef spec1 1) = arr2 a1)
    (h2 : V c (Pipeline.arrRef spec1 2) = arr2 a2) (h3 : V c (Pipeline.arrRef spec1 3) = arr2 x)
    (h4 : V c (Pipeline.arrRef spec1 4) = arr2 w0) (h5 : V c (Pipeline.arrRef spec1 5) = arr2 w1)
    (h6 : V c (Pipeline.arrRef spec1 6) = arr2 w2) (h7 : V c (Pipeline.arrRef spec1 7) = row1 b)
    (t : Fin cfg1.N) (hl : t.val % 8 = 7) (i : Fin 16) (hi : t.val / 8 = i.val) :
    L1.outAt V c t.val t.isLt = arr2 (fun p q => post (agg a0 a1 a2 x w0 w1 w2 (rowOf i p) q) (b q)) := by
  unfold L1.outAt
  rw [accAt_eq V a0 a1 a2 x w0 w1 w2 hpay4 c h0 h1 h2 h3 h4 h5 h6 t.val t.isLt i hi, readB V c ⟨t.val, t.isLt⟩ b h7, hfin]
  refine congrArg arr2 (funext fun p => funext fun q => ?_)
  rw [hl, partialSum_last]

/-- The region's output array ends holding the last-point function of the three edge types' sums and the bias. -/
theorem core_value (post : ℝ → ℝ → ℝ) (hpay4 : ∀ x : Fin 1024 → Fin 128 → ℝ, (k1_pay4 (F := Ideal) (arr2 x) : FVec Ideal S1024x128 .bf16) = arr2 x)
    (hfin : ∀ (s : Fin 512 → Fin 128 → ℝ) (b : Fin 128 → ℝ), fin1 (F := Ideal) (arr2 s) (row1 b) = arr2 (fun p q => post (s p q) (b q)))
    (c : Dev nD)
    (h0 : V c (Pipeline.arrRef spec1 0) = arr2 a0) (h1 : V c (Pipeline.arrRef spec1 1) = arr2 a1)
    (h2 : V c (Pipeline.arrRef spec1 2) = arr2 a2) (h3 : V c (Pipeline.arrRef spec1 3) = arr2 x)
    (h4 : V c (Pipeline.arrRef spec1 4) = arr2 w0) (h5 : V c (Pipeline.arrRef spec1 5) = arr2 w1)
    (h6 : V c (Pipeline.arrRef spec1 6) = arr2 w2) (h7 : V c (Pipeline.arrRef spec1 7) = row1 b) :
    (L1.dat (F := Ideal) V c).arrAt 8 cfg1.N = arr2 (fun n o => post (agg a0 a1 a2 x w0 w1 w2 n o) (b o)) := by
  refine B1.arrAt8_of_rows V c (arr2 (fun n o => post (agg a0 a1 a2 x w0 w1 w2 n o) (b o))) fun t hl p q => ?_
  have ht := B1.lt128 t
  rw [outAt_last V a0 a1 a2 x w0 w1 w2 b post hpay4 hfin c h0 h1 h2 h3 h4 h5 h6 h7 t hl ⟨t.val / 8, by omega⟩ rfl]
  rfl

end Blocks

end Cert.KernelIdeal.V1

end
-- ==== Proof.Val.Layer1.lean ====
/-
  The second graph-convolution layer at the extended reals: region 1's output array ends holding the matrix
      Σ_r Σ_f (Σ_k a_r n k · x k f) · v_r e f + b' e,
  with x the first layer's 8192 × 128 output.

  Two facts about this layer's ends feed the general statement: the feature block is first recast to its own shape
  and then narrowed to the half-width format, neither of which changes a real value, and the last point of a row
  block only adds the bias row along the rows.
-/
import proofs.«157318_j36885179138300_1_alg».proof.Proof.Val.Acc1

noncomputable section

open scoped BigOperators

namespace Cert.KernelIdeal.V1

open Idealize.ShloMosaic Idealize.ShloMosaic.TcCoe Idealize.ShloMosaic.ValueIdx Cert.KernelIdeal Cert.KernelIdeal.Gen Cert.KernelIdeal.Hand Cert.Spec

/-- The feature block recast to its own shape and narrowed to the half-width format is the same real matrix. -/
theorem pay4_arr2 (x : Fin 1024 → Fin 128 → ℝ) : (k1_pay4 (F := Ideal) (arr2 x) : FVec Ideal S1024x128 .bf16) = arr2 x := by
  unfold k1_pay4
  funext j
  exact congrFun (shapeCast_self (arr2 x) shapeCasts_S1024x128_S1024x128) j

/-- The last point's output over real blocks: the bias row laid along the rows and added. -/
theorem fin1_arr2 (s : Fin 512 → Fin 128 → ℝ) (b : Fin 128 → ℝ) :
    fin1 (F := Ideal) (arr2 s) (row1 b) = arr2 (fun p q => s p q + b q) := by
  funext j
  obtain ⟨p, q, rfl⟩ : ∃ (p : Fin 512) (q : Fin 128), j = ix2 p q := ⟨j 0, j 1, eq_ix2 j⟩
  unfold fin1 k1_pay2
  show ((s p q : ℝ) : EReal) + broadcastTo S512x128 (shapeCast S1x128 (row1 b) shapeCasts_S1x128_S1x128) broadcasts_S1x128_S512x128 (ix2 p q)
    = ((s p q + b q : ℝ) : EReal)
  rw [broadcastTo_1b_ab_apply, shapeCast_self, row1_ix2, ← EReal.coe_add]

/-- Region 1's output array ends holding the second layer's matrix. -/
theorem layer1_value (V : (c : Dev nD) → (b : Ref sig .tc) → Buf (Elt Ideal) ((c : Thread nD τ).loc b))
    (a0 a1 a2 : Fin 8192 → Fin 8192 → ℝ) (x : Fin 8192 → Fin 128 → ℝ) (v0 v1 v2 : Fin 128 → Fin 128 → ℝ) (b' : Fin 128 → ℝ)
    (c : Dev nD)
    (h0 : V c (Pipeline.arrRef spec1 0) = arr2 a0) (h1 : V c (Pipeline.arrRef spec1 1) = arr2 a1)
    (h2 : V c (Pipeline.arrRef spec1 2) = arr2 a2) (h3 : V c (Pipeline.arrRef spec1 3) = arr2 x)
    (h4 : V c (Pipeline.arrRef spec1 4) = arr2 v0) (h5 : V c (Pipeline.arrRef spec1 5) = arr2 v1)
    (h6 : V c (Pipeline.arrRef spec1 6) = arr2 v2) (h7 : V c (Pipeline.arrRef spec1 7) = row1 b') :
    (L1.dat (F := Ideal) V c).arrAt 8 cfg1.N = arr2 (fun n e => agg a0 a1 a2 x v0 v1 v2 n e + b' e) :=
  core_value V a0 a1 a2 x v0 v1 v2 b' (fun s b => s + b) pay4_arr2 fin1_arr2 c h0 h1 h2 h3 h4 h5 h6 h7

end Cert.KernelIdeal.V1

end
-- ==== Proof.Val.Decode.lean ====
/-
  The decoder's output at the exact values: the Gram matrix of the rows of its input.

  The step writes the 8192 × 8192 result one 1024 × 2048 block per grid point; the point t = 4·i + j multiplies rows
  1024·i … 1024·i + 1023 of the input by the transpose of rows 2048·j … 2048·j + 2047. Entry (p, q) of the block is the
  inner product of the two rows over the 128 columns; the 32 blocks tile the result, so entry (r, s) of the result is
  the inner product of rows r and s of the input.
-/
import proofs.«157318_j36885179138300_1_alg».proof.Proof.KI.Decode
import proofs.«157318_j36885179138300_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.V2

open Idealize.ShloMosaic Idealize.ShloMosaic.TcCoe Idealize.ShloMosaic.ValueIdx Idealize.SL.Sem
open Idealize.ShloMosaic.Pipeline (Dat)
open Cert.KernelIdeal Cert.KernelIdeal.Gen Cert.Spec

/-! ## One block of the product: entry (p, q) is the inner product of row p of the left block and row q of the right -/

/-- The left operand's row is the output's row. -/
theorem lhs_gram_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- The left operand's column is the contraction position. -/
theorem lhs_gram_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- The right operand's row is the output's column. -/
theorem rhs_gram_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- The right operand's column is the contraction position. -/
theorem rhs_gram_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The stored block at (p, q): the sum over the 128 shared columns of the products of the two rows' entries. -/
theorem pay_apply (x : Vec Ideal S1024x128 .f32) (y : Vec Ideal S2048x128 .f32) (p : Fin 1024) (q : Fin 2048) :
    k2_pay1 (F := Ideal) x y (ix2 p q) = ∑ e : Fin 128, x (ix2 p e) * y (ix2 q e) := by
  unfold k2_pay1
  simp only [matmul, shapeCast_self]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs_gram_0 _ _
    | ⟨1, _⟩ => exact (lhs_gram_1 _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs_gram_0 _ _
    | ⟨1, _⟩ => exact (rhs_gram_1 _ _).trans hk)
  rw [el, er]
  rfl

/-- Over real matrices: the inner product of the two rows, as an extended real. -/
theorem pay_arr2 (u : Fin 1024 → Fin 128 → ℝ) (v : Fin 2048 → Fin 128 → ℝ) (p : Fin 1024) (q : Fin 2048) :
    k2_pay1 (F := Ideal) (arr2 u) (arr2 v) (ix2 p q) = ((∑ e : Fin 128, u p e * v q e : ℝ) : EReal) := by
  rw [pay_apply, coe_sum]
  refine Finset.sum_congr rfl fun e _ => ?_
  rw [arr2_ix2, arr2_ix2, EReal.coe_mul]

/-! ## The grid: point t = 4·i + j reads row block i and row block j, and writes block (i, j) -/

/-- The block index maps over the 32 points: the left window's row block is t / 4, the right window's is t % 4,
    the output block is (t / 4, t % 4); the inputs' column block is 0. -/
theorem idx_facts : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4 :=
  (by decide +kernel : ∀ t : Fin grid2.N, _)

theorem lt32 (t : Fin cfg2.N) : t.val < 32 := by
  have h := t.isLt
  have e : cfg2.N = 32 := N_2
  omega

section Blocks

variable (V : (c : Dev nD) → (b : Ref sig .tc) → Buf (Elt Ideal) ((c : Thread nD τ).loc b)) (c : Dev nD)

/-- The left window's block at point t is rows 1024·(t / 4) … of its array. -/
theorem iblk0_apply (t : Fin cfg2.N) (y : S1024x128.Idx) (k : S8192x128.Idx)
    (hk0 : (k 0).val = 1024 * (t.val / 4) + (y 0).val) (hk1 : (k 1).val = (y 1).val) :
    (L2.iblk V c 0 t : Vec Ideal S1024x128 .f32) y = (V c (Pipeline.arrRef spec2 0) : S8192x128.Idx → Elt Ideal .f32) k := by
  obtain ⟨e0, e1, -⟩ := idx_facts t
  unfold L2.iblk
  rw [View.read_apply]
  show V c (Pipeline.arrRef spec2 0) _ = V c (Pipeline.arrRef spec2 0) _
  congr 1
  funext a
  apply Fin.ext
  match a with
  | ⟨0, _⟩ => show win2_0.index t 0 * 1024 + 1 * (y 0).val = (k 0).val; rw [e0, hk0]; omega
  | ⟨1, _⟩ => show win2_0.index t 1 * 128 + 1 * (y 1).val = (k 1).val; rw [e1, hk1]; omega

/-- The right window's block at point t is rows 2048·(t % 4) … of its array. -/
theorem iblk1_apply (t : Fin cfg2.N) (y : S2048x128.Idx) (k : S8192x128.Idx)
    (hk0 : (k 0).val = 2048 * (t.val % 4) + (y 0).val) (hk1 : (k 1).val = (y 1).val) :
    (L2.iblk V c 1 t : Vec Ideal S2048x128 .f32) y = (V c (Pipeline.arrRef spec2 1) : S8192x128.Idx → Elt Ideal .f32) k := by
  obtain ⟨-, -, e0, e1, -⟩ := idx_facts t
  unfold L2.iblk
  rw [View.read_apply]
  show V c (Pipeline.arrRef spec2 1) _ = V c (Pipeline.arrRef spec2 1) _
  congr 1
  funext a
  apply Fin.ext
  match a with
  | ⟨0, _⟩ => show win2_1.index t 0 * 2048 + 1 * (y 0).val = (k 0).val; rw [e0, hk0]; omega
  | ⟨1, _⟩ => show win2_1.index t 1 * 128 + 1 * (y 1).val = (k 1).val; rw [e1, hk1]; omega

variable (z : Fin 8192 → Fin 128 → ℝ)

/-- Over a real matrix z: the left block is the real matrix of z's rows 1024·(t / 4) + p. -/
theorem iblk0_eq (hz : V c (Pipeline.arrRef spec2 0) = arr2 z) (t : Fin cfg2.N) :
    (L2.iblk V c 0 t : Vec Ideal S1024x128 .f32)
      = arr2 (fun (p : Fin 1024) (e : Fin 128) => z ⟨1024 * (t.val / 4) + p.val, by have := lt32 t; omega⟩ e) := by
  funext y
  obtain ⟨p, e, rfl⟩ : ∃ (p : Fin 1024) (e : Fin 128), y = ix2 p e := ⟨y 0, y 1, eq_ix2 y⟩
  rw [iblk0_apply V c t (ix2 p e) (ix2 ⟨1024 * (t.val / 4) + p.val, by have := lt32 t; omega⟩ e) rfl rfl, hz]
  rfl

/-- The right block is the real matrix of z's rows 2048·(t % 4) + q. -/
theorem iblk1_eq (hz' : V c (Pipeline.arrRef spec2 1) = arr2 z) (t : Fin cfg2.N) :
    (L2.iblk V c 1 t : Vec Ideal S2048x128 .f32)
      = arr2 (fun (q : Fin 2048) (e : Fin 128) => z ⟨2048 * (t.val % 4) + q.val, by omega⟩ e) := by
  funext y
  obtain ⟨q, e, rfl⟩ : ∃ (q : Fin 2048) (e : Fin 128), y = ix2 q e := ⟨y 0, y 1, eq_ix2 y⟩
  rw [iblk1_apply V c t (ix2 q e) (ix2 ⟨2048 * (t.val % 4) + q.val, by omega⟩ e) rfl rfl, hz']
  rfl

/-! ## From the blocks to the array -/

/-- What point t writes back is block t of the Gram matrix. -/
theorem flushed_eq (hz : V c (Pipeline.arrRef spec2 0) = arr2 z) (hz' : V c (Pipeline.arrRef spec2 1) = arr2 z) (t : Fin cfg2.N) :
    (L2.dat (F := Ideal) V c).flushed 2 t = ((cfg2.win 2).blk t).view.read (Elt Ideal) (arr2 (gram z)) := by
  show (cfg2.win 2).cut (grid2.coords t) ((L2.dat V c).after 2 t) = _
  rw [L2.after_2, iblk0_eq V c z hz t, iblk1_eq V c z hz' t]
  obtain ⟨-, -, -, -, e0, e1⟩ := idx_facts t
  have ht := lt32 t
  funext j
  obtain ⟨p, q, rfl⟩ : ∃ (p : Fin 1024) (q : Fin 2048), j = ix2 p q := ⟨j 0, j 1, eq_ix2 j⟩
  rw [View.read_apply]
  show k2_pay1 (F := Ideal) (arr2 _) (arr2 _) (ix2 p q) = arr2 (gram z) (((cfg2.win 2).blk t).view.emb (ix2 p q))
  have hk : ((cfg2.win 2).blk t).view.emb (ix2 p q)
      = ix2 (⟨1024 * (t.val / 4) + p.val, by omega⟩ : Fin 8192) (⟨2048 * (t.val % 4) + q.val, by omega⟩ : Fin 8192) := by
    funext a
    apply Fin.ext
    match a with
    | ⟨0, _⟩ => show win2_2.index t 0 * 1024 + 1 * p.val = 1024 * (t.val / 4) + p.val; rw [e0]; omega
    | ⟨1, _⟩ => show win2_2.index t 1 * 2048 + 1 * q.val = 2048 * (t.val % 4) + q.val; rw [e1]; omega
  rw [pay_arr2, hk, arr2_ix2]
  rfl

end Blocks

/-- An index of the result is in point t's block iff each coordinate is in the block's range on its axis. -/
theorem mem_blk (t : Fin cfg2.N) (i : S8192x8192.Idx) :
    i ∈ ((cfg2.win 2).blk t).view.set ↔ ∀ a : Fin 2, win2_2.index t a * S1024x2048.size a ≤ (i a).val ∧ (i a).val < win2_2.index t a * S1024x2048.size a + S1024x2048.size a := by
  show i ∈ ((View.whole main_v4).slice (win2_2.rect t)).set ↔ _
  rw [View.set_slice_whole, Rect.mem_set_unit]
  exact Iff.rfl

/-- The 32 blocks tile the result: entry (r, s) lies in the block of the point 4·(r / 1024) + s / 2048. -/
theorem cover (i : S8192x8192.Idx) : ∃ t : Fin cfg2.N, (cfg2.win 2).flush t = true ∧ i ∈ ((cfg2.win 2).blk t).view.set := by
  have h0 : (i 0).val < 8192 := (i 0).isLt
  have h1 : (i 1).val < 8192 := (i 1).isLt
  obtain ⟨t, ht⟩ : ∃ t : Fin cfg2.N, t.val = 4 * ((i 0).val / 1024) + (i 1).val / 2048 :=
    ⟨⟨4 * ((i 0).val / 1024) + (i 1).val / 2048, by rw [show cfg2.N = 32 from N_2]; omega⟩, rfl⟩
  refine ⟨t, flush2_2 t, ?_⟩
  rw [mem_blk]
  obtain ⟨-, -, -, -, e0, e1⟩ := idx_facts t
  intro a
  match a with
  | ⟨0, _⟩ => show win2_2.index t 0 * 1024 ≤ (i 0).val ∧ (i 0).val < win2_2.index t 0 * 1024 + 1024; rw [e0, ht]; omega
  | ⟨1, _⟩ => show win2_2.index t 1 * 2048 ≤ (i 1).val ∧ (i 1).val < win2_2.index t 1 * 2048 + 2048; rw [e1, ht]; omega

/-- The decoder's result array ends holding the Gram matrix of its input's rows. -/
theorem decode_value (V : (c : Dev nD) → (b : Ref sig .tc) → Buf (Elt Ideal) ((c : Thread nD τ).loc b)) (c : Dev nD)
    (z : Fin 8192 → Fin 128 → ℝ) (hz : V c (Pipeline.arrRef spec2 0) = arr2 z) (hz' : V c (Pipeline.arrRef spec2 1) = arr2 z) :
    (L2.dat (F := Ideal) V c).arrAt 2 cfg2.N = arr2 (gram z) :=
  (L2.dat (F := Ideal) V c).arrAt_eq_of_cover 2 (arr2 (gram z)) (fun t _ => flushed_eq V c z hz hz' t) cover

end Cert.KernelIdeal.V2

end
-- ==== Proof.Algebraic.lean ====
/-
  The algebraic claim: at the extended reals, from memories that agree on the twelve arguments, the kernel program's
  two results and the reference's are the same arrays.

  Under the precondition every argument entry is a real, so every array in sight is a real matrix. Layer by layer the
  kernel's output array is the specification's matrix: the first layer's hidden features (the accumulated blocks of
  Σ_r (A_r·H)·W_rᵀ, bias, positive part), the second layer's embedding over those features, and the decoder's Gram
  matrix of the embedding's rows. The reference's two results are the same two matrices, so they agree entry by entry.
-/
import proofs.«157318_j36885179138300_1_alg».proof.Defs
import proofs.«157318_j36885179138300_1_alg».proof.Proof.KI.Run
import proofs.«157318_j36885179138300_1_alg».proof.Proof.Gen.ReferenceIdeal.Run
import proofs.«157318_j36885179138300_1_alg».proof.Proof.Gen.ReferenceIdeal.Read
import proofs.«157318_j36885179138300_1_alg».proof.Proof.Gen.Pre_finite_inputs
import proofs.«157318_j36885179138300_1_alg».proof.Proof.Spec
import proofs.«157318_j36885179138300_1_alg».proof.Proof.Val.Ref
import proofs.«157318_j36885179138300_1_alg».proof.Proof.Val.Finite
import proofs.«157318_j36885179138300_1_alg».proof.Proof.Val.Layer0
import proofs.«157318_j36885179138300_1_alg».proof.Proof.Val.Layer1
import proofs.«157318_j36885179138300_1_alg».proof.Proof.Val.Decode
import Idealize.ShloMosaic.Lib.ValueIdx
import Idealize.ShloMosaic.Lib.ValueLayout

noncomputable section

open Idealize.ShloMosaic Idealize.ShloMosaic.TcCoe Idealize.SL.Sem Idealize.ShloMosaic.ValueIdx
open Cert.Spec

namespace Cert.Proof.Alg

open Cert.KernelIdeal Cert.KernelIdeal.Gen Cert.KernelIdeal.Run

/-- A real vector reshaped to one row is that row. -/
theorem reshape_row (b : Fin 128 → ℝ) (h : (⟨1, ![128]⟩ : Shape).ShapeCasts ⟨2, ![1, 128]⟩) :
    (fun i => shapeCast (⟨2, ![1, 128]⟩ : Shape) (arr1 b) h i) = row1 b := by
  funext i
  obtain ⟨u, q, rfl⟩ : ∃ (u : Fin 1) (q : Fin 128), i = ix2 u q := ⟨i 0, i 1, eq_ix2 i⟩
  rw [shapeCast_a_1a_apply, row1_ix2, arr1_ix1]

section Kernel

variable (m : (ℓ : Loc nD τ sig) → Buf (Elt Ideal) ℓ) (ρ : Dev nD → PrngReg) (c : Dev nD)
variable (g0 : Fin 8192 → Fin 64 → ℝ) (g1 g2 g3 : Fin 8192 → Fin 8192 → ℝ) (g4 g5 g6 : Fin 128 → Fin 64 → ℝ)
  (g7 g8 g9 : Fin 128 → Fin 128 → ℝ) (g10 g11 : Fin 128 → ℝ)
variable (e0 : m ((c.tc : Thread nD τ).loc main_arg0) = arr2 g0) (e1 : m ((c.tc : Thread nD τ).loc main_arg1) = arr2 g1)
  (e2 : m ((c.tc : Thread nD τ).loc main_arg2) = arr2 g2) (e3 : m ((c.tc : Thread nD τ).loc main_arg3) = arr2 g3)
  (e4 : m ((c.tc : Thread nD τ).loc main_arg4) = arr2 g4) (e5 : m ((c.tc : Thread nD τ).loc main_arg5) = arr2 g5)
  (e6 : m ((c.tc : Thread nD τ).loc main_arg6) = arr2 g6) (e7 : m ((c.tc : Thread nD τ).loc main_arg7) = arr2 g7)
  (e8 : m ((c.tc : Thread nD τ).loc main_arg8) = arr2 g8) (e9 : m ((c.tc : Thread nD τ).loc main_arg9) = arr2 g9)
  (e10 : m ((c.tc : Thread nD τ).loc main_arg10) = arr1 g10) (e11 : m ((c.tc : Thread nD τ).loc main_arg11) = arr1 g11)

include e0 e1 e2 e3 e4 e5 e6 e10 in
/-- After the first layer the hidden-feature buffer holds the specification's hidden features. -/
theorem hidden_array : V3 m ρ c main_v1 = arr2 (Spec.hidden g1 g2 g3 g0 g4 g5 g6 g10) := by
  rw [V3_main_v1]
  refine Cert.KernelIdeal.V0.layer0_value (V1 m ρ) g1 g2 g3 g0 g4 g5 g6 g10 c ?_ ?_ ?_ ?_ ?_ ?_ ?_ ?_
  · exact (V1_of_arg m ρ c main_arg1 (by decide)).trans e1
  · exact (V1_of_arg m ρ c main_arg2 (by decide)).trans e2
  · exact (V1_of_arg m ρ c main_arg3 (by decide)).trans e3
  · exact (V1_of_arg m ρ c main_arg0 (by decide)).trans e0
  · exact (V1_of_arg m ρ c main_arg4 (by decide)).trans e4
  · exact (V1_of_arg m ρ c main_arg5 (by decide)).trans e5
  · exact (V1_of_arg m ρ c main_arg6 (by decide)).trans e6
  · exact (V1_main_v0 m ρ c).trans (by rw [e10]; exact reshape_row g10 _)

include e0 e1 e2 e3 e4 e5 e6 e7 e8 e9 e10 e11 in
/-- After the second layer the first result holds the specification's embedding. -/
theorem emb_array : W5 m ρ c (Proc.devRef .tc main_v3) = arr2 (Spec.emb g1 g2 g3 g0 g4 g5 g6 g10 g7 g8 g9 g11) := by
  rw [W5_main_v3]
  refine (Cert.KernelIdeal.V1.layer1_value (V3 m ρ) g1 g2 g3 (Spec.hidden g1 g2 g3 g0 g4 g5 g6 g10) g7 g8 g9 g11 c ?_ ?_ ?_ ?_ ?_ ?_ ?_ ?_).trans rfl
  · exact (V3_of_arg m ρ c main_arg1 (by decide) (by decide) (by decide)).trans e1
  · exact (V3_of_arg m ρ c main_arg2 (by decide) (by decide) (by decide)).trans e2
  · exact (V3_of_arg m ρ c main_arg3 (by decide) (by decide) (by decide)).trans e3
  · exact hidden_array m ρ c g0 g1 g2 g3 g4 g5 g6 g10 e0 e1 e2 e3 e4 e5 e6 e10
  · exact (V3_of_arg m ρ c main_arg7 (by decide) (by decide) (by decide)).trans e7
  · exact (V3_of_arg m ρ c main_arg8 (by decide) (by decide) (by decide)).trans e8
  · exact (V3_of_arg m ρ c main_arg9 (by decide) (by decide) (by decide)).trans e9
  · exact (V3_main_v2 m ρ c).trans (by rw [e11]; exact reshape_row g11 _)

include e0 e1 e2 e3 e4 e5 e6 e7 e8 e9 e10 e11 in
/-- After the decoder the second result holds the Gram matrix of the embedding's rows. -/
theorem logits_array : W5 m ρ c (Proc.devRef .tc main_v4) = arr2 (Spec.gram (Spec.emb g1 g2 g3 g0 g4 g5 g6 g10 g7 g8 g9 g11)) := by
  have hz : V4 m ρ c main_v3 = arr2 (Spec.emb g1 g2 g3 g0 g4 g5 g6 g10 g7 g8 g9 g11) :=
    (V4_main_v3 m ρ c).trans ((W5_main_v3 m ρ c).symm.trans (emb_array m ρ c g0 g1 g2 g3 g4 g5 g6 g7 g8 g9 g10 g11 e0 e1 e2 e3 e4 e5 e6 e7 e8 e9 e10 e11))
  rw [W5_main_v4]
  exact Cert.KernelIdeal.V2.decode_value (V4 m ρ) c _ hz hz

end Kernel

/-- The two programs' results agree. -/
theorem algebraic : Cert.algebraic_KernelIdeal_ReferenceIdeal := by
  intro m ρ m' ρ' hpre hagree
  refine ⟨fun c => W5 m ρ c (Proc.devRef .tc main_v3), fun c => W5 m ρ c (Proc.devRef .tc main_v4), ?_, ?_⟩
  · exact (θ_run Cert.KernelIdeal.defs _ _).mono (fun _ h c =>
      ⟨h c _ (mem_uc main_v3 (by decide)), h c _ (mem_uc main_v4 (by decide)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c),
        (h c _ (mem_uc main_arg5 (by decide))).trans (W5_main_arg5 m ρ c),
        (h c _ (mem_uc main_arg6 (by decide))).trans (W5_main_arg6 m ρ c),
        (h c _ (mem_uc main_arg7 (by decide))).trans (W5_main_arg7 m ρ c),
        (h c _ (mem_uc main_arg8 (by decide))).trans (W5_main_arg8 m ρ c),
        (h c _ (mem_uc main_arg9 (by decide))).trans (W5_main_arg9 m ρ c),
        (h c _ (mem_uc main_arg10 (by decide))).trans (W5_main_arg10 m ρ c),
        (h c _ (mem_uc main_arg11 (by decide))).trans (W5_main_arg11 m ρ c)⟩)
      (run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    all_goals
      obtain ⟨g0, g1, g2, g3, g4, g5, g6, g7, g8, g9, g10, g11, e0, e1, e2, e3, e4, e5, e6, e7, e8, e9, e10, e11⟩ :=
        Cert.Finite.exists_real_of_pre _ _ _ _ _ _ _ _ _ _ _ _ (hpre c)
    · rw [Cert.ReferenceIdeal.Read.val_main_v32_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2, e0, e1, e2, e3, e4, e5, e6, e7, e8, e9, e10, e11, Cert.RefValue.ref_emb]
      exact (emb_array m ρ c g0 g1 g2 g3 g4 g5 g6 g7 g8 g9 g10 g11 e0 e1 e2 e3 e4 e5 e6 e7 e8 e9 e10 e11).symm
    · rw [Cert.ReferenceIdeal.Read.val_main_v34_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2, e0, e1, e2, e3, e4, e5, e6, e7, e8, e9, e10, e11, Cert.RefValue.ref_logits]
      exact (logits_array m ρ c g0 g1 g2 g3 g4 g5 g6 g7 g8 g9 g10 g11 e0 e1 e2 e3 e4 e5 e6 e7 e8 e9 e10 e11).symm

end Cert.Proof.Alg

end
-- ==== Proof.lean ====
/-
  The certificate's claim. Both kernel programs (the word-level one and its idealization, the same text) and the
  reference terminate without fault and leave the twelve argument arrays unchanged; the idealization's ledger is
  empty, so nothing is to be preserved; and over the extended reals, under finite inputs, the kernel's two results —
  the second graph-convolution layer's embedding and the Gram matrix of its rows — are the reference's.
-/
import proofs.«157318_j36885179138300_1_alg».proof.Defs
import proofs.«157318_j36885179138300_1_alg».proof.Proof.Gen.Kernel
import proofs.«157318_j36885179138300_1_alg».proof.Proof.Gen.KernelIdeal
import proofs.«157318_j36885179138300_1_alg».proof.Proof.Gen.ReferenceIdeal
import proofs.«157318_j36885179138300_1_alg».proof.Proof.Gen.Pre_finite_inputs
import proofs.«157318_j36885179138300_1_alg».proof.Proof.Frames
import proofs.«157318_j36885179138300_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Frames.frame_referenceIdeal,
    trivial, Cert.Proof.Alg.algebraic⟩

end Cert.Proof

end
